-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v72_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S128x64 : Shape := ⟨2, ![128, 64]⟩
abbrev S128 : Shape := ⟨1, ![128]⟩
abbrev S256x128 : Shape := ⟨2, ![256, 128]⟩
abbrev S256 : Shape := ⟨1, ![256]⟩
abbrev S32x256 : Shape := ⟨2, ![32, 256]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_arg15 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg12 : FVec F S128 .f32) (main_arg13 : FVec F S128 .f32) (main_arg14 : FVec F S256 .f32) (main_arg15 : FVec F S256 .f32) (main_v48 : IVec S_ 1) (main_v49 : FVec F S32x256 .f32) (main_v50 : FVec F S32x256 .f32) : IVec S_ 1 :=
  let main_v51 : IVec S32x256 1 := cmpf .olt main_v49 main_v50
  let main_c_19 : IVec S_ 1 := constantI S_ 1 1#1
  let main_v52 : IVec S_ 1 := (fun x v => Host.reduce IntOp.andi x v reducesTo_S32x256_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_v63 main_v67

def fn_part2 {F : FTy → Type} [FloatOps F] (main_arg8 : FVec F S256x128 .f32) (main_arg9 : FVec F S32x256 .f32) (main_arg10 : FVec F S32 .f32) (main_arg11 : FVec F S32x256 .f32) (main_arg12 : FVec F S128 .f32) (main_arg13 : FVec F S128 .f32) (main_arg14 : FVec F S256 .f32) (main_arg15 : FVec F S256 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S32x256 .f32 := Host.absf main_arg9
  let main_cst_14 : FVec F S_ .f32 := constant S_ .f32 0x7F800000#32
  let main_v40 : FVec F S32x256 .f32 := broadcastInDim S32x256 ![] bcast_S_S32x256 main_cst_14
  let main_v41 : IVec S32x256 1 := cmpf .olt main_v39 main_v40
  let main_c_15 : IVec S_ 1 := constantI S_ 1 1#1
  let main_v42 : IVec S_ 1 := (fun x v => Host.reduce IntOp.andi x v reducesTo_S32x256_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x256 .f32 := Host.absf main_arg11
  let main_cst_18 : FVec F S_ .f32 := constant S_ .f32 0x7F800000#32
  let main_v50 : FVec F S32x256 .f32 := broadcastInDim S32x256 ![] bcast_S_S32x256 main_cst_18
  fn_part3 (F := F) main_arg12 main_arg13 main_arg14 main_arg15 main_v48 main_v49 main_v50

def fn_part1 {F : FTy → Type} [FloatOps F] (main_arg5 : FVec F S128x64 .f32) (main_arg6 : FVec F S256x128 .f32) (main_arg7 : FVec F S256 .f32) (main_arg8 : FVec F S256x128 .f32) (main_arg9 : FVec F S32x256 .f32) (main_arg10 : FVec F S32 .f32) (main_arg11 : FVec F S32x256 .f32) (main_arg12 : FVec F S128 .f32) (main_arg13 : FVec F S128 .f32) (main_arg14 : FVec F S256 .f32) (main_arg15 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x64 .f32) (main_arg1 : IVec S2x800000 32) (main_arg2 : FVec F S800000 .f32) (main_arg3 : FVec F S128x64 .f32) (main_arg4 : FVec F S128 .f32) (main_arg5 : FVec F S128x64 .f32) (main_arg6 : FVec F S256x128 .f32) (main_arg7 : FVec F S256 .f32) (main_arg8 : FVec F S256x128 .f32) (main_arg9 : FVec F S32x256 .f32) (main_arg10 : FVec F S32 .f32) (main_arg11 : FVec F S32x256 .f32) (main_arg12 : FVec F S128 .f32) (main_arg13 : FVec F S128 .f32) (main_arg14 : FVec F S256 .f32) (main_arg15 : FVec F S256 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S128x64 : Shape := ⟨2, ![128, 64]⟩
abbrev S128 : Shape := ⟨1, ![128]⟩
abbrev S256x128 : Shape := ⟨2, ![256, 128]⟩
abbrev S256 : Shape := ⟨1, ![256]⟩
abbrev S32x256 : Shape := ⟨2, ![32, 256]⟩
abbrev S32 : Shape := ⟨1, ![32]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S64x128 : Shape := ⟨2, ![64, 128]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S800000x128 : Shape := ⟨2, ![800000, 128]⟩
abbrev S128x256 : Shape := ⟨2, ![128, 256]⟩
abbrev S1x256 : Shape := ⟨2, ![1, 256]⟩
abbrev S50000x256 : Shape := ⟨2, ![50000, 256]⟩
abbrev S5000x256 : Shape := ⟨2, ![5000, 256]⟩
abbrev S800000x256 : Shape := ⟨2, ![800000, 256]⟩
abbrev S256x32 : Shape := ⟨2, ![256, 32]⟩
abbrev S1x32 : Shape := ⟨2, ![1, 32]⟩
abbrev S50000x32 : Shape := ⟨2, ![50000, 32]⟩
abbrev S5000x32 : Shape := ⟨2, ![5000, 32]⟩

abbrev nBuf : Space → Nat
  | .hbm => 108
  | .vmem => 49
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S128x64, .f32⟩
  | .hbm, ⟨4, _⟩ => ⟨S128, .f32⟩
  | .hbm, ⟨5, _⟩ => ⟨S128x64, .f32⟩
  | .hbm, ⟨6, _⟩ => ⟨S256x128, .f32⟩
  | .hbm, ⟨7, _⟩ => ⟨S256, .f32⟩
  | .hbm, ⟨8, _⟩ => ⟨S256x128, .f32⟩
  | .hbm, ⟨9, _⟩ => ⟨S32x256, .f32⟩
  | .hbm, ⟨10, _⟩ => ⟨S32, .f32⟩
  | .hbm, ⟨11, _⟩ => ⟨S32x256, .f32⟩
  | .hbm, ⟨12, _⟩ => ⟨S128, .f32⟩
  | .hbm, ⟨13, _⟩ => ⟨S128, .f32⟩
  | .hbm, ⟨14, _⟩ => ⟨S256, .f32⟩
  | .hbm, ⟨15, _⟩ => ⟨S256, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S800000x1, .f32⟩
  | .hbm, ⟨30, _⟩ => ⟨S800000x64, .f32⟩
  | .hbm, ⟨31, _⟩ => ⟨S800000x64, .f32⟩
  | .hbm, ⟨32, _⟩ => ⟨S_, .f32⟩
  | .hbm, ⟨33, _⟩ => ⟨S50000x64, .f32⟩
  | .hbm, ⟨34, _⟩ => ⟨S800000x1, .i32⟩
  | .hbm, ⟨35, _⟩ => ⟨S50000x64, .f32⟩
  | .hbm, ⟨36, _⟩ => ⟨S64x128, .f32⟩
  | .hbm, ⟨37, _⟩ => ⟨S64x128, .f32⟩
  | .hbm, ⟨38, _⟩ => ⟨S1x128, .f32⟩
  | .hbm, ⟨39, _⟩ => ⟨S50000x128, .f32⟩
  | .hbm, ⟨40, _⟩ => ⟨S1x128, .f32⟩
  | .hbm, ⟨41, _⟩ => ⟨S1x128, .f32⟩
  | .hbm, ⟨42, _⟩ => ⟨S_, .f32⟩
  | .hbm, ⟨43, _⟩ => ⟨S1x128, .f32⟩
  | .hbm, ⟨44, _⟩ => ⟨S1x128, .f32⟩
  | .hbm, ⟨45, _⟩ => ⟨S_, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S50000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S800000x1, .f32⟩
  | .hbm, ⟨63, _⟩ => ⟨S800000x128, .f32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S128x256, .f32⟩
  | .hbm, ⟨70, _⟩ => ⟨S128x256, .f32⟩
  | .hbm, ⟨71, _⟩ => ⟨S1x256, .f32⟩
  | .hbm, ⟨72, _⟩ => ⟨S50000x256, .f32⟩
  | .hbm, ⟨73, _⟩ => ⟨S1x256, .f32⟩
  | .hbm, ⟨74, _⟩ => ⟨S1x256, .f32⟩
  | .hbm, ⟨75, _⟩ => ⟨S_, .f32⟩
  | .hbm, ⟨76, _⟩ => ⟨S1x256, .f32⟩
  | .hbm, ⟨77, _⟩ => ⟨S1x256, .f32⟩
  | .hbm, ⟨78, _⟩ => ⟨S_, .f32⟩
  | .hbm, ⟨79, _⟩ => ⟨S1x256, .f32⟩
  | .hbm, ⟨80, _⟩ => ⟨S1x256, .f32⟩
  | .hbm, ⟨81, _⟩ => ⟨S1x256, .f32⟩
  | .hbm, ⟨82, _⟩ => ⟨S1x256, .f32⟩
  | .hbm, ⟨83, _⟩ => ⟨S1x256, .f32⟩
  | .hbm, ⟨84, _⟩ => ⟨S1x256, .f32⟩
  | .hbm, ⟨85, _⟩ => ⟨S50000x256, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x256, .f32⟩
  | .hbm, ⟨95, _⟩ => ⟨S800000x1, .f32⟩
  | .hbm, ⟨96, _⟩ => ⟨S800000x256, .f32⟩
  | .hbm, ⟨97, _⟩ => ⟨S800000x256, .f32⟩
  | .hbm, ⟨98, _⟩ => ⟨S_, .f32⟩
  | .hbm, ⟨99, _⟩ => ⟨S50000x256, .f32⟩
  | .hbm, ⟨100, _⟩ => ⟨S800000x1, .i32⟩
  | .hbm, ⟨101, _⟩ => ⟨S50000x256, .f32⟩
  | .hbm, ⟨102, _⟩ => ⟨S256x32, .f32⟩
  | .hbm, ⟨103, _⟩ => ⟨S256x32, .f32⟩
  | .hbm, ⟨104, _⟩ => ⟨S1x32, .f32⟩
  | .hbm, ⟨105, _⟩ => ⟨S50000x32, .f32⟩
  | .hbm, ⟨106, _⟩ => ⟨S1x32, .f32⟩
  | .hbm, ⟨107, _⟩ => ⟨S1x32, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x256, .f32⟩
  | .local _ .vmem, ⟨24, _⟩ => ⟨S128x256, .f32⟩
  | .local _ .vmem, ⟨25, _⟩ => ⟨S1x256, .f32⟩
  | .local _ .vmem, ⟨26, _⟩ => ⟨S5000x256, .f32⟩
  | .local _ .vmem, ⟨27, _⟩ => ⟨S5000x256, .f32⟩
  | .local _ .vmem, ⟨28, _⟩ => ⟨S1x256, .f32⟩
  | .local _ .vmem, ⟨29, _⟩ => ⟨S1x256, .f32⟩
  | .local _ .vmem, ⟨30, _⟩ => ⟨S5000x256, .f32⟩
  | .local _ .vmem, ⟨31, _⟩ => ⟨S5000x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S5000x256, .f32⟩
  | .local _ .vmem, ⟨37, _⟩ => ⟨S5000x256, .f32⟩
  | .local _ .vmem, ⟨38, _⟩ => ⟨S5000x256, .f32⟩
  | .local _ .vmem, ⟨39, _⟩ => ⟨S5000x256, .f32⟩
  | .local _ .vmem, ⟨40, _⟩ => ⟨S5000x256, .f32⟩
  | .local _ .vmem, ⟨41, _⟩ => ⟨S5000x256, .f32⟩
  | .local _ .vmem, ⟨42, _⟩ => ⟨S256x32, .f32⟩
  | .local _ .vmem, ⟨43, _⟩ => ⟨S256x32, .f32⟩
  | .local _ .vmem, ⟨44, _⟩ => ⟨S1x32, .f32⟩
  | .local _ .vmem, ⟨45, _⟩ => ⟨S5000x32, .f32⟩
  | .local _ .vmem, ⟨46, _⟩ => ⟨S5000x32, .f32⟩
  | .local _ .vmem, ⟨47, _⟩ => ⟨S1x32, .f32⟩
  | .local _ .vmem, ⟨48, _⟩ => ⟨S1x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20_0 : Ref sig .tc := ⟨.hbm, 39, rfl⟩
abbrev main_v20_1 : Ref sig .tc := ⟨.hbm, 40, rfl⟩
abbrev main_v20_2 : Ref sig .tc := ⟨.hbm, 41, rfl⟩
abbrev main_cst_1 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_3 : Ref sig .tc := ⟨.hbm, 53, rfl⟩
abbrev main_v30 : Ref sig .tc := ⟨.hbm, 54, rfl⟩
abbrev main_v31 : Ref sig .tc := ⟨.hbm, 55, rfl⟩
abbrev main_c_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46_0 : Ref sig .tc := ⟨.hbm, 72, rfl⟩
abbrev main_v46_1 : Ref sig .tc := ⟨.hbm, 73, rfl⟩
abbrev main_v46_2 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_8 : Ref sig .tc := ⟨.hbm, 86, rfl⟩
abbrev main_v56 : Ref sig .tc := ⟨.hbm, 87, rfl⟩
abbrev main_v57 : Ref sig .tc := ⟨.hbm, 88, rfl⟩
abbrev main_c_9 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_10 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72_0 : Ref sig .tc := ⟨.hbm, 105, rfl⟩
abbrev main_v72_1 : Ref sig .tc := ⟨.hbm, 106, rfl⟩
abbrev main_v72_2 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc4_stg6_0 : Ref sig .tc := ⟨.vmem, 47, rfl⟩
abbrev cc4_stg7_0 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46
abbrev cc4_sem6_0 : DmaSem sig := 47
abbrev cc4_sem7_0 : DmaSem sig := 48

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x32 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  transposes_S128x64_S64x128_1_0 : S128x64.Transposes [1, 0] S64x128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  bcast_S_S1x128 : S_.BroadcastsInDim S1x128 (![] : Fin 0 → Fin S1x128.rank)
  shapeCasts_S5000x128_S5000x128 : S5000x128.ShapeCasts S5000x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S256x128_S128x256_1_0 : S256x128.Transposes [1, 0] S128x256
  shapeCasts_S256_S1x256 : S256.ShapeCasts S1x256
  inb_S1x256_S1x256_0_0 : ∀ a, (![0, 0] : Fin 2 → Nat) a + S1x256.size a ≤ S1x256.size a
  h_S1x256 : 0 < S1x256.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  reduces_S5000x256_S256 : S5000x256.Reduces [0] S256
  bcast_S_S1x256 : S_.BroadcastsInDim S1x256 (![] : Fin 0 → Fin S1x256.rank)
  shapeCasts_S5000x256_S5000x256 : S5000x256.ShapeCasts S5000x256
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  transposes_S32x256_S256x32_1_0 : S32x256.Transposes [1, 0] S256x32
  shapeCasts_S32_S1x32 : S32.ShapeCasts S1x32
  inb_S1x32_S1x32_0_0 : ∀ a, (![0, 0] : Fin 2 → Nat) a + S1x32.size a ≤ S1x32.size a
  h_S1x32 : 0 < S1x32.numel
  inb_S256x32_S256x32_0_0 : ∀ a, (![0, 0] : Fin 2 → Nat) a + S256x32.size a ≤ S256x32.size a
  h_S256x32 : 0 < S256x32.numel
  shapeCasts_S256x32_S256x32 : S256x32.ShapeCasts S256x32
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  reduces_S5000x32_S32 : S5000x32.Reduces [0] S32
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x32_S5000x32_1_0_0_1_n_n_wf : DotDims.WF S5000x256 S256x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x256.size a ≤ S128x256.size a
  hwx2_3 : ∀ i : grid2.Coords, EltTy.bits .f32 = 32 ∨ (Rect.block (s := S128x256) S128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x256.size a ≤ S50000x256.size a
  hwx2_5 : ∀ i : grid2.Coords, EltTy.bits .f32 = 32 ∨ (Rect.block (s := S50000x256) S5000x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x256.size a ≤ S50000x256.size a
  hwx3_5 : ∀ i : grid3.Coords, EltTy.bits .f32 = 32 ∨ (Rect.block (s := S50000x256) S5000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x256.size a ≤ S50000x256.size a
  hwx4_1 : ∀ i : grid4.Coords, EltTy.bits .f32 = 32 ∨ (Rect.block (s := S50000x256) S5000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x32.size a ≤ S256x32.size a
  hwx4_2 : ∀ i : grid4.Coords, EltTy.bits .f32 = 32 ∨ (Rect.block (s := S256x32) S256x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x32.size a ≤ S256x32.size a
  hwx4_3 : ∀ i : grid4.Coords, EltTy.bits .f32 = 32 ∨ (Rect.block (s := S256x32) S256x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x32.size a ≤ S50000x32.size a
  hwx4_5 : ∀ i : grid4.Coords, EltTy.bits .f32 = 32 ∨ (Rect.block (s := S50000x32) S5000x32.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x32.size a ≤ S1x32.size a
  hwx4_6 : ∀ i : grid4.Coords, EltTy.bits .f32 = 32 ∨ (Rect.block (s := S1x32) S1x32.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x32.size a ≤ S1x32.size a
  hwx4_7 : ∀ i : grid4.Coords, EltTy.bits .f32 = 32 ∨ (Rect.block (s := S1x32) S1x32.size (cc4_transform_7 i) (hinb4_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x32_S5000x32_1_0_0_1_n_n : DotDims S5000x256 S256x32 S5000x32 where
  lhsContracting := [1]
  rhsContracting := [0]
  lhsNonContracting := [0]
  rhsNonContracting := [1]
  lhsBatch := []
  rhsBatch := []
  wf := dot_S5000x256_S256x32_S5000x32_1_0_0_1_n_n_wf

abbrev win0_0 : Pipeline.Window sig grid0 :=
  Pipeline.Window.ofSpec (Memref.whole main_v16) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v20_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v20_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46_0) S5000x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v46_1) S1x256.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v46_2) S1x256.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v46_0) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S5000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v68) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S5000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v69) S256x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S256x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v71) S1x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v72_0) S5000x32.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v72_1) S1x32.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v72_2) S1x32.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S128x64 : Shape := ⟨2, ![128, 64]⟩
abbrev S128 : Shape := ⟨1, ![128]⟩
abbrev S256x128 : Shape := ⟨2, ![256, 128]⟩
abbrev S256 : Shape := ⟨1, ![256]⟩
abbrev S32x256 : Shape := ⟨2, ![32, 256]⟩
abbrev S32 : Shape := ⟨1, ![32]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S64x128 : Shape := ⟨2, ![64, 128]⟩
abbrev S50000x128 : Shape := ⟨2, ![50000, 128]⟩
abbrev S1x128 : Shape := ⟨2, ![1, 128]⟩
abbrev S800000x128 : Shape := ⟨2, ![800000, 128]⟩
abbrev S128x256 : Shape := ⟨2, ![128, 256]⟩
abbrev S50000x256 : Shape := ⟨2, ![50000, 256]⟩
abbrev S1x256 : Shape := ⟨2, ![1, 256]⟩
abbrev S800000x256 : Shape := ⟨2, ![800000, 256]⟩
abbrev S256x32 : Shape := ⟨2, ![256, 32]⟩
abbrev S50000x32 : Shape := ⟨2, ![50000, 32]⟩
abbrev S1x32 : Shape := ⟨2, ![1, 32]⟩

abbrev nBuf : Space → Nat
  | .hbm => 154
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S128x64, .f32⟩
  | 4 => ⟨S128, .f32⟩
  | 5 => ⟨S128x64, .f32⟩
  | 6 => ⟨S256x128, .f32⟩
  | 7 => ⟨S256, .f32⟩
  | 8 => ⟨S256x128, .f32⟩
  | 9 => ⟨S32x256, .f32⟩
  | 10 => ⟨S32, .f32⟩
  | 11 => ⟨S32x256, .f32⟩
  | 12 => ⟨S128, .f32⟩
  | 13 => ⟨S128, .f32⟩
  | 14 => ⟨S256, .f32⟩
  | 15 => ⟨S256, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x64, .f32⟩
  | 29 => ⟨S800000x1, .f32⟩
  | 30 => ⟨S800000x64, .f32⟩
  | 31 => ⟨S800000x64, .f32⟩
  | 32 => ⟨S_, .f32⟩
  | 33 => ⟨S50000x64, .f32⟩
  | 34 => ⟨S800000x1, .i32⟩
  | 35 => ⟨S50000x64, .f32⟩
  | 36 => ⟨S64x128, .f32⟩
  | 37 => ⟨S50000x128, .f32⟩
  | 38 => ⟨S1x128, .f32⟩
  | 39 => ⟨S50000x128, .f32⟩
  | 40 => ⟨S50000x128, .f32⟩
  | 41 => ⟨S64x128, .f32⟩
  | 42 => ⟨S50000x128, .f32⟩
  | 43 => ⟨S50000x128, .f32⟩
  | 44 => ⟨S_, .f32⟩
  | 45 => ⟨S128, .f32⟩
  | 46 => ⟨S_, .f32⟩
  | 47 => ⟨S128, .f32⟩
  | 48 => ⟨S128, .f32⟩
  | 49 => ⟨S1x128, .f32⟩
  | 50 => ⟨S50000x128, .f32⟩
  | 51 => ⟨S50000x128, .f32⟩
  | 52 => ⟨S50000x128, .f32⟩
  | 53 => ⟨S_, .f32⟩
  | 54 => ⟨S128, .f32⟩
  | 55 => ⟨S_, .f32⟩
  | 56 => ⟨S128, .f32⟩
  | 57 => ⟨S128, .f32⟩
  | 58 => ⟨S1x128, .f32⟩
  | 59 => ⟨S50000x128, .f32⟩
  | 60 => ⟨S50000x128, .f32⟩
  | 61 => ⟨S_, .f32⟩
  | 62 => ⟨S128, .f32⟩
  | 63 => ⟨S128, .f32⟩
  | 64 => ⟨S128, .f32⟩
  | 65 => ⟨S1x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S50000x128, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x128, .f32⟩
  | 84 => ⟨S800000x1, .f32⟩
  | 85 => ⟨S800000x128, .f32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S128x256, .f32⟩
  | 92 => ⟨S50000x256, .f32⟩
  | 93 => ⟨S1x256, .f32⟩
  | 94 => ⟨S50000x256, .f32⟩
  | 95 => ⟨S50000x256, .f32⟩
  | 96 => ⟨S128x256, .f32⟩
  | 97 => ⟨S50000x256, .f32⟩
  | 98 => ⟨S50000x256, .f32⟩
  | 99 => ⟨S_, .f32⟩
  | 100 => ⟨S256, .f32⟩
  | 101 => ⟨S_, .f32⟩
  | 102 => ⟨S256, .f32⟩
  | 103 => ⟨S256, .f32⟩
  | 104 => ⟨S1x256, .f32⟩
  | 105 => ⟨S50000x256, .f32⟩
  | 106 => ⟨S50000x256, .f32⟩
  | 107 => ⟨S50000x256, .f32⟩
  | 108 => ⟨S_, .f32⟩
  | 109 => ⟨S256, .f32⟩
  | 110 => ⟨S_, .f32⟩
  | 111 => ⟨S256, .f32⟩
  | 112 => ⟨S256, .f32⟩
  | 113 => ⟨S1x256, .f32⟩
  | 114 => ⟨S50000x256, .f32⟩
  | 115 => ⟨S50000x256, .f32⟩
  | 116 => ⟨S_, .f32⟩
  | 117 => ⟨S256, .f32⟩
  | 118 => ⟨S256, .f32⟩
  | 119 => ⟨S256, .f32⟩
  | 120 => ⟨S1x256, .f32⟩
  | 121 => ⟨S50000x256, .f32⟩
  | 122 => ⟨S50000x256, .f32⟩
  | 123 => ⟨S1x256, .f32⟩
  | 124 => ⟨S50000x256, .f32⟩
  | 125 => ⟨S50000x256, .f32⟩
  | 126 => ⟨S1x256, .f32⟩
  | 127 => ⟨S50000x256, .f32⟩
  | _ => ⟨S50000x64, .f32⟩

abbrev hbmTy0_1 (i : Nat) : BufTy := match i % 128 with
  | 0 => ⟨S50000x256, .f32⟩
  | 1 => ⟨S50000x256, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x256, .f32⟩
  | 11 => ⟨S800000x1, .f32⟩
  | 12 => ⟨S800000x256, .f32⟩
  | 13 => ⟨S800000x256, .f32⟩
  | 14 => ⟨S_, .f32⟩
  | 15 => ⟨S50000x256, .f32⟩
  | 16 => ⟨S800000x1, .i32⟩
  | 17 => ⟨S50000x256, .f32⟩
  | 18 => ⟨S256x32, .f32⟩
  | 19 => ⟨S50000x32, .f32⟩
  | 20 => ⟨S1x32, .f32⟩
  | 21 => ⟨S50000x32, .f32⟩
  | 22 => ⟨S50000x32, .f32⟩
  | 23 => ⟨S256x32, .f32⟩
  | 24 => ⟨S50000x32, .f32⟩
  | 25 => ⟨S50000x32, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_1 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_6 : Ref sig .tc := ⟨.hbm, 75, rfl⟩
abbrev main_v51 : Ref sig .tc := ⟨.hbm, 76, rfl⟩
abbrev main_v52 : Ref sig .tc := ⟨.hbm, 77, rfl⟩
abbrev main_c_7 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_8 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_9 : Ref sig .tc := ⟨.hbm, 99, rfl⟩
abbrev main_v72 : Ref sig .tc := ⟨.hbm, 100, rfl⟩
abbrev main_cst_10 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_11 : Ref sig .tc := ⟨.hbm, 108, rfl⟩
abbrev main_v79 : Ref sig .tc := ⟨.hbm, 109, rfl⟩
abbrev main_cst_12 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_13 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_c_14 : Ref sig .tc := ⟨.hbm, 130, rfl⟩
abbrev main_v98 : Ref sig .tc := ⟨.hbm, 131, rfl⟩
abbrev main_v99 : Ref sig .tc := ⟨.hbm, 132, rfl⟩
abbrev main_c_15 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_16 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  bcast_S_S256 : S_.BroadcastsInDim S256 (![] : Fin 0 → Fin S256.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  transposes_S32x256_S256x32_1_0 : S32x256.Transposes [1, 0] S256x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x32_S50000x32_1_0_0_1_n_n_wf : DotDims.WF S50000x256 S256x32 S50000x32 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x32_S50000x32_1_0_0_1_n_n : DotDims S50000x256 S256x32 S50000x32 where
  lhsContracting := [1]
  rhsContracting := [0]
  lhsNonContracting := [0]
  rhsNonContracting := [1]
  lhsBatch := []
  rhsBatch := []
  wf := dot_S50000x256_S256x32_S50000x32_1_0_0_1_n_n_wf

class Facts : Prop extends Facts₀ where

variable [Facts]
-- ==== Proof.Spec.lean ====
/-
  Three graph-convolution layers with a batch normalisation and a hyperbolic tangent after the first two, as
  functions on arrays of extended reals — the mathematics both programs compute, written once, with the neighbour
  aggregation left as a parameter (both programs aggregate by the same gather, scale and scatter-add).

  A layer is  H = g(X)·Wr + bias + X·Wo  (g the aggregation).  The normalisation needs each column's mean and
  variance over the 50000 rows.  One program takes the variance as the mean of the squares minus the squared mean,
  the other as the mean of the squared deviations; over the extended reals the two agree when every entry of H is a
  real number (with an infinite entry the first form meets ∞ − ∞), and that is the only place finiteness enters.
  The hyperbolic tangent maps every extended real to a real, so the second and third layers' inputs are real whatever
  the first normalisation did.
-/
import Idealize.ShloMosaic.PureOps.Ideal
import Idealize.ShloMosaic.PureOps.Ideal.Laws
import Idealize.ShloMosaic.Lib.ValueIdx
import Mathlib.Tactic.Ring
import Mathlib.Algebra.BigOperators.Fin
import Mathlib.Logic.Equiv.Fin.Basic
import Mathlib.Tactic.FieldSimp
import Mathlib.Tactic.NormNum

noncomputable section

namespace Cert.GraphNet

open Idealize.ShloMosaic Idealize.ShloMosaic.ValueIdx

/-- A two-axis array of extended reals. -/
abbrev Arr (n0 n1 : ℕ) : Type := (⟨2, ![n0, n1]⟩ : Shape).Idx → EReal

/-- The number of rows, as the float both programs divide by (50000.0). -/
abbrev rows : EReal := Ideal.ofBits .f32 0x47435000#32
/-- The normalisation's epsilon (the float nearest 1e-5), the same word in both programs: never evaluated. -/
abbrev eps : EReal := Ideal.ofBits .f32 0x3727C5AC#32

/-- One layer's linear part: row r, column j is Σₖ A(r,k)·Wr(k,j) + bias(j) + Σₖ X(r,k)·Wo(k,j). -/
def conv {n a b : ℕ} (A X : Arr n a) (Wr Wo : Arr a b) (bias : Arr 1 b) : Arr n b :=
  fun i => (∑ k : Fin a, A (ix2 (i 0) k) * Wr (ix2 k (i 1))) + bias (ix2 0 (i 1))
    + ∑ k : Fin a, X (ix2 (i 0) k) * Wo (ix2 k (i 1))

/-- A column's sum over the rows. -/
def colSum {n b : ℕ} (H : Arr n b) : Arr 1 b := fun i => ∑ r : Fin n, H (ix2 r (i 1))
/-- A column's sum of squares over the rows. -/
def colSumSq {n b : ℕ} (H : Arr n b) : Arr 1 b := fun i => ∑ r : Fin n, H (ix2 r (i 1)) * H (ix2 r (i 1))
/-- A column's mean. -/
def mean {b : ℕ} (H : Arr 50000 b) : Arr 1 b := fun i => Ideal.div (colSum H i) rows
/-- A column's variance as the mean of the squares minus the squared mean. -/
def varMoments {b : ℕ} (H : Arr 50000 b) : Arr 1 b :=
  fun i => Ideal.div (colSumSq H i) rows - mean H i * mean H i
/-- A column's variance as the mean of the squared deviations from the mean. -/
def varCentred {b : ℕ} (H : Arr 50000 b) : Arr 1 b :=
  fun i => Ideal.div (∑ r : Fin 50000, (H (ix2 r (i 1)) - mean H i) * (H (ix2 r (i 1)) - mean H i)) rows

/-- Normalise column-wise, scale, shift, and take the hyperbolic tangent. -/
def normTanh {b : ℕ} (H : Arr 50000 b) (mu var γ β : Arr 1 b) : Arr 50000 b :=
  fun i => Ideal.tanh (((H i - mu (ix2 0 (i 1))) * Ideal.rsqrt (var (ix2 0 (i 1)) + eps)) * γ (ix2 0 (i 1))
    + β (ix2 0 (i 1)))

/-- The whole network with the variance taken from the moments. -/
def netMoments (g1 : Arr 50000 64 → Arr 50000 64) (g2 : Arr 50000 128 → Arr 50000 128)
    (g3 : Arr 50000 256 → Arr 50000 256) (x : Arr 50000 64) (W1r W1o : Arr 64 128) (b1 : Arr 1 128)
    (W2r W2o : Arr 128 256) (b2 : Arr 1 256) (W3r W3o : Arr 256 32) (b3 : Arr 1 32) (γ1 β1 : Arr 1 128)
    (γ2 β2 : Arr 1 256) : Arr 50000 32 :=
  let H1 := conv (g1 x) x W1r W1o b1
  let Y1 := normTanh H1 (mean H1) (varMoments H1) γ1 β1
  let H2 := conv (g2 Y1) Y1 W2r W2o b2
  let Y2 := normTanh H2 (mean H2) (varMoments H2) γ2 β2
  conv (g3 Y2) Y2 W3r W3o b3

/-- The whole network with the variance taken from the deviations. -/
def netCentred (g1 : Arr 50000 64 → Arr 50000 64) (g2 : Arr 50000 128 → Arr 50000 128)
    (g3 : Arr 50000 256 → Arr 50000 256) (x : Arr 50000 64) (W1r W1o : Arr 64 128) (b1 : Arr 1 128)
    (W2r W2o : Arr 128 256) (b2 : Arr 1 256) (W3r W3o : Arr 256 32) (b3 : Arr 1 32) (γ1 β1 : Arr 1 128)
    (γ2 β2 : Arr 1 256) : Arr 50000 32 :=
  let H1 := conv (g1 x) x W1r W1o b1
  let Y1 := normTanh H1 (mean H1) (varCentred H1) γ1 β1
  let H2 := conv (g2 Y1) Y1 W2r W2o b2
  let Y2 := normTanh H2 (mean H2) (varCentred H2) γ2 β2
  conv (g3 Y2) Y2 W3r W3o b3

/-! ## Row tiles

The 50000 rows are ten tiles of 5000: row 5000·t + q is row q of tile t.  A layer's output on a tile is the layer of
the operands' tiles (the weights and the bias have no row axis), and a column's sum over all rows is the sum over the
tiles of the tile's column sum. -/

/-- Row q of tile t. -/
def tileRow (t : Fin 10) (q : Fin 5000) : Fin 50000 := ⟨5000 * t.val + q.val, by omega⟩
/-- Tile t of an array of 50000 rows. -/
def tile {a : ℕ} (A : Arr 50000 a) (t : Fin 10) : Arr 5000 a := fun i => A (ix2 (tileRow t (i 0)) (i 1))

theorem tile_apply {a : ℕ} (A : Arr 50000 a) (t : Fin 10) (q : Fin 5000) (k : Fin a) :
    tile A t (ix2 q k) = A (ix2 (tileRow t q) k) := rfl

theorem conv_tile {a b : ℕ} (A X : Arr 50000 a) (Wr Wo : Arr a b) (bias : Arr 1 b) (t : Fin 10) :
    tile (conv A X Wr Wo bias) t = conv (tile A t) (tile X t) Wr Wo bias := rfl

/-- A sum over the 50000 rows, tile by tile. -/
theorem sum_tiles (f : Fin 50000 → EReal) : ∑ r, f r = ∑ t : Fin 10, ∑ q : Fin 5000, f (tileRow t q) := by
  rw [← Fintype.sum_prod_type' (fun t q => f (tileRow t q))]
  refine (Fintype.sum_equiv (finProdFinEquiv (m := 10) (n := 5000)) _ _ fun p => ?_).symm
  refine congrArg f (Fin.ext ?_)
  show 5000 * p.1.val + p.2.val = p.2.val + 5000 * p.1.val
  omega

theorem colSum_tiles {b : ℕ} (H : Arr 50000 b) : colSum H = fun i => ∑ t : Fin 10, colSum (tile H t) i :=
  funext fun i => sum_tiles fun r => H (ix2 r (i 1))
theorem colSumSq_tiles {b : ℕ} (H : Arr 50000 b) : colSumSq H = fun i => ∑ t : Fin 10, colSumSq (tile H t) i :=
  funext fun i => sum_tiles fun r => H (ix2 r (i 1)) * H (ix2 r (i 1))

/-! ## Real-valued arrays -/

/-- An extended real that is a real number. -/
def IsR (x : EReal) : Prop := ∃ r : ℝ, x = (r : EReal)
/-- An array all of whose entries are real numbers. -/
def RealArr {n0 n1 : ℕ} (A : Arr n0 n1) : Prop := ∀ i, IsR (A i)

theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.zero : IsR 0 := ⟨0, rfl⟩
theorem IsR.sum {ι : Type*} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))

/-- The hyperbolic tangent of any extended real is a real number. -/
theorem IsR.tanh (x : EReal) : IsR (Ideal.tanh x) := by
  induction x using EReal.rec with
  | bot => exact ⟨-1, by rw [Ideal.tanh_bot]; norm_num⟩
  | coe r => exact ⟨Real.tanh r, Ideal.tanh_coe r⟩
  | top => exact ⟨1, by rw [Ideal.tanh_top]; norm_num⟩

theorem conv_real {n a b : ℕ} {A X : Arr n a} {Wr Wo : Arr a b} {bias : Arr 1 b} (hA : RealArr A) (hX : RealArr X)
    (hWr : RealArr Wr) (hWo : RealArr Wo) (hb : RealArr bias) : RealArr (conv A X Wr Wo bias) := fun i =>
  ((IsR.sum _ _ fun k _ => (hA _).mul (hWr _)).add (hb _)).add (IsR.sum _ _ fun k _ => (hX _).mul (hWo _))

theorem normTanh_real {b : ℕ} (H : Arr 50000 b) (mu var γ β : Arr 1 b) : RealArr (normTanh H mu var γ β) :=
  fun _ => IsR.tanh _

/-! ## The two variances agree on real columns -/

/-- 50000.0 denotes the real 50000. -/
theorem rows_eq : rows = ((50000 : ℝ) : EReal) := by
  simp [rows, Ideal.ofBits, Ideal.ieee, -EReal.coe_mul]; norm_num

/-- The coercion of a finite sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the mean of the squares minus the squared mean is the mean of the squared deviations. -/
theorem real_var (h : Fin 50000 → ℝ) :
    (∑ r, h r * h r) * (1 / 50000) - ((∑ r, h r) * (1 / 50000)) * ((∑ r, h r) * (1 / 50000))
      = (∑ r, (h r - (∑ r, h r) * (1 / 50000)) * (h r - (∑ r, h r) * (1 / 50000))) * (1 / 50000) := by
  have e : ∑ r, (h r - (∑ r, h r) * (1 / 50000)) * (h r - (∑ r, h r) * (1 / 50000))
      = (∑ r, h r * h r) - 2 * ((∑ r, h r) * (1 / 50000)) * (∑ r, h r)
        + 50000 * (((∑ r, h r) * (1 / 50000)) * ((∑ r, h r) * (1 / 50000))) := by
    have : ∀ r, (h r - (∑ r, h r) * (1 / 50000)) * (h r - (∑ r, h r) * (1 / 50000))
        = h r * h r - 2 * ((∑ r, h r) * (1 / 50000)) * h r
          + ((∑ r, h r) * (1 / 50000)) * ((∑ r, h r) * (1 / 50000)) := fun r => by ring
    simp only [this, Finset.sum_add_distrib, Finset.sum_sub_distrib, ← Finset.mul_sum, Finset.sum_const,
      Finset.card_univ, Fintype.card_fin, nsmul_eq_mul]
    push_cast
    ring
  rw [e]; ring

theorem var_eq {b : ℕ} {H : Arr 50000 b} (hH : RealArr H) : varMoments H = varCentred H := by
  funext i
  choose h hh using fun r : Fin 50000 => hH (ix2 r (i 1))
  have hmean : mean H i = (((∑ r, h r) * (1 / 50000) : ℝ) : EReal) := by
    unfold mean colSum
    simp only [hh]
    rw [rows_eq, Ideal.div_coe (by norm_num : (50000 : ℝ) ≠ 0), ← coe_sum, ← EReal.coe_mul]
  unfold varMoments varCentred colSumSq
  rw [hmean]
  simp only [hh]
  rw [rows_eq, Ideal.div_coe (by norm_num : (50000 : ℝ) ≠ 0), Ideal.div_coe (by norm_num : (50000 : ℝ) ≠ 0)]
  simp only [← EReal.coe_mul, ← EReal.coe_sub, ← coe_sum]
  exact congrArg _ (real_var h)

/-! ## The two networks agree on real inputs -/

theorem net_eq (g1 : Arr 50000 64 → Arr 50000 64) (g2 : Arr 50000 128 → Arr 50000 128)
    (g3 : Arr 50000 256 → Arr 50000 256) (x : Arr 50000 64) (W1r W1o : Arr 64 128) (b1 : Arr 1 128)
    (W2r W2o : Arr 128 256) (b2 : Arr 1 256) (W3r W3o : Arr 256 32) (b3 : Arr 1 32) (γ1 β1 : Arr 1 128)
    (γ2 β2 : Arr 1 256)
    (hg1 : ∀ X, RealArr X → RealArr (g1 X)) (hg2 : ∀ X, RealArr X → RealArr (g2 X))
    (hx : RealArr x) (hW1r : RealArr W1r) (hW1o : RealArr W1o) (hb1 : RealArr b1)
    (hW2r : RealArr W2r) (hW2o : RealArr W2o) (hb2 : RealArr b2) :
    netMoments g1 g2 g3 x W1r W1o b1 W2r W2o b2 W3r W3o b3 γ1 β1 γ2 β2
      = netCentred g1 g2 g3 x W1r W1o b1 W2r W2o b2 W3r W3o b3 γ1 β1 γ2 β2 := by
  unfold netMoments netCentred
  have h1 : RealArr (conv (g1 x) x W1r W1o b1) := conv_real (hg1 x hx) hx hW1r hW1o hb1
  simp only []
  rw [var_eq h1]
  have hY1 := normTanh_real (conv (g1 x) x W1r W1o b1) (mean (conv (g1 x) x W1r W1o b1))
    (varCentred (conv (g1 x) x W1r W1o b1)) γ1 β1
  rw [var_eq (conv_real (hg2 _ hY1) hY1 hW2r hW2o hb2)]

end Cert.GraphNet

end
-- ==== Proof.KernelNet.lean ====
/-
  The kernel program's host-side preparations, as functions of the argument arrays: the edge list's two rows, a
  negative source index wrapped by the number of nodes, the neighbour aggregation of one layer (gather the source
  rows, scale each by its edge weight, scatter-add into the destination rows, from zero), a weight matrix
  transposed, and a vector laid out as one row.
-/
import proofs.«134842_j42545946034237_1_alg».proof.Proof.Gen.KernelIdeal
import proofs.«134842_j42545946034237_1_alg».proof.Proof.Spec

noncomputable section

namespace Cert.KernelIdeal.Net

open Idealize.ShloMosaic Cert.KernelIdeal Cert.KernelIdeal.Gen Cert.GraphNet

/-- The edges' source nodes: row 0 of the edge list. -/
def src (ei : IVec S2x800000 32) : IVec S800000 32 :=
  shapeCast S800000 (extractStridedSlice S1x800000 ![0, 0] ei slices_S2x800000_S1x800000_0_0) shapeCasts_S1x800000_S800000
/-- The edges' destination nodes: row 1 of the edge list. -/
def dst (ei : IVec S2x800000 32) : IVec S800000 32 :=
  shapeCast S800000 (extractStridedSlice S1x800000 ![1, 0] ei slices_S2x800000_S1x800000_1_0) shapeCasts_S1x800000_S800000
/-- A node index counted from the end (negative) is moved up by the number of nodes; as a column of gather starts. -/
def wrapped (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Layer 1's aggregation: row d of the result is the sum over the edges into d of weight · (source row of X). -/
def agg64 (ei : IVec S2x800000 32) (w : FVec Ideal S800000 .f32) (X : Arr 50000 64) : Arr 50000 64 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 (dst ei))
    (mulf (Host.gather gather_S50000x64_S800000x1_S800000x64_1_0_n_n_0_1_164 X (wrapped (src ei)))
      (broadcastInDim S800000x64 ![0, 1] bcast_S800000x1_S800000x64_0_1
        (broadcastInDim S800000x1 ![0] bcast_S800000_S800000x1_0 w)))
/-- Layer 2's aggregation. -/
def agg128 (ei : IVec S2x800000 32) (w : FVec Ideal S800000 .f32) (X : Arr 50000 128) : Arr 50000 128 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dst ei))
    (mulf (Host.gather gather_S50000x128_S800000x1_S800000x128_1_0_n_n_0_1_1128 X (wrapped (src ei)))
      (broadcastInDim S800000x128 ![0, 1] bcast_S800000x1_S800000x128_0_1
        (broadcastInDim S800000x1 ![0] bcast_S800000_S800000x1_0 w)))
/-- Layer 3's aggregation. -/
def agg256 (ei : IVec S2x800000 32) (w : FVec Ideal S800000 .f32) (X : Arr 50000 256) : Arr 50000 256 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 (dst ei))
    (mulf (Host.gather gather_S50000x256_S800000x1_S800000x256_1_0_n_n_0_1_1256 X (wrapped (src ei)))
      (broadcastInDim S800000x256 ![0, 1] bcast_S800000x1_S800000x256_0_1
        (broadcastInDim S800000x1 ![0] bcast_S800000_S800000x1_0 w)))

/-- The weight matrices, transposed to (inputs × outputs). -/
def wT1 (W : FVec Ideal S128x64 .f32) : Arr 64 128 := transpose S64x128 [1, 0] W transposes_S128x64_S64x128_1_0
def wT2 (W : FVec Ideal S256x128 .f32) : Arr 128 256 := transpose S128x256 [1, 0] W transposes_S256x128_S128x256_1_0
def wT3 (W : FVec Ideal S32x256 .f32) : Arr 256 32 := transpose S256x32 [1, 0] W transposes_S32x256_S256x32_1_0
/-- A vector laid out as one row. -/
def row128 (v : FVec Ideal S128 .f32) : Arr 1 128 := shapeCast S1x128 v shapeCasts_S128_S1x128
def row256 (v : FVec Ideal S256 .f32) : Arr 1 256 := shapeCast S1x256 v shapeCasts_S256_S1x256
def row32 (v : FVec Ideal S32 .f32) : Arr 1 32 := shapeCast S1x32 v shapeCasts_S32_S1x32

end Cert.KernelIdeal.Net

end
-- ==== Proof.RefNet.lean ====
/-
  The reference program's preparations, as functions of the argument arrays: the edge list's two rows, a
  negative source index wrapped by the number of nodes, the neighbour aggregation of one layer (gather the source
  rows, scale each by its edge weight, scatter-add into the destination rows, from zero), a weight matrix
  transposed, and a vector laid out as one row.
-/
import proofs.«134842_j42545946034237_1_alg».proof.Proof.Gen.ReferenceIdeal
import proofs.«134842_j42545946034237_1_alg».proof.Proof.Spec

noncomputable section

namespace Cert.ReferenceIdeal.Net

open Idealize.ShloMosaic Cert.ReferenceIdeal Cert.ReferenceIdeal.Gen Cert.GraphNet

/-- The edges' source nodes: row 0 of the edge list. -/
def src (ei : IVec S2x800000 32) : IVec S800000 32 :=
  shapeCast S800000 (extractStridedSlice S1x800000 ![0, 0] ei slices_S2x800000_S1x800000_0_0) shapeCasts_S1x800000_S800000
/-- The edges' destination nodes: row 1 of the edge list. -/
def dst (ei : IVec S2x800000 32) : IVec S800000 32 :=
  shapeCast S800000 (extractStridedSlice S1x800000 ![1, 0] ei slices_S2x800000_S1x800000_1_0) shapeCasts_S1x800000_S800000
/-- A node index counted from the end (negative) is moved up by the number of nodes; as a column of gather starts. -/
def wrapped (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Layer 1's aggregation: row d of the result is the sum over the edges into d of weight · (source row of X). -/
def agg64 (ei : IVec S2x800000 32) (w : FVec Ideal S800000 .f32) (X : Arr 50000 64) : Arr 50000 64 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 (dst ei))
    (mulf (Host.gather gather_S50000x64_S800000x1_S800000x64_1_0_n_n_0_1_164 X (wrapped (src ei)))
      (broadcastInDim S800000x64 ![0, 1] bcast_S800000x1_S800000x64_0_1
        (broadcastInDim S800000x1 ![0] bcast_S800000_S800000x1_0 w)))
/-- Layer 2's aggregation. -/
def agg128 (ei : IVec S2x800000 32) (w : FVec Ideal S800000 .f32) (X : Arr 50000 128) : Arr 50000 128 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dst ei))
    (mulf (Host.gather gather_S50000x128_S800000x1_S800000x128_1_0_n_n_0_1_1128 X (wrapped (src ei)))
      (broadcastInDim S800000x128 ![0, 1] bcast_S800000x1_S800000x128_0_1
        (broadcastInDim S800000x1 ![0] bcast_S800000_S800000x1_0 w)))
/-- Layer 3's aggregation. -/
def agg256 (ei : IVec S2x800000 32) (w : FVec Ideal S800000 .f32) (X : Arr 50000 256) : Arr 50000 256 :=
  Host.scatterAdd scatter_S50000x256_S800000x1_S800000x256_1_0_0_1
    (broadcastInDim S50000x256 ![] bcast_S_S50000x256 (constant S_ .f32 0x00000000#32))
    (broadcastInDim S800000x1 ![0] bcast_S800000_S800000x1_0 (dst ei))
    (mulf (Host.gather gather_S50000x256_S800000x1_S800000x256_1_0_n_n_0_1_1256 X (wrapped (src ei)))
      (broadcastInDim S800000x256 ![0, 1] bcast_S800000x1_S800000x256_0_1
        (broadcastInDim S800000x1 ![0] bcast_S800000_S800000x1_0 w)))

/-- The weight matrices, transposed to (inputs × outputs). -/
def wT1 (W : FVec Ideal S128x64 .f32) : Arr 64 128 := transpose S64x128 [1, 0] W transposes_S128x64_S64x128_1_0
def wT2 (W : FVec Ideal S256x128 .f32) : Arr 128 256 := transpose S128x256 [1, 0] W transposes_S256x128_S128x256_1_0
def wT3 (W : FVec Ideal S32x256 .f32) : Arr 256 32 := transpose S256x32 [1, 0] W transposes_S32x256_S256x32_1_0
/-- A vector laid out as one row (a broadcast along a new leading axis of extent one). -/
def brow128 (v : FVec Ideal S128 .f32) : Arr 1 128 := broadcastInDim S1x128 ![1] bcast_S128_S1x128_1 v
def brow256 (v : FVec Ideal S256 .f32) : Arr 1 256 := broadcastInDim S1x256 ![1] bcast_S256_S1x256_1 v
def brow32 (v : FVec Ideal S32 .f32) : Arr 1 32 := broadcastInDim S1x32 ![1] bcast_S32_S1x32_1 v

end Cert.ReferenceIdeal.Net

end
-- ==== Proof.KernelChain.lean ====
/-
  The kernel program's intermediate arrays as functions of the launch contents of the arguments: each layer's
  linear output H and, after the first two, its normalised tanh Y (variance from the moments).
-/
import proofs.«134842_j42545946034237_1_alg».proof.Proof.KernelNet

noncomputable section

open Idealize.ShloMosaic Idealize.ShloMosaic.TcCoe Idealize.SL.Sem

namespace Cert.KernelIdeal.Chain

open Cert.KernelIdeal Cert.KernelIdeal.Gen Cert.KernelIdeal.Net Cert.GraphNet

variable (m : (ℓ : Loc nD τ sig) → Buf (Elt Ideal) ℓ)

/-- Layer 1's aggregated neighbours. -/
def A1 (c : Dev nD) : Arr 50000 64 := agg64 (m ((c : Thread nD τ).loc main_arg1)) (m ((c : Thread nD τ).loc main_arg2)) (m ((c : Thread nD τ).loc main_arg0))
/-- Layer 1's linear output. -/
def H1 (c : Dev nD) : Arr 50000 128 :=
  conv (A1 m c) (m ((c : Thread nD τ).loc main_arg0)) (wT1 (m ((c : Thread nD τ).loc main_arg3))) (wT1 (m ((c : Thread nD τ).loc main_arg5))) (row128 (m ((c : Thread nD τ).loc main_arg4)))
/-- Layer 1 normalised (variance from the moments), through tanh. -/
def Y1 (c : Dev nD) : Arr 50000 128 :=
  normTanh (H1 m c) (mean (H1 m c)) (varMoments (H1 m c)) (row128 (m ((c : Thread nD τ).loc main_arg12))) (row128 (m ((c : Thread nD τ).loc main_arg13)))
/-- Layer 2's aggregated neighbours. -/
def A2 (c : Dev nD) : Arr 50000 128 := agg128 (m ((c : Thread nD τ).loc main_arg1)) (m ((c : Thread nD τ).loc main_arg2)) (Y1 m c)
/-- Layer 2's linear output. -/
def H2 (c : Dev nD) : Arr 50000 256 :=
  conv (A2 m c) (Y1 m c) (wT2 (m ((c : Thread nD τ).loc main_arg6))) (wT2 (m ((c : Thread nD τ).loc main_arg8))) (row256 (m ((c : Thread nD τ).loc main_arg7)))
/-- Layer 2 normalised, through tanh. -/
def Y2 (c : Dev nD) : Arr 50000 256 :=
  normTanh (H2 m c) (mean (H2 m c)) (varMoments (H2 m c)) (row256 (m ((c : Thread nD τ).loc main_arg14))) (row256 (m ((c : Thread nD τ).loc main_arg15)))
/-- Layer 3's aggregated neighbours. -/
def A3 (c : Dev nD) : Arr 50000 256 := agg256 (m ((c : Thread nD τ).loc main_arg1)) (m ((c : Thread nD τ).loc main_arg2)) (Y2 m c)
/-- Layer 3's linear output: the program's result. -/
def H3 (c : Dev nD) : Arr 50000 32 :=
  conv (A3 m c) (Y2 m c) (wT3 (m ((c : Thread nD τ).loc main_arg9))) (wT3 (m ((c : Thread nD τ).loc main_arg11))) (row32 (m ((c : Thread nD τ).loc main_arg10)))

/-- The chain IS the network of Spec.lean at the prepared arguments. -/
theorem H3_eq_net (c : Dev nD) : H3 m c =
    netMoments (agg64 (m ((c : Thread nD τ).loc main_arg1)) (m ((c : Thread nD τ).loc main_arg2))) (agg128 (m ((c : Thread nD τ).loc main_arg1)) (m ((c : Thread nD τ).loc main_arg2)))
      (agg256 (m ((c : Thread nD τ).loc main_arg1)) (m ((c : Thread nD τ).loc main_arg2))) (m ((c : Thread nD τ).loc main_arg0))
      (wT1 (m ((c : Thread nD τ).loc main_arg3))) (wT1 (m ((c : Thread nD τ).loc main_arg5))) (row128 (m ((c : Thread nD τ).loc main_arg4)))
      (wT2 (m ((c : Thread nD τ).loc main_arg6))) (wT2 (m ((c : Thread nD τ).loc main_arg8))) (row256 (m ((c : Thread nD τ).loc main_arg7)))
      (wT3 (m ((c : Thread nD τ).loc main_arg9))) (wT3 (m ((c : Thread nD τ).loc main_arg11))) (row32 (m ((c : Thread nD τ).loc main_arg10)))
      (row128 (m ((c : Thread nD τ).loc main_arg12))) (row128 (m ((c : Thread nD τ).loc main_arg13))) (row256 (m ((c : Thread nD τ).loc main_arg14))) (row256 (m ((c : Thread nD τ).loc main_arg15))) := rfl

end Cert.KernelIdeal.Chain

end
-- ==== Proof.ConvPay0.lean ====
/-
  The arithmetic of region 0's body (one row tile of a graph-convolution layer, 64 inputs to 128 outputs) read at the
  extended reals: the tile's linear output is the layer of Spec.lean on the tile (the two matrix products are sums
  over the contracted axis — rounding the operands to bfloat16 is the identity here —, the bias row is broadcast down
  the rows), the running column sums add the tile's column sums, the running sums of squares the tile's.
-/
import proofs.«134842_j42545946034237_1_alg».proof.Proof.Gen.KernelIdeal.Skeleton
import proofs.«134842_j42545946034237_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.ConvPay0

open Cert.KernelIdeal Cert.KernelIdeal.Gen Cert.GraphNet

/-! ## The dot's operand indices, axis by axis

The contraction runs over the left operand's axis 1 and the right operand's axis 0; the left's axis 0 is the result's
row, the right's axis 1 the result's column. -/

theorem lhs_dot_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide),
    dif_pos (show (0 : Fin S5000x64.rank) ∈ dot_S5000x64_S64x128_S5000x128_1_0_0_1_n_n.lhsNonContracting by decide)]
  rfl

theorem lhs_dot_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q

theorem rhs_dot_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q

theorem rhs_dot_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide),
    dif_pos (show (1 : Fin S64x128.rank) ∈ dot_S5000x64_S64x128_S5000x128_1_0_0_1_n_n.rhsNonContracting by decide)]
  rfl

/-- A matrix product into the zero splat, at row p and column c: the sum over the 64 contracted positions. -/
theorem matmul_at (L : FVec Ideal S5000x64 .bf16) (R : FVec Ideal S64x128 .bf16) (p : Fin 5000) (c : Fin 128) :
    matmul dot_S5000x64_S64x128_S5000x128_1_0_0_1_n_n none L R (constant (F := Ideal) S5000x128 .f32 0x00000000#32) (ix2 p c)
      = ∑ k : Fin 64, L (ix2 p k) * R (ix2 k c) := by
  simp only [matmul]
  rw [Ideal.matmul_constant_zero_apply,
    ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p c)
      ((contrEquiv1 dot_S5000x64_S64x128_S5000x128_1_0_0_1_n_n 64 rfl rfl).symm k) = ix2 p k :=
    funext fun a => Fin.ext (by
      match a with
      | ⟨0, _⟩ => exact lhs_dot_0 _ _
      | ⟨1, _⟩ => exact (lhs_dot_1 _ _).trans hk)
  have er : dot_S5000x64_S64x128_S5000x128_1_0_0_1_n_n.rhsIdx (ix2 p c)
      ((contrEquiv1 dot_S5000x64_S64x128_S5000x128_1_0_0_1_n_n 64 rfl rfl).symm k) = ix2 k c :=
    funext fun a => Fin.ext (by
      match a with
      | ⟨0, _⟩ => exact (rhs_dot_0 _ _).trans hk
      | ⟨1, _⟩ => exact rhs_dot_1 _ _)
  rw [el, er]

/-- The sum down the 5000 rows of a tile, at column c. -/
theorem rowsum_at (H : FVec Ideal S5000x128 .f32) (hφ : FKind.Formats .f32)
    (hacc : (0x00000000#32 : BitVec 32) = 0x00000000#32) (c : Fin 128) :
    multiReduction (F := Ideal) .add [0] S128 H 0x00000000#32 reduces_S5000x128_S128 hφ hacc (ix1 c)
      = ∑ r : Fin 5000, H (ix2 r c) := by
  refine (Ideal.multiReduction_add_single H 0x00000000#32 reduces_S5000x128_S128 hφ hacc (ix1 c)).trans ?_
  refine Finset.sum_congr rfl fun r _ => congrArg H ?_
  funext a
  apply Fin.ext
  match a with
  | ⟨0, _⟩ => rfl
  | ⟨1, _⟩ => rfl

variable (x0 x1 : Vec Ideal S5000x64 .f32) (x2 x3 : Vec Ideal S64x128 .f32) (x4 : Vec Ideal S1x128 .f32)

/-- The stored tile: the layer's linear part on the tile's rows. -/
theorem pay4_eq : k0_pay4 (F := Ideal) x0 x1 x2 x3 x4 = (conv (x0 : Arr 5000 64) x1 x2 x3 x4 : Arr 5000 128) := by
  funext i
  obtain ⟨p, c, rfl⟩ : ∃ (p : Fin 5000) (c : Fin 128), i = ix2 p c := ⟨i 0, i 1, eq_ix2 i⟩
  unfold k0_pay4
  rw [shapeCast_self x0, shapeCast_self x2, shapeCast_self x3, shapeCast_self x4]
  rw [addf_apply, addf_apply, matmul_at, matmul_at, broadcastTo_1b_ab_apply]
  simp only [truncf_apply]
  rfl

/-- The stored column sums: what the buffer held plus the tile's column sums. -/
theorem pay5_eq (s : Vec Ideal S1x128 .f32) :
    k0_pay5 (F := Ideal) x0 x1 x2 x3 x4 s = fun i => s i + colSum (conv (x0 : Arr 5000 64) x1 x2 x3 x4 : Arr 5000 128) i := by
  funext i
  obtain ⟨u, c, rfl⟩ : ∃ (u : Fin 1) (c : Fin 128), i = ix2 u c := ⟨i 0, i 1, eq_ix2 i⟩
  unfold k0_pay5
  rw [shapeCast_self s, addf_apply, shapeCast_a_1a_apply, rowsum_at, pay4_eq]
  rfl

/-- The stored sums of squares: what the buffer held plus the tile's column sums of squares. -/
theorem pay1_eq (q : Vec Ideal S1x128 .f32) :
    k0_pay1 (F := Ideal) (k0_pay6 q) (k0_pay7 x0 x1 x2 x3 x4)
      = fun i => q i + colSumSq (conv (x0 : Arr 5000 64) x1 x2 x3 x4 : Arr 5000 128) i := by
  funext i
  obtain ⟨u, c, rfl⟩ : ∃ (u : Fin 1) (c : Fin 128), i = ix2 u c := ⟨i 0, i 1, eq_ix2 i⟩
  unfold k0_pay1 k0_pay6 k0_pay7
  rw [shapeCast_self q, addf_apply, shapeCast_a_1a_apply, rowsum_at, pay4_eq]
  rfl

/-- The two reset payloads are the zero row. -/
theorem pay2_eq : k0_pay2 (F := Ideal) = fun _ => (0 : EReal) := by
  funext i
  unfold k0_pay2
  rw [broadcast_apply]
  exact Ideal.ofBits_zero_f32
theorem pay3_eq : k0_pay3 (F := Ideal) = fun _ => (0 : EReal) := by
  funext i
  unfold k0_pay3
  rw [broadcast_apply]
  exact Ideal.ofBits_zero_f32

end Cert.KernelIdeal.ConvPay0

end
-- ==== Proof.Conv0.lean ====
/-
  Region 0 of the kernel program (one graph-convolution layer's linear part, 64 inputs to 128 outputs, ten row
  tiles of 5000): what its three result arrays hold after the last grid point, as functions of the five operand
  arrays the region is entered with.
-/
import proofs.«134842_j42545946034237_1_alg».proof.Proof.Gen.KernelIdeal.Frame
import proofs.«134842_j42545946034237_1_alg».proof.Proof.Spec
import proofs.«134842_j42545946034237_1_alg».proof.Proof.ConvPay0
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Conv0

open Cert.KernelIdeal Cert.KernelIdeal.Gen Cert.GraphNet

variable {F : FTy → Type} [FloatOps F]

theorem hz : (![0, 0] : Fin 2 → Nat) = fun _ => 0 := funext fun a => by fin_cases a <;> rfl

/-- Points 1 to 9, first result: the one covering store's payload, the tile's linear output. -/
theorem out_B_5 (c : Dev nD) (i : grid0.Coords) (a1 : Memref sig .tc .vmem S5000x64 .f32) (h1 : a1.IsWhole) (a2 : Memref sig .tc .vmem S5000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i) (x0 x1 : Vec F S5000x64 .f32) (x2 x3 : Vec F S64x128 .f32) (x4 : Vec F S1x128 .f32) (xo6 xo7 : Vec F S1x128 .f32) :
    out0_B_5 c i a1 h1 a2 h2 a3 h3 a4 h4 a5 h5 a6 h6 a7 h7 a8 h8 hc x0 x1 x2 x3 x4 xo6 xo7 = k0_pay4 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread,
    View.ld_unit_zero (S := S5000x64) hz, View.ld_unit_zero (S := S64x128) hz, View.ld_unit_zero (S := S1x128) hz]

/-- Points 1 to 9, second result: the running column sums the buffer held, updated. -/
theorem out_B_6 (c : Dev nD) (i : grid0.Coords) (a1 : Memref sig .tc .vmem S5000x64 .f32) (h1 : a1.IsWhole) (a2 : Memref sig .tc .vmem S5000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i) (x0 x1 : Vec F S5000x64 .f32) (x2 x3 : Vec F S64x128 .f32) (x4 : Vec F S1x128 .f32) (xo6 xo7 : Vec F S1x128 .f32) :
    out0_B_6 c i a1 h1 a2 h2 a3 h3 a4 h4 a5 h5 a6 h6 a7 h7 a8 h8 hc x0 x1 x2 x3 x4 xo6 xo7 = k0_pay5 x0 x1 x2 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread,
    h7.read_unread,
    View.ld_unit_zero (S := S5000x64) hz, View.ld_unit_zero (S := S64x128) hz, View.ld_unit_zero (S := S1x128) hz]

/-- Points 1 to 9, third result: the running sums of squares the buffer held, updated. -/
theorem out_B_7 (c : Dev nD) (i : grid0.Coords) (a1 : Memref sig .tc .vmem S5000x64 .f32) (h1 : a1.IsWhole) (a2 : Memref sig .tc .vmem S5000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i) (x0 x1 : Vec F S5000x64 .f32) (x2 x3 : Vec F S64x128 .f32) (x4 : Vec F S1x128 .f32) (xo6 xo7 : Vec F S1x128 .f32) :
    out0_B_7 c i a1 h1 a2 h2 a3 h3 a4 h4 a5 h5 a6 h6 a7 h7 a8 h8 hc x0 x1 x2 x3 x4 xo6 xo7 = k0_pay1 (k0_pay6 xo7) (k0_pay7 x0 x1 x2 x3 x4) := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread,
    h8.read_unread,
    View.ld_unit_zero (S := S5000x64) hz, View.ld_unit_zero (S := S64x128) hz, View.ld_unit_zero (S := S1x128) hz]

/-- Point 0, first result. -/
theorem out_A_5 (c : Dev nD) (i : grid0.Coords) (a1 : Memref sig .tc .vmem S5000x64 .f32) (h1 : a1.IsWhole) (a2 : Memref sig .tc .vmem S5000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i) (x0 x1 : Vec F S5000x64 .f32) (x2 x3 : Vec F S64x128 .f32) (x4 : Vec F S1x128 .f32) :
    out0_A_5 c i a1 h1 a2 h2 a3 h3 a4 h4 a5 h5 a6 h6 a7 h7 a8 h8 hc x0 x1 x2 x3 x4 = k0_pay4 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S5000x64) hz, View.ld_unit_zero (S := S64x128) hz, View.ld_unit_zero (S := S1x128) hz]

/-- Point 0, second result: the zero row is stored, read back, and updated. -/
theorem out_A_6 (c : Dev nD) (i : grid0.Coords) (a1 : Memref sig .tc .vmem S5000x64 .f32) (h1 : a1.IsWhole) (a2 : Memref sig .tc .vmem S5000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i) (x0 x1 : Vec F S5000x64 .f32) (x2 x3 : Vec F S64x128 .f32) (x4 : Vec F S1x128 .f32) :
    out0_A_6 c i a1 h1 a2 h2 a3 h3 a4 h4 a5 h5 a6 h6 a7 h7 a8 h8 hc x0 x1 x2 x3 x4 = k0_pay5 x0 x1 x2 x3 x4 k0_pay2 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x64) hz, View.ld_unit_zero (S := S64x128) hz, View.ld_unit_zero (S := S1x128) hz]

/-- Point 0, third result: the zero row is stored, read back, and updated. -/
theorem out_A_7 (c : Dev nD) (i : grid0.Coords) (a1 : Memref sig .tc .vmem S5000x64 .f32) (h1 : a1.IsWhole) (a2 : Memref sig .tc .vmem S5000x64 .f32) (h2 : a2.IsWhole) (a3 : Memref sig .tc .vmem S64x128 .f32) (h3 : a3.IsWhole) (a4 : Memref sig .tc .vmem S64x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i) (x0 x1 : Vec F S5000x64 .f32) (x2 x3 : Vec F S64x128 .f32) (x4 : Vec F S1x128 .f32) :
    out0_A_7 c i a1 h1 a2 h2 a3 h3 a4 h4 a5 h5 a6 h6 a7 h7 a8 h8 hc x0 x1 x2 x3 x4 = k0_pay1 (k0_pay6 k0_pay3) (k0_pay7 x0 x1 x2 x3 x4) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz]
  simp only [View.readAt_eq_ld, h1.read_unread, h2.read_unread, h3.read_unread, h4.read_unread, h5.read_unread,
    View.readCov_unit_zero (S := S1x128) _ hz,
    View.ld_unit_zero (S := S5000x64) hz, View.ld_unit_zero (S := S64x128) hz, View.ld_unit_zero (S := S1x128) hz]

/-! ## The blocks the windows hold at a point -/

variable (V : (c : Dev nD) → (b : Ref sig .tc) → Buf (Elt Ideal) ((c : Thread nD τ).loc b))

/-- The five operand arrays as the region finds them. -/
abbrev opA (c : Dev nD) : Arr 50000 64 := V c main_v16
abbrev opX (c : Dev nD) : Arr 50000 64 := V c main_arg0
abbrev opWr (c : Dev nD) : Arr 64 128 := V c main_v17
abbrev opWo (c : Dev nD) : Arr 64 128 := V c main_v18
abbrev opB (c : Dev nD) : Arr 1 128 := V c main_v19

/-- The layer's output H = A·Wr + bias + X·Wo of the operand arrays as the region finds them. -/
abbrev H (c : Dev nD) : Arr 50000 128 :=
  conv (V c main_v16 : Arr 50000 64) (V c main_arg0 : Arr 50000 64) (V c main_v17 : Arr 64 128) (V c main_v18 : Arr 64 128) (V c main_v19 : Arr 1 128)

/-- A grid point as a tile number. -/
def pt (t : Fin cfg0.N) : Fin 10 := ⟨t.val, Nat.lt_of_lt_of_eq t.isLt N_0⟩

theorem pt_val (t : Fin cfg0.N) : (pt t).val = t.val := rfl

/-- The printed index maps, decided over the grid: the two row-tiled operands and the first result are at row block
    t at point t, the other windows' one block never moves. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Window 0's block at point t is row tile t of the aggregated operand. -/
theorem blk0_eq (c : Dev nD) (t : Fin cfg0.N) : (iblk0 V c 0 t : Arr 5000 64) = tile (opA V c) (pt t) := by
  have hi := idx_facts t
  funext j
  unfold iblk0
  rw [View.read_apply]
  show V c main_v16 _ = V c main_v16 _
  congr 1
  funext a
  apply Fin.ext
  match a with
  | ⟨0, _⟩ => show win0_0.index t (0 : Fin 2) * 5000 + 1 * (j 0).val = 5000 * t.val + (j 0).val; rw [hi.1]; omega
  | ⟨1, _⟩ => show win0_0.index t (1 : Fin 2) * 64 + 1 * (j 1).val = (j 1).val; rw [hi.2.1]; omega

/-- Window 1's block at point t is row tile t of the layer's input. -/
theorem blk1_eq (c : Dev nD) (t : Fin cfg0.N) : (iblk0 V c 1 t : Arr 5000 64) = tile (opX V c) (pt t) := by
  have hi := idx_facts t
  funext j
  unfold iblk0
  rw [View.read_apply]
  show V c main_arg0 _ = V c main_arg0 _
  congr 1
  funext a
  apply Fin.ext
  match a with
  | ⟨0, _⟩ => show win0_1.index t (0 : Fin 2) * 5000 + 1 * (j 0).val = 5000 * t.val + (j 0).val; rw [hi.2.2.1]; omega
  | ⟨1, _⟩ => show win0_1.index t (1 : Fin 2) * 64 + 1 * (j 1).val = (j 1).val; rw [hi.2.2.2.1]; omega

/-- Window 2's one block is the whole first weight array. -/
theorem blk2_eq (c : Dev nD) (t : Fin cfg0.N) : (iblk0 V c 2 t : Arr 64 128) = opWr V c := by
  have hi := idx_facts t
  funext j
  unfold iblk0
  rw [View.read_apply]
  show V c main_v17 _ = V c main_v17 _
  congr 1
  funext a
  apply Fin.ext
  match a with
  | ⟨0, _⟩ => show win0_2.index t (0 : Fin 2) * 64 + 1 * (j 0).val = (j 0).val; rw [hi.2.2.2.2.1]; omega
  | ⟨1, _⟩ => show win0_2.index t (1 : Fin 2) * 128 + 1 * (j 1).val = (j 1).val; rw [hi.2.2.2.2.2.1]; omega

/-- Window 3's one block is the whole second weight array. -/
theorem blk3_eq (c : Dev nD) (t : Fin cfg0.N) : (iblk0 V c 3 t : Arr 64 128) = opWo V c := by
  have hi := idx_facts t
  funext j
  unfold iblk0
  rw [View.read_apply]
  show V c main_v18 _ = V c main_v18 _
  congr 1
  funext a
  apply Fin.ext
  match a with
  | ⟨0, _⟩ => show win0_3.index t (0 : Fin 2) * 64 + 1 * (j 0).val = (j 0).val; rw [hi.2.2.2.2.2.2.1]; omega
  | ⟨1, _⟩ => show win0_3.index t (1 : Fin 2) * 128 + 1 * (j 1).val = (j 1).val; rw [hi.2.2.2.2.2.2.2.1]; omega

/-- Window 4's one block is the whole bias row. -/
theorem blk4_eq (c : Dev nD) (t : Fin cfg0.N) : (iblk0 V c 4 t : Arr 1 128) = opB V c := by
  have hi := idx_facts t
  funext j
  unfold iblk0
  rw [View.read_apply]
  show V c main_v19 _ = V c main_v19 _
  congr 1
  funext a
  apply Fin.ext
  match a with
  | ⟨0, _⟩ => show win0_4.index t (0 : Fin 2) * 1 + 1 * (j 0).val = (j 0).val; rw [hi.2.2.2.2.2.2.2.2.1]; omega
  | ⟨1, _⟩ => show win0_4.index t (1 : Fin 2) * 128 + 1 * (j 1).val = (j 1).val; rw [hi.2.2.2.2.2.2.2.2.2.1]; omega

/-! ## What a point computes -/

/-- Congruence of the layer in its five operands. -/
theorem conv_congr5 {x0 x0' x1 x1' : Arr 5000 64} {x2 x2' x3 x3' : Arr 64 128} {x4 x4' : Arr 1 128}
    (e0 : x0 = x0') (e1 : x1 = x1') (e2 : x2 = x2') (e3 : x3 = x3') (e4 : x4 = x4') :
    conv x0 x1 x2 x3 x4 = conv x0' x1' x2' x3' x4' := by rw [e0, e1, e2, e3, e4]

/-- The layer on point t's five blocks is row tile t of H. -/
theorem conv_blocks (c : Dev nD) (t : Fin cfg0.N) :
    (conv (iblk0 V c 0 t : Arr 5000 64) (iblk0 V c 1 t : Arr 5000 64) (iblk0 V c 2 t : Arr 64 128)
      (iblk0 V c 3 t : Arr 64 128) (iblk0 V c 4 t : Arr 1 128) : Arr 5000 128) = tile (H V c) (pt t) :=
  (conv_congr5 (blk0_eq V c t) (blk1_eq V c t) (blk2_eq V c t) (blk3_eq V c t) (blk4_eq V c t)).trans
    (conv_tile (opA V c) (opX V c) (opWr V c) (opWo V c) (opB V c) (pt t)).symm

/-- The tile point t stores. -/
theorem pay4_at (c : Dev nD) (t : Fin cfg0.N) :
    k0_pay4 (F := Ideal) (iblk0 V c 0 t) (iblk0 V c 1 t) (iblk0 V c 2 t) (iblk0 V c 3 t) (iblk0 V c 4 t) = tile (H V c) (pt t) :=
  (ConvPay0.pay4_eq (iblk0 V c 0 t) (iblk0 V c 1 t) (iblk0 V c 2 t) (iblk0 V c 3 t) (iblk0 V c 4 t)).trans (conv_blocks V c t)

/-- The column sums point t stores over a buffer holding s. -/
theorem pay5_at (c : Dev nD) (t : Fin cfg0.N) (s : Vec Ideal S1x128 .f32) :
    k0_pay5 (F := Ideal) (iblk0 V c 0 t) (iblk0 V c 1 t) (iblk0 V c 2 t) (iblk0 V c 3 t) (iblk0 V c 4 t) s = fun i => s i + colSum (tile (H V c) (pt t)) i :=
  (ConvPay0.pay5_eq (iblk0 V c 0 t) (iblk0 V c 1 t) (iblk0 V c 2 t) (iblk0 V c 3 t) (iblk0 V c 4 t) s).trans
    (funext fun i => congrArg (fun Z : Arr 5000 128 => s i + colSum Z i) (conv_blocks V c t))

/-- The sums of squares point t stores over a buffer holding q. -/
theorem pay1_at (c : Dev nD) (t : Fin cfg0.N) (q : Vec Ideal S1x128 .f32) :
    k0_pay1 (F := Ideal) (k0_pay6 q) (k0_pay7 (iblk0 V c 0 t) (iblk0 V c 1 t) (iblk0 V c 2 t) (iblk0 V c 3 t) (iblk0 V c 4 t))
      = fun i => q i + colSumSq (tile (H V c) (pt t)) i :=
  (ConvPay0.pay1_eq (iblk0 V c 0 t) (iblk0 V c 1 t) (iblk0 V c 2 t) (iblk0 V c 3 t) (iblk0 V c 4 t) q).trans
    (funext fun i => congrArg (fun Z : Arr 5000 128 => q i + colSumSq Z i) (conv_blocks V c t))

/-! ## The three result buffers after each point -/

/-- Tile s's column sums (the zero row past the tenth tile, so that the running sum needs no bound). -/
def tsum (c : Dev nD) (s : ℕ) : Arr 1 128 := if h : s < 10 then colSum (tile (H V c) ⟨s, h⟩) else fun _ => 0
/-- Tile s's column sums of squares, likewise. -/
def tsq (c : Dev nD) (s : ℕ) : Arr 1 128 := if h : s < 10 then colSumSq (tile (H V c) ⟨s, h⟩) else fun _ => 0

theorem tsum_pt (c : Dev nD) (t : Fin cfg0.N) : tsum V c t.val = colSum (tile (H V c) (pt t)) := dif_pos (pt t).isLt
theorem tsq_pt (c : Dev nD) (t : Fin cfg0.N) : tsq V c t.val = colSumSq (tile (H V c) (pt t)) := dif_pos (pt t).isLt

/-- After point n the first buffer holds tile n of H, the second the column sums of tiles 0 to n, the third their
    column sums of squares: point 0 stores the zero rows and adds its tile's sums, every later point adds its own to
    what the point before left. -/
theorem outsAt_eq (c : Dev nD) : ∀ (n : ℕ) (h : n < cfg0.N),
    (outsAt0 V c n h).1 = tile (H V c) (pt ⟨n, h⟩)
    ∧ (outsAt0 V c n h).2.1 = (fun i => ∑ s ∈ Finset.range (n + 1), tsum V c s i)
    ∧ (outsAt0 V c n h).2.2 = (fun i => ∑ s ∈ Finset.range (n + 1), tsq V c s i)
  | 0, h => by
    have hA : cond0_0 (grid0.coords (⟨0, h⟩ : Fin cfg0.N)) := (hcond0_0 ⟨0, h⟩).mpr rfl
    rw [outsAt0_A V c ⟨0, h⟩ rfl]
    dsimp only
    refine ⟨?_, ?_, ?_⟩
    · exact (out_A_5 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) hA (iblk0 V c 0 ⟨0, h⟩) (iblk0 V c 1 ⟨0, h⟩) (iblk0 V c 2 ⟨0, h⟩) (iblk0 V c 3 ⟨0, h⟩) (iblk0 V c 4 ⟨0, h⟩)).trans (pay4_at V c ⟨0, h⟩)
    · refine (out_A_6 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) hA (iblk0 V c 0 ⟨0, h⟩) (iblk0 V c 1 ⟨0, h⟩) (iblk0 V c 2 ⟨0, h⟩) (iblk0 V c 3 ⟨0, h⟩) (iblk0 V c 4 ⟨0, h⟩)).trans ?_
      refine (pay5_at V c ⟨0, h⟩ (k0_pay2 (F := Ideal))).trans ?_
      funext i
      rw [Finset.sum_range_one, ConvPay0.pay2_eq, zero_add, ← tsum_pt V c ⟨0, h⟩]
    · refine (out_A_7 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) hA (iblk0 V c 0 ⟨0, h⟩) (iblk0 V c 1 ⟨0, h⟩) (iblk0 V c 2 ⟨0, h⟩) (iblk0 V c 3 ⟨0, h⟩) (iblk0 V c 4 ⟨0, h⟩)).trans ?_
      refine (pay1_at V c ⟨0, h⟩ (k0_pay3 (F := Ideal))).trans ?_
      funext i
      rw [Finset.sum_range_one, ConvPay0.pay3_eq, zero_add, ← tsq_pt V c ⟨0, h⟩]
  | n + 1, h => by
    have hN : cfg0.N = 10 := N_0
    have hB : ¬(⟨n + 1, h⟩ : Fin cfg0.N).val % 10 = 0 := by dsimp only; omega
    have hc : ¬cond0_0 (grid0.coords (⟨n + 1, h⟩ : Fin cfg0.N)) := fun hh => hB ((hcond0_0 ⟨n + 1, h⟩).mp hh)
    have ih := outsAt_eq c n (Nat.lt_of_succ_lt h)
    rw [outsAt0_B V c ⟨n + 1, h⟩ hB]
    dsimp only
    refine ⟨?_, ?_, ?_⟩
    · exact (out_B_5 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) hc (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) _ _).trans (pay4_at V c ⟨n + 1, h⟩)
    · refine (out_B_6 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) hc (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) _ _).trans ?_
      refine (pay5_at V c ⟨n + 1, h⟩ _).trans ?_
      funext i
      show (outsAt0 V c n _).2.1 i + _ = _
      rw [ih.2.1, Finset.sum_range_succ _ (n + 1), ← tsum_pt V c ⟨n + 1, h⟩]
    · refine (out_B_7 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) hc (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) _ _).trans ?_
      refine (pay1_at V c ⟨n + 1, h⟩ _).trans ?_
      funext i
      show (outsAt0 V c n _).2.2 i + _ = _
      rw [ih.2.2, Finset.sum_range_succ _ (n + 1), ← tsq_pt V c ⟨n + 1, h⟩]

/-! ## The result arrays after the last point -/

/-- What point t writes back into the first result array is its block of H: rows 5000·t to 5000·t + 4999. -/
theorem flushed5 (c : Dev nD) (t : Fin cfg0.N) (hf : (cfg0.win 5).flush t = true) :
    (dat0 V c).flushed 5 t = ((cfg0.win 5).blk t).view.read (Elt Ideal) (H V c) := by
  obtain ⟨e00, e01, e10, e11, e20, e21, e30, e31, e40, e41, e50, e51, e60, e61, e70, e71⟩ := idx_facts t
  show (cfg0.win 5).cut (grid0.coords t) ((dat0 V c).after 5 t) = _
  rw [after0_5, (outsAt_eq V c t.val t.isLt).1]
  funext j
  rw [View.read_apply]
  show H V c _ = H V c _
  congr 1
  funext a
  apply Fin.ext
  match a with
  | ⟨0, _⟩ => show 5000 * t.val + (j 0).val = win0_5.index t (0 : Fin 2) * 5000 + 1 * (j 0).val; omega
  | ⟨1, _⟩ => show (j 1).val = win0_5.index t (1 : Fin 2) * 128 + 1 * (j 1).val; omega

/-- Row tile t of the first result array is what point t stored, and the ten tiles cover it: the array ends at H. -/
theorem h_final (c : Dev nD) : (dat0 (F := Ideal) V c).arrAt 5 cfg0.N = H V c :=
  (dat0 V c).arrAt_eq_of_cover 5 (H V c) (flushed5 V c) fun i => by
    have hN : cfg0.N = 10 := N_0
    have h0 : (i 0 : Nat) < 50000 := (i 0).isLt
    have h1 : (i 1 : Nat) < 128 := (i 1).isLt
    obtain ⟨t, ht⟩ : ∃ t : Fin cfg0.N, t.val = (i 0 : Nat) / 5000 := ⟨⟨(i 0 : Nat) / 5000, by omega⟩, rfl⟩
    obtain ⟨e00, e01, e10, e11, e20, e21, e30, e31, e40, e41, e50, e51, e60, e61, e70, e71⟩ := idx_facts t
    refine ⟨t, flush0_5 t, ?_⟩
    show i ∈ ((View.whole main_v20_0).slice (win0_5.rect t)).set
    rw [View.set_slice_whole, Rect.mem_set_unit]
    intro a
    match a with
    | ⟨0, _⟩ =>
      show win0_5.index t (0 : Fin 2) * 5000 ≤ (i 0 : Nat) ∧ (i 0 : Nat) < win0_5.index t (0 : Fin 2) * 5000 + 5000
      omega
    | ⟨1, _⟩ =>
      show win0_5.index t (1 : Fin 2) * 128 ≤ (i 1 : Nat) ∧ (i 1 : Nat) < win0_5.index t (1 : Fin 2) * 128 + 128
      omega

/-- The ten tiles' column sums add up to the column sums over all 50000 rows. -/
theorem tsum_total (c : Dev nD) (i : (⟨2, ![1, 128]⟩ : Shape).Idx) :
    ∑ s ∈ Finset.range 10, tsum V c s i = colSum (H V c) i := by
  rw [colSum_tiles (H V c)]
  show _ = ∑ t : Fin 10, colSum (tile (H V c) t) i
  rw [← Fin.sum_univ_eq_sum_range (fun s => tsum V c s i) 10]
  refine Finset.sum_congr rfl fun t _ => ?_
  show tsum V c t.val i = _
  unfold tsum
  rw [dif_pos t.isLt]

/-- Likewise the sums of squares. -/
theorem tsq_total (c : Dev nD) (i : (⟨2, ![1, 128]⟩ : Shape).Idx) :
    ∑ s ∈ Finset.range 10, tsq V c s i = colSumSq (H V c) i := by
  rw [colSumSq_tiles (H V c)]
  show _ = ∑ t : Fin 10, colSumSq (tile (H V c) t) i
  rw [← Fin.sum_univ_eq_sum_range (fun s => tsq V c s i) 10]
  refine Finset.sum_congr rfl fun t _ => ?_
  show tsq V c t.val i = _
  unfold tsq
  rw [dif_pos t.isLt]

/-- Window 6's one block, read through zero offsets, is the whole one-row array, whatever it holds. -/
theorem read_blk6 (t : Fin cfg0.N) (G : Arr 1 128) :
    (cfg0.win 6).cut (grid0.coords t) G = ((cfg0.win 6).blk t).view.read (Elt Ideal) G := by
  obtain ⟨e00, e01, e10, e11, e20, e21, e30, e31, e40, e41, e50, e51, e60, e61, e70, e71⟩ := idx_facts t
  funext j
  rw [View.read_apply]
  show G _ = G _
  congr 1
  funext a
  apply Fin.ext
  match a with
  | ⟨0, _⟩ => show (j 0).val = win0_6.index t (0 : Fin 2) * 1 + 1 * (j 0).val; omega
  | ⟨1, _⟩ => show (j 1).val = win0_6.index t (1 : Fin 2) * 128 + 1 * (j 1).val; omega

/-- The one write-back of the second result array, after the last point, writes the column sums of H. -/
theorem flushed6 (c : Dev nD) (t : Fin cfg0.N) (hf : (cfg0.win 6).flush t = true) :
    (dat0 V c).flushed 6 t = ((cfg0.win 6).blk t).view.read (Elt Ideal) (colSum (H V c)) := by
  have hN : cfg0.N = 10 := N_0
  have h9 : t.val = 9 := by have := (flush0_6 t).mp hf; have := t.isLt; omega
  show (cfg0.win 6).cut (grid0.coords t) ((dat0 V c).after 6 t) = _
  have key : (outsAt0 V c t.val t.isLt).2.1 = colSum (H V c) := by
    rw [(outsAt_eq V c t.val t.isLt).2.1]
    funext i
    rw [h9]
    exact tsum_total V c i
  rw [after0_6, key]
  exact read_blk6 t (colSum (H V c))

/-- The second result array, a single block every point adds its tile's column sums into (reset at point 0, written
    back after the last point), ends at the column sums of H over all 50000 rows. -/
theorem s_final (c : Dev nD) : (dat0 (F := Ideal) V c).arrAt 6 cfg0.N = colSum (H V c) :=
  (dat0 V c).arrAt_eq_of_cover 6 (colSum (H V c)) (flushed6 V c) fun i => by
    have h0 : (i 0 : Nat) < 1 := (i 0).isLt
    have h1 : (i 1 : Nat) < 128 := (i 1).isLt
    obtain ⟨e00, e01, e10, e11, e20, e21, e30, e31, e40, e41, e50, e51, e60, e61, e70, e71⟩ := idx_facts t0_9
    refine ⟨t0_9, (flush0_6 t0_9).mpr rfl, ?_⟩
    show i ∈ ((View.whole main_v20_1).slice (win0_6.rect t0_9)).set
    rw [View.set_slice_whole, Rect.mem_set_unit]
    intro a
    match a with
    | ⟨0, _⟩ =>
      show win0_6.index t0_9 (0 : Fin 2) * 1 ≤ (i 0 : Nat) ∧ (i 0 : Nat) < win0_6.index t0_9 (0 : Fin 2) * 1 + 1
      omega
    | ⟨1, _⟩ =>
      show win0_6.index t0_9 (1 : Fin 2) * 128 ≤ (i 1 : Nat) ∧ (i 1 : Nat) < win0_6.index t0_9 (1 : Fin 2) * 128 + 128
      omega

/-- Window 7's one block, read through zero offsets, is the whole one-row array, whatever it holds. -/
theorem read_blk7 (t : Fin cfg0.N) (G : Arr 1 128) :
    (cfg0.win 7).cut (grid0.coords t) G = ((cfg0.win 7).blk t).view.read (Elt Ideal) G := by
  obtain ⟨e00, e01, e10, e11, e20, e21, e30, e31, e40, e41, e50, e51, e60, e61, e70, e71⟩ := idx_facts t
  funext j
  rw [View.read_apply]
  show G _ = G _
  congr 1
  funext a
  apply Fin.ext
  match a with
  | ⟨0, _⟩ => show (j 0).val = win0_7.index t (0 : Fin 2) * 1 + 1 * (j 0).val; omega
  | ⟨1, _⟩ => show (j 1).val = win0_7.index t (1 : Fin 2) * 128 + 1 * (j 1).val; omega

/-- The one write-back of the third result array writes the column sums of squares of H. -/
theorem flushed7 (c : Dev nD) (t : Fin cfg0.N) (hf : (cfg0.win 7).flush t = true) :
    (dat0 V c).flushed 7 t = ((cfg0.win 7).blk t).view.read (Elt Ideal) (colSumSq (H V c)) := by
  have hN : cfg0.N = 10 := N_0
  have h9 : t.val = 9 := by have := (flush0_7 t).mp hf; have := t.isLt; omega
  show (cfg0.win 7).cut (grid0.coords t) ((dat0 V c).after 7 t) = _
  have key : (outsAt0 V c t.val t.isLt).2.2 = colSumSq (H V c) := by
    rw [(outsAt_eq V c t.val t.isLt).2.2]
    funext i
    rw [h9]
    exact tsq_total V c i
  rw [after0_7, key]
  exact read_blk7 t (colSumSq (H V c))

/-- The third result array likewise ends at the column sums of the squares of H. -/
theorem ss_final (c : Dev nD) : (dat0 (F := Ideal) V c).arrAt 7 cfg0.N = colSumSq (H V c) :=
  (dat0 V c).arrAt_eq_of_cover 7 (colSumSq (H V c)) (flushed7 V c) fun i => by
    have h0 : (i 0 : Nat) < 1 := (i 0).isLt
    have h1 : (i 1 : Nat) < 128 := (i 1).isLt
    obtain ⟨e00, e01, e10, e11, e20, e21, e30, e31, e40, e41, e50, e51, e60, e61, e70, e71⟩ := idx_facts t0_9
    refine ⟨t0_9, (flush0_7 t0_9).mpr rfl, ?_⟩
    show i ∈ ((View.whole main_v20_2).slice (win0_7.rect t0_9)).set
    rw [View.set_slice_whole, Rect.mem_set_unit]
    intro a
    match a with
    | ⟨0, _⟩ =>
      show win0_7.index t0_9 (0 : Fin 2) * 1 ≤ (i 0 : Nat) ∧ (i 0 : Nat) < win0_7.index t0_9 (0 : Fin 2) * 1 + 1
      omega
    | ⟨1, _⟩ =>
      show win0_7.index t0_9 (1 : Fin 2) * 128 ≤ (i 1 : Nat) ∧ (i 1 : Nat) < win0_7.index t0_9 (1 : Fin 2) * 128 + 128
      omega

end Cert.KernelIdeal.Conv0

end
-- ==== Proof.Bn1.lean ====
/-
  Region 1 of the kernel program (batch normalisation and hyperbolic tangent over 128 columns, ten row tiles of
  5000): what its result array holds after the last grid point, as a function of the five operand arrays the region
  is entered with.
-/
import proofs.«134842_j42545946034237_1_alg».proof.Proof.Gen.KernelIdeal.Frame
import proofs.«134842_j42545946034237_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Bn1

open Cert.KernelIdeal Cert.KernelIdeal.Gen Cert.GraphNet
open Idealize.ShloMosaic.ValueIdx (ix2 eq_ix2 mulf_apply addf_apply subf_apply broadcast_apply)

/-! ## The body's arithmetic at an index -/

/-- The hyperbolic tangent and the reciprocal square root of a vector, read at an index. -/
theorem tanh_apply {s : Shape} {φ : FTy} (x : FVec Ideal s φ) (i : s.Idx) :
    Idealize.ShloMosaic.tanh x i = Ideal.tanh (x i) := rfl
theorem rsqrt_apply {s : Shape} {φ : FTy} (x : FVec Ideal s φ) (i : s.Idx) :
    Idealize.ShloMosaic.rsqrt x i = Ideal.rsqrt (x i) := rfl

/-- A row vector [1,128] broadcast down 5000 rows, read at row p, column q, is the row's entry q. -/
theorem bcast_row (x : Vec Ideal S1x128 .f32) (p : Fin 5000) (q : Fin 128) :
    broadcastTo S5000x128 x broadcasts_S1x128_S5000x128 (ix2 p q) = x (ix2 0 q) := by
  refine broadcastTo_apply x _ (ix2 p q) (ix2 0 q) fun a => ?_
  match a with
  | ⟨0, _⟩ => rfl
  | ⟨1, _⟩ => rfl

/-- The body's value at row p, column q of a tile: the tile's entry less the mean's, times the reciprocal square
    root of the variance's plus epsilon, times the scale's, plus the shift's, through tanh.  (The body loads the
    variance row before the mean row.) -/
theorem pay_apply (h : Vec Ideal S5000x128 .f32) (var mu g b : Vec Ideal S1x128 .f32) (p : Fin 5000) (q : Fin 128) :
    k1_pay1 (F := Ideal) h var mu g b (ix2 p q)
      = Ideal.tanh ((((h : Arr 5000 128) (ix2 p q) - (mu : Arr 1 128) (ix2 0 q))
          * Ideal.rsqrt ((var : Arr 1 128) (ix2 0 q) + eps)) * (g : Arr 1 128) (ix2 0 q) + (b : Arr 1 128) (ix2 0 q)) := by
  unfold k1_pay1
  simp only [shapeCast_self]
  rw [tanh_apply, addf_apply, mulf_apply, mulf_apply, subf_apply, bcast_row, bcast_row, bcast_row, bcast_row,
    rsqrt_apply, addf_apply, broadcast_apply]
  rfl

/-- The same at any index j of the tile, with column j 1. -/
theorem pay_at (h : Vec Ideal S5000x128 .f32) (var mu g b : Vec Ideal S1x128 .f32) (j : S5000x128.Idx) :
    k1_pay1 (F := Ideal) h var mu g b j
      = Ideal.tanh ((((h : Arr 5000 128) j - (mu : Arr 1 128) (ix2 0 (j 1)))
          * Ideal.rsqrt ((var : Arr 1 128) (ix2 0 (j 1)) + eps)) * (g : Arr 1 128) (ix2 0 (j 1))
          + (b : Arr 1 128) (ix2 0 (j 1))) := by
  obtain ⟨p, q, rfl⟩ : ∃ (p : Fin 5000) (q : Fin 128), j = ix2 p q := ⟨j 0, j 1, eq_ix2 j⟩
  exact pay_apply h var mu g b p q

/-! ## What the body leaves in the result's buffer -/

theorem hz : (![0, 0] : Fin 2 → Nat) = fun _ => 0 := funext fun a => by fin_cases a <;> rfl

/-- The body's one store leaves its payload of the five loaded blocks (each load reads a whole buffer). -/
theorem out_eq {F : FTy → Type} [FloatOps F] (x0 : Vec F S5000x128 .f32) (x1 x2 x3 x4 : Vec F S1x128 .f32) :
    out1_5 x0 x1 x2 x3 x4 = k1_pay1 x0 x2 x1 x3 x4 := by
  unfold out1_5
  rw [View.canon_unit_zero hz]
  simp only [View.ld_unit_zero (S := S5000x128) hz, View.ld_unit_zero (S := S1x128) hz]

/-! ## From the blocks to the array -/

variable (V : (c : Dev nD) → (b : Ref sig .tc) → Buf (Elt Ideal) ((c : Thread nD τ).loc b))

/-- The printed index maps over the ten grid points: the tile windows (0 and 5) sit at block row t, column block 0;
    the four row windows at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The normalised array the region computes, of the entry contents of its five operands. -/
abbrev Y (c : Dev nD) : Arr 50000 128 :=
  normTanh (V c main_v20_0 : Arr 50000 128) (V c main_v22 : Arr 1 128) (V c main_v26 : Arr 1 128) (V c main_v27 : Arr 1 128)
    (V c main_v28 : Arr 1 128)

/-- WHAT POINT t WRITES BACK is tile t of the normalised array: the tile window reads H where the result's block
    lands, and each row window reads its whole row. -/
theorem flushed_eq (c : Dev nD) (t : Fin cfg1.N) :
    (dat1 (F := Ideal) V c).flushed 5 t = ((cfg1.win 5).blk t).view.read (Elt Ideal) (Y V c) := by
  show (cfg1.win 5).cut (grid1.coords t) ((dat1 V c).after 5 t) = _
  rw [after1_5, out_eq]
  obtain ⟨a0, a1, b0, b1, c0, c1, d0, d1, e0, e1, f0, f1⟩ := idx_facts t
  funext j
  refine (pay_at (iblk1 V c 0 t) (iblk1 V c 2 t) (iblk1 V c 1 t) (iblk1 V c 3 t) (iblk1 V c 4 t) j).trans ?_
  have h0 : iblk1 V c 0 t j = (V c main_v20_0 : Arr 50000 128) (((cfg1.win 5).blk t).view.emb j) := by
    show V c main_v20_0 (((cfg1.win 0).blk t).view.emb j) = V c main_v20_0 (((cfg1.win 5).blk t).view.emb j)
    refine congrArg _ (funext fun a => Fin.ext ?_)
    match a with
    | ⟨0, _⟩ => show win1_0.index t (0 : Fin 2) * 5000 + 1 * (j 0).val = win1_5.index t (0 : Fin 2) * 5000 + 1 * (j 0).val; rw [a0, f0]
    | ⟨1, _⟩ => show win1_0.index t (1 : Fin 2) * 128 + 1 * (j 1).val = win1_5.index t (1 : Fin 2) * 128 + 1 * (j 1).val; rw [a1, f1]
  have h1 : iblk1 V c 1 t (ix2 0 (j 1)) = (V c main_v22 : Arr 1 128) (ix2 0 ((((cfg1.win 5).blk t).view.emb j) 1)) := by
    show V c main_v22 (((cfg1.win 1).blk t).view.emb (ix2 0 (j 1))) = V c main_v22 (ix2 0 ((((cfg1.win 5).blk t).view.emb j) 1))
    refine congrArg _ (funext fun a => Fin.ext ?_)
    match a with
    | ⟨0, _⟩ => show win1_1.index t (0 : Fin 2) * 1 + 1 * 0 = 0; rw [b0]
    | ⟨1, _⟩ => show win1_1.index t (1 : Fin 2) * 128 + 1 * (j 1).val = win1_5.index t (1 : Fin 2) * 128 + 1 * (j 1).val; rw [b1, f1]
  have h2 : iblk1 V c 2 t (ix2 0 (j 1)) = (V c main_v26 : Arr 1 128) (ix2 0 ((((cfg1.win 5).blk t).view.emb j) 1)) := by
    show V c main_v26 (((cfg1.win 2).blk t).view.emb (ix2 0 (j 1))) = V c main_v26 (ix2 0 ((((cfg1.win 5).blk t).view.emb j) 1))
    refine congrArg _ (funext fun a => Fin.ext ?_)
    match a with
    | ⟨0, _⟩ => show win1_2.index t (0 : Fin 2) * 1 + 1 * 0 = 0; rw [c0]
    | ⟨1, _⟩ => show win1_2.index t (1 : Fin 2) * 128 + 1 * (j 1).val = win1_5.index t (1 : Fin 2) * 128 + 1 * (j 1).val; rw [c1, f1]
  have h3 : iblk1 V c 3 t (ix2 0 (j 1)) = (V c main_v27 : Arr 1 128) (ix2 0 ((((cfg1.win 5).blk t).view.emb j) 1)) := by
    show V c main_v27 (((cfg1.win 3).blk t).view.emb (ix2 0 (j 1))) = V c main_v27 (ix2 0 ((((cfg1.win 5).blk t).view.emb j) 1))
    refine congrArg _ (funext fun a => Fin.ext ?_)
    match a with
    | ⟨0, _⟩ => show win1_3.index t (0 : Fin 2) * 1 + 1 * 0 = 0; rw [d0]
    | ⟨1, _⟩ => show win1_3.index t (1 : Fin 2) * 128 + 1 * (j 1).val = win1_5.index t (1 : Fin 2) * 128 + 1 * (j 1).val; rw [d1, f1]
  have h4 : iblk1 V c 4 t (ix2 0 (j 1)) = (V c main_v28 : Arr 1 128) (ix2 0 ((((cfg1.win 5).blk t).view.emb j) 1)) := by
    show V c main_v28 (((cfg1.win 4).blk t).view.emb (ix2 0 (j 1))) = V c main_v28 (ix2 0 ((((cfg1.win 5).blk t).view.emb j) 1))
    refine congrArg _ (funext fun a => Fin.ext ?_)
    match a with
    | ⟨0, _⟩ => show win1_4.index t (0 : Fin 2) * 1 + 1 * 0 = 0; rw [e0]
    | ⟨1, _⟩ => show win1_4.index t (1 : Fin 2) * 128 + 1 * (j 1).val = win1_5.index t (1 : Fin 2) * 128 + 1 * (j 1).val; rw [e1, f1]
  rw [h0, h1, h2, h3, h4]
  rfl

/-- Row r of the result lies in the block of point r / 5000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  have ht : t.val = (i 0).val / 5000 := rfl
  obtain ⟨-, -, -, -, -, -, -, -, -, -, f0, f1⟩ := idx_facts t
  refine ⟨t, flush1_5 t, ?_⟩
  show i ∈ ((View.whole main_v29).slice (win1_5.rect t)).set
  rw [View.set_slice_whole, Rect.mem_set_unit]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- Row tile t of the result array is what point t stored — the tile of H normalised by the mean and variance rows,
    scaled, shifted, through tanh — and the ten tiles cover it. -/
theorem y_final (c : Dev nD) : (dat1 (F := Ideal) V c).arrAt 5 cfg1.N
    = normTanh (V c main_v20_0 : Arr 50000 128) (V c main_v22 : Arr 1 128) (V c main_v26 : Arr 1 128) (V c main_v27 : Arr 1 128) (V c main_v28 : Arr 1 128) :=
  (dat1 (F := Ideal) V c).arrAt_eq_of_cover 5 (Y V c) (fun t _ => flushed_eq V c t) cover

end Cert.KernelIdeal.Bn1

end
-- ==== Proof.StageA.lean ====
/-
  The kernel program's buffers after its first two regions, read back to the arguments: the first region leaves layer 1's output with its column sums and sums of squares, the host operations after it the mean and the variance rows, and the second region layer 1 normalised through tanh.
-/
import proofs.«134842_j42545946034237_1_alg».proof.Proof.Gen.KernelIdeal.Frame
import proofs.«134842_j42545946034237_1_alg».proof.Proof.KernelChain
import proofs.«134842_j42545946034237_1_alg».proof.Proof.Conv0
import proofs.«134842_j42545946034237_1_alg».proof.Proof.Bn1
import Idealize.ShloMosaic.Lib.StableHlo.Run
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.StageA

open Cert.KernelIdeal Cert.KernelIdeal.Gen Cert.KernelIdeal.Net Cert.KernelIdeal.Chain Cert.GraphNet

variable (m : (ℓ : Loc nD τ sig) → Buf (Elt Ideal) ℓ) (ρ : Dev nD → PrngReg)

/-! ## The first host stretch: region 0's five operands as functions of the arguments -/

/-- The aggregated neighbours: the gather of the source rows, scaled by the edge weights, scatter-added from zero. -/
theorem v1_16 (c : Dev nD) : (V1 (F := Ideal) m ρ c main_v16 : Arr 50000 64) = A1 m c := by
  show StableHlo.after hostOps0 (W0 m ρ c) (Proc.devRef .tc main_v16) = _
  after_results_simp
  rfl
/-- The node features are an argument: no host operation writes them. -/
theorem v1_arg0 (c : Dev nD) : (V1 (F := Ideal) m ρ c main_arg0 : Arr 50000 64) = m ((c : Thread nD τ).loc main_arg0) := by
  show StableHlo.after hostOps0 (W0 m ρ c) (Proc.devRef .tc main_arg0) = _
  after_results
/-- The two weight matrices, transposed. -/
theorem v1_17 (c : Dev nD) : (V1 (F := Ideal) m ρ c main_v17 : Arr 64 128) = wT1 (m ((c : Thread nD τ).loc main_arg3)) := by
  show StableHlo.after hostOps0 (W0 m ρ c) (Proc.devRef .tc main_v17) = _
  after_results
  rfl
theorem v1_18 (c : Dev nD) : (V1 (F := Ideal) m ρ c main_v18 : Arr 64 128) = wT1 (m ((c : Thread nD τ).loc main_arg5)) := by
  show StableHlo.after hostOps0 (W0 m ρ c) (Proc.devRef .tc main_v18) = _
  after_results
  rfl
/-- The bias as one row. -/
theorem v1_19 (c : Dev nD) : (V1 (F := Ideal) m ρ c main_v19 : Arr 1 128) = row128 (m ((c : Thread nD τ).loc main_arg4)) := by
  show StableHlo.after hostOps0 (W0 m ρ c) (Proc.devRef .tc main_v19) = _
  after_results
  rfl

/-- Region 0's layer output at the operands it is entered with is layer 1's linear output. -/
theorem h_entry (c : Dev nD) : Conv0.H (V1 (F := Ideal) m ρ) c = H1 m c := by
  show conv (V1 m ρ c main_v16 : Arr 50000 64) (V1 m ρ c main_arg0 : Arr 50000 64) (V1 m ρ c main_v17 : Arr 64 128)
    (V1 m ρ c main_v18 : Arr 64 128) (V1 m ρ c main_v19 : Arr 1 128) = _
  rw [v1_16 m ρ c, v1_arg0 m ρ c, v1_17 m ρ c, v1_18 m ρ c, v1_19 m ρ c]
  rfl

/-! ## After region 0 -/

/-- After region 0 its first result array holds layer 1's linear output. -/
theorem v2_h (c : Dev nD) : (V2 (F := Ideal) m ρ c main_v20_0 : Arr 50000 128) = H1 m c :=
  (W2_arr m ρ c 5).trans ((Conv0.h_final (V1 m ρ) c).trans (h_entry m ρ c))
/-- ... its second the column sums, -/
theorem v2_s (c : Dev nD) : (V2 (F := Ideal) m ρ c main_v20_1 : Arr 1 128) = colSum (H1 m c) :=
  (W2_arr m ρ c 6).trans ((Conv0.s_final (V1 m ρ) c).trans (congrArg colSum (h_entry m ρ c)))
/-- ... its third the column sums of squares. -/
theorem v2_ss (c : Dev nD) : (V2 (F := Ideal) m ρ c main_v20_2 : Arr 1 128) = colSumSq (H1 m c) :=
  (W2_arr m ρ c 7).trans ((Conv0.ss_final (V1 m ρ) c).trans (congrArg colSumSq (h_entry m ρ c)))

/-! ## The second host stretch: region 1's five operands -/

/-- The scale and shift vectors are arguments: neither the first host stretch nor region 0 writes them. -/
theorem w2_arg12 (c : Dev nD) : W2 (F := Ideal) m ρ c (Proc.devRef .tc main_arg12) = m ((c : Thread nD τ).loc main_arg12) := by
  refine (W2_of_ne m ρ c main_arg12 (by decide)).trans ?_
  show StableHlo.after hostOps0 (W0 m ρ c) (Proc.devRef .tc main_arg12) = _
  after_results
theorem w2_arg13 (c : Dev nD) : W2 (F := Ideal) m ρ c (Proc.devRef .tc main_arg13) = m ((c : Thread nD τ).loc main_arg13) := by
  refine (W2_of_ne m ρ c main_arg13 (by decide)).trans ?_
  show StableHlo.after hostOps0 (W0 m ρ c) (Proc.devRef .tc main_arg13) = _
  after_results

/-- The second host stretch does not write layer 1's output. -/
theorem v3_h (c : Dev nD) : (V3 (F := Ideal) m ρ c main_v20_0 : Arr 50000 128) = H1 m c := by
  show StableHlo.after hostOps1 (W2 m ρ c) (Proc.devRef .tc main_v20_0) = _
  after_results
  exact v2_h m ρ c
/-- The mean row: the column sums over the number of rows. -/
theorem v3_22 (c : Dev nD) : (V3 (F := Ideal) m ρ c main_v22 : Arr 1 128) = mean (H1 m c) := by
  show StableHlo.after hostOps1 (W2 m ρ c) (Proc.devRef .tc main_v22) = _
  after_results
  rw [show W2 m ρ c (Proc.devRef .tc main_v20_1) = colSum (H1 m c) from v2_s m ρ c]
  rfl
/-- The variance row: the mean of the squares minus the squared mean. -/
theorem v3_26 (c : Dev nD) : (V3 (F := Ideal) m ρ c main_v26 : Arr 1 128) = varMoments (H1 m c) := by
  show StableHlo.after hostOps1 (W2 m ρ c) (Proc.devRef .tc main_v26) = _
  after_results
  rw [show W2 m ρ c (Proc.devRef .tc main_v20_1) = colSum (H1 m c) from v2_s m ρ c,
    show W2 m ρ c (Proc.devRef .tc main_v20_2) = colSumSq (H1 m c) from v2_ss m ρ c]
  rfl
/-- The scale and the shift, each as one row. -/
theorem v3_27 (c : Dev nD) : (V3 (F := Ideal) m ρ c main_v27 : Arr 1 128) = row128 (m ((c : Thread nD τ).loc main_arg12)) := by
  show StableHlo.after hostOps1 (W2 m ρ c) (Proc.devRef .tc main_v27) = _
  after_results
  rw [w2_arg12 m ρ c]
  rfl
theorem v3_28 (c : Dev nD) : (V3 (F := Ideal) m ρ c main_v28 : Arr 1 128) = row128 (m ((c : Thread nD τ).loc main_arg13)) := by
  show StableHlo.after hostOps1 (W2 m ρ c) (Proc.devRef .tc main_v28) = _
  after_results
  rw [w2_arg13 m ρ c]
  rfl

/-! ## After region 1 -/

/-- After region 1 its result array holds layer 1 normalised through tanh. -/
theorem v4_y (c : Dev nD) : (V4 (F := Ideal) m ρ c main_v29 : Arr 50000 128) = Y1 m c := by
  refine (W4_arr m ρ c 5).trans ((Bn1.y_final (V3 m ρ) c).trans ?_)
  rw [v3_h m ρ c, v3_22 m ρ c, v3_26 m ρ c, v3_27 m ρ c, v3_28 m ρ c]
  rfl

end Cert.KernelIdeal.StageA

end
-- ==== Proof.ConvPay2.lean ====
/-
  The arithmetic of region 2's body (one row tile of a graph-convolution layer, 128 inputs to 256 outputs) read at the
  extended reals: the tile's linear output is the layer of Spec.lean on the tile (the two matrix products are sums
  over the contracted axis — rounding the operands to bfloat16 is the identity here —, the bias row is broadcast down
  the rows), the running column sums add the tile's column sums, the running sums of squares the tile's.
-/
import proofs.«134842_j42545946034237_1_alg».proof.Proof.Gen.KernelIdeal.Skeleton
import proofs.«134842_j42545946034237_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.ConvPay2

open Cert.KernelIdeal Cert.KernelIdeal.Gen Cert.GraphNet

variable (x0 x1 : Vec Ideal S5000x128 .f32) (x2 x3 : Vec Ideal S128x256 .f32) (x4 : Vec Ideal S1x256 .f32)

/-! ## The matrix product's operand indices

The product contracts the left operand's axis 1 with the right operand's axis 0; rows come from the left operand,
columns from the right.  One fact per operand axis: which coordinate of the output index or of the contraction
index it reads. -/

/-- The left operand's row is the output's row. -/
theorem lhs_row (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide),
    dif_pos (show (0 : Fin S5000x128.rank) ∈ dot_S5000x128_S128x256_S5000x256_1_0_0_1_n_n.lhsNonContracting by decide)]
  rfl

/-- The left operand's column is the contraction position. -/
theorem lhs_col (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q

/-- The right operand's row is the contraction position. -/
theorem rhs_row (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q

/-- The right operand's column is the output's column. -/
theorem rhs_col (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide),
    dif_pos (show (1 : Fin S128x256.rank) ∈ dot_S5000x128_S128x256_S5000x256_1_0_0_1_n_n.rhsNonContracting by decide)]
  rfl

/-- The product into the zero accumulator, at row p and column c: the sum over the 128 contracted positions. -/
theorem matmul_at {φ₁ φ₂ : FTy} (a : FVec Ideal S5000x128 φ₁) (w : FVec Ideal S128x256 φ₂) (p : Fin 5000) (c : Fin 256) :
    matmul dot_S5000x128_S128x256_S5000x256_1_0_0_1_n_n none a w (constant (F := Ideal) S5000x256 .f32 0x00000000#32) (ix2 p c)
      = ∑ k : Fin 128, a (ix2 p k) * w (ix2 k c) := by
  refine (Ideal.matmul_constant_zero_apply dot_S5000x128_S128x256_S5000x256_1_0_0_1_n_n none a w (ix2 p c)).trans ?_
  rw [← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p c) ((contrEquiv1 dot_S5000x128_S128x256_S5000x256_1_0_0_1_n_n 128 rfl rfl).symm k) = ix2 p k :=
    funext fun ax => Fin.ext (by
      match ax with
      | ⟨0, _⟩ => exact lhs_row _ _
      | ⟨1, _⟩ => exact (lhs_col _ _).trans hk)
  have er : dot_S5000x128_S128x256_S5000x256_1_0_0_1_n_n.rhsIdx (ix2 p c) ((contrEquiv1 dot_S5000x128_S128x256_S5000x256_1_0_0_1_n_n 128 rfl rfl).symm k) = ix2 k c :=
    funext fun ax => Fin.ext (by
      match ax with
      | ⟨0, _⟩ => exact (rhs_row _ _).trans hk
      | ⟨1, _⟩ => exact rhs_col _ _)
  rw [el, er]

/-! ## The sum down the rows -/

/-- The source index over column c with row r inserted is (r, c). -/
theorem lift_rc (c : Fin 256) (r : Fin 5000) : reduces_S5000x256_S256.lift (ix1 c) r = ix2 r c :=
  funext fun ax => Fin.ext (by
    match ax with
    | ⟨0, _⟩ => rfl
    | ⟨1, _⟩ => rfl)

/-- The reduction over axis 0 at column c: the sum of the column's 5000 entries. -/
theorem colReduce_at (v : FVec Ideal S5000x256 .f32) (c : Fin 256) :
    multiReduction (F := Ideal) .add [0] S256 v 0x00000000#32 reduces_S5000x256_S256 (.inl rfl) rfl (ix1 c)
      = ∑ r : Fin 5000, v (ix2 r c) :=
  (Ideal.multiReduction_add_single v 0x00000000#32 reduces_S5000x256_S256 (.inl rfl) rfl (ix1 c)).trans
    (Finset.sum_congr rfl fun r _ => congrArg v (lift_rc c r))

/-- The stored tile: the layer's linear part on the tile's rows. -/
theorem pay4_eq : k2_pay4 (F := Ideal) x0 x1 x2 x3 x4 = (conv (x0 : Arr 5000 128) x1 x2 x3 x4 : Arr 5000 256) := by
  funext i
  obtain ⟨p, c, rfl⟩ : ∃ (p : Fin 5000) (c : Fin 256), i = ix2 p c := ⟨i 0, i 1, eq_ix2 i⟩
  unfold k2_pay4
  rw [addf_apply, addf_apply, matmul_at, matmul_at, broadcastTo_1b_ab_apply]
  simp only [shapeCast_self, truncf_apply]
  rfl

/-- The stored column sums: what the buffer held plus the tile's column sums. -/
theorem pay5_eq (s : Vec Ideal S1x256 .f32) :
    k2_pay5 (F := Ideal) x0 x1 x2 x3 x4 s = fun i => s i + colSum (conv (x0 : Arr 5000 128) x1 x2 x3 x4 : Arr 5000 256) i := by
  funext i
  obtain ⟨u, c, rfl⟩ : ∃ (u : Fin 1) (c : Fin 256), i = ix2 u c := ⟨i 0, i 1, eq_ix2 i⟩
  unfold k2_pay5
  rw [addf_apply, shapeCast_self, shapeCast_a_1a_apply, colReduce_at, pay4_eq]
  rfl

/-- The stored sums of squares: what the buffer held plus the tile's column sums of squares. -/
theorem pay1_eq (q : Vec Ideal S1x256 .f32) :
    k2_pay1 (F := Ideal) (k2_pay6 q) (k2_pay7 x0 x1 x2 x3 x4)
      = fun i => q i + colSumSq (conv (x0 : Arr 5000 128) x1 x2 x3 x4 : Arr 5000 256) i := by
  funext i
  obtain ⟨u, c, rfl⟩ : ∃ (u : Fin 1) (c : Fin 256), i = ix2 u c := ⟨i 0, i 1, eq_ix2 i⟩
  unfold k2_pay1 k2_pay6 k2_pay7
  rw [addf_apply, shapeCast_self, shapeCast_a_1a_apply, colReduce_at, pay4_eq]
  rfl

/-- The two reset payloads are the zero row. -/
theorem pay2_eq : k2_pay2 (F := Ideal) = fun _ => (0 : EReal) := by
  funext i
  exact Ideal.ofBits_zero_f32
theorem pay3_eq : k2_pay3 (F := Ideal) = fun _ => (0 : EReal) := by
  funext i
  exact Ideal.ofBits_zero_f32

end Cert.KernelIdeal.ConvPay2

end
-- ==== Proof.Conv2.lean ====
/-
  Region 2 of the kernel program (one graph-convolution layer's linear part, 128 inputs to 256 outputs, ten row
  tiles of 5000): what its three result arrays hold after the last grid point, as functions of the five operand
  arrays the region is entered with.
-/
import proofs.«134842_j42545946034237_1_alg».proof.Proof.Gen.KernelIdeal.Frame
import proofs.«134842_j42545946034237_1_alg».proof.Proof.Spec
import proofs.«134842_j42545946034237_1_alg».proof.Proof.ConvPay2
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Conv2

open Cert.KernelIdeal Cert.KernelIdeal.Gen Cert.GraphNet

section Pieces
variable {F : FTy → Type} [FloatOps F]

theorem hz : (![0, 0] : Fin 2 → Nat) = fun _ => 0 := funext fun a => by fin_cases a <;> rfl

/-! ## What each control case leaves in each result buffer

On whole buffers holding the operand blocks `x0 … x4` (and, away from the first point, the two accumulators
`xo6`, `xo7`), the body's last covering store of each result buffer is the corresponding payload of the
body's arithmetic; at the first point the accumulators are first reset and the reset is what the update reads. -/

theorem out_B_5 (c : Dev nD) (i : grid2.Coords) (a1 : Memref sig .tc .vmem S5000x128 .f32) (h1 : a1.IsWhole) (a2 : Memref sig .tc .vmem S5000x128 .f32) (h2 : a2.IsWhole) (a3 : Memref sig .tc .vmem S128x256 .f32) (h3 : a3.IsWhole) (a4 : Memref sig .tc .vmem S128x256 .f32) (h4 : a4.IsWhole) (a5 : Memref sig .tc .vmem S1x256 .f32) (h5 : a5.IsWhole) (a6 : Memref sig .tc .vmem S5000x256 .f32) (h6 : a6.IsWhole) (a7 : Memref sig .tc .vmem S1x256 .f32) (h7 : a7.IsWhole) (a8 : Memref sig .tc .vmem S1x256 .f32) (h8 : a8.IsWhole) (hc : ¬cond2_0 i) (x0 x1 : Vec F S5000x128 .f32) (x2 x3 : Vec F S128x256 .f32) (x4 : Vec F S1x256 .f32) (xo6 xo7 : Vec F S1x256 .f32) :
    out2_B_5 c i a1 h1 a2 h2 a3 h3 a4 h4 a5 h5 a6 h6 a7 h7 a8 h8 hc x0 x1 x2 x3 x4 xo6 xo7 = k2_pay4 x0 x1 x2 x3 x4 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S5000x128) hz, View.ld_unit_zero (S := S128x256) hz, View.ld_unit_zero (S := S1x256) hz]

theorem out_B_6 (c : Dev nD) (i : grid2.Coords) (a1 : Memref sig .tc .vmem S5000x128 .f32) (h1 : a1.IsWhole) (a2 : Memref sig .tc .vmem S5000x128 .f32) (h2 : a2.IsWhole) (a3 : Memref sig .tc .vmem S128x256 .f32) (h3 : a3.IsWhole) (a4 : Memref sig .tc .vmem S128x256 .f32) (h4 : a4.IsWhole) (a5 : Memref sig .tc .vmem S1x256 .f32) (h5 : a5.IsWhole) (a6 : Memref sig .tc .vmem S5000x256 .f32) (h6 : a6.IsWhole) (a7 : Memref sig .tc .vmem S1x256 .f32) (h7 : a7.IsWhole) (a8 : Memref sig .tc .vmem S1x256 .f32) (h8 : a8.IsWhole) (hc : ¬cond2_0 i) (x0 x1 : Vec F S5000x128 .f32) (x2 x3 : Vec F S128x256 .f32) (x4 : Vec F S1x256 .f32) (xo6 xo7 : Vec F S1x256 .f32) :
    out2_B_6 c i a1 h1 a2 h2 a3 h3 a4 h4 a5 h5 a6 h6 a7 h7 a8 h8 hc x0 x1 x2 x3 x4 xo6 xo7 = k2_pay5 x0 x1 x2 x3 x4 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S5000x128) hz, View.ld_unit_zero (S := S128x256) hz, View.ld_unit_zero (S := S1x256) hz]

theorem out_B_7 (c : Dev nD) (i : grid2.Coords) (a1 : Memref sig .tc .vmem S5000x128 .f32) (h1 : a1.IsWhole) (a2 : Memref sig .tc .vmem S5000x128 .f32) (h2 : a2.IsWhole) (a3 : Memref sig .tc .vmem S128x256 .f32) (h3 : a3.IsWhole) (a4 : Memref sig .tc .vmem S128x256 .f32) (h4 : a4.IsWhole) (a5 : Memref sig .tc .vmem S1x256 .f32) (h5 : a5.IsWhole) (a6 : Memref sig .tc .vmem S5000x256 .f32) (h6 : a6.IsWhole) (a7 : Memref sig .tc .vmem S1x256 .f32) (h7 : a7.IsWhole) (a8 : Memref sig .tc .vmem S1x256 .f32) (h8 : a8.IsWhole) (hc : ¬cond2_0 i) (x0 x1 : Vec F S5000x128 .f32) (x2 x3 : Vec F S128x256 .f32) (x4 : Vec F S1x256 .f32) (xo6 xo7 : Vec F S1x256 .f32) :
    out2_B_7 c i a1 h1 a2 h2 a3 h3 a4 h4 a5 h5 a6 h6 a7 h7 a8 h8 hc x0 x1 x2 x3 x4 xo6 xo7 = k2_pay1 (k2_pay6 xo7) (k2_pay7 x0 x1 x2 x3 x4) := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S5000x128) hz, View.ld_unit_zero (S := S128x256) hz, View.ld_unit_zero (S := S1x256) hz]

theorem out_A_5 (c : Dev nD) (i : grid2.Coords) (a1 : Memref sig .tc .vmem S5000x128 .f32) (h1 : a1.IsWhole) (a2 : Memref sig .tc .vmem S5000x128 .f32) (h2 : a2.IsWhole) (a3 : Memref sig .tc .vmem S128x256 .f32) (h3 : a3.IsWhole) (a4 : Memref sig .tc .vmem S128x256 .f32) (h4 : a4.IsWhole) (a5 : Memref sig .tc .vmem S1x256 .f32) (h5 : a5.IsWhole) (a6 : Memref sig .tc .vmem S5000x256 .f32) (h6 : a6.IsWhole) (a7 : Memref sig .tc .vmem S1x256 .f32) (h7 : a7.IsWhole) (a8 : Memref sig .tc .vmem S1x256 .f32) (h8 : a8.IsWhole) (hc : cond2_0 i) (x0 x1 : Vec F S5000x128 .f32) (x2 x3 : Vec F S128x256 .f32) (x4 : Vec F S1x256 .f32) :
    out2_A_5 c i a1 h1 a2 h2 a3 h3 a4 h4 a5 h5 a6 h6 a7 h7 a8 h8 hc x0 x1 x2 x3 x4 = k2_pay4 x0 x1 x2 x3 x4 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S5000x128) hz, View.ld_unit_zero (S := S128x256) hz, View.ld_unit_zero (S := S1x256) hz]

theorem out_A_6 (c : Dev nD) (i : grid2.Coords) (a1 : Memref sig .tc .vmem S5000x128 .f32) (h1 : a1.IsWhole) (a2 : Memref sig .tc .vmem S5000x128 .f32) (h2 : a2.IsWhole) (a3 : Memref sig .tc .vmem S128x256 .f32) (h3 : a3.IsWhole) (a4 : Memref sig .tc .vmem S128x256 .f32) (h4 : a4.IsWhole) (a5 : Memref sig .tc .vmem S1x256 .f32) (h5 : a5.IsWhole) (a6 : Memref sig .tc .vmem S5000x256 .f32) (h6 : a6.IsWhole) (a7 : Memref sig .tc .vmem S1x256 .f32) (h7 : a7.IsWhole) (a8 : Memref sig .tc .vmem S1x256 .f32) (h8 : a8.IsWhole) (hc : cond2_0 i) (x0 x1 : Vec F S5000x128 .f32) (x2 x3 : Vec F S128x256 .f32) (x4 : Vec F S1x256 .f32) :
    out2_A_6 c i a1 h1 a2 h2 a3 h3 a4 h4 a5 h5 a6 h6 a7 h7 a8 h8 hc x0 x1 x2 x3 x4 = k2_pay5 x0 x1 x2 x3 x4 k2_pay2 := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h7.read_unread, h8.read_unread,
    View.ld_unit_zero (S := S5000x128) hz, View.ld_unit_zero (S := S128x256) hz, View.ld_unit_zero (S := S1x256) hz]

theorem out_A_7 (c : Dev nD) (i : grid2.Coords) (a1 : Memref sig .tc .vmem S5000x128 .f32) (h1 : a1.IsWhole) (a2 : Memref sig .tc .vmem S5000x128 .f32) (h2 : a2.IsWhole) (a3 : Memref sig .tc .vmem S128x256 .f32) (h3 : a3.IsWhole) (a4 : Memref sig .tc .vmem S128x256 .f32) (h4 : a4.IsWhole) (a5 : Memref sig .tc .vmem S1x256 .f32) (h5 : a5.IsWhole) (a6 : Memref sig .tc .vmem S5000x256 .f32) (h6 : a6.IsWhole) (a7 : Memref sig .tc .vmem S1x256 .f32) (h7 : a7.IsWhole) (a8 : Memref sig .tc .vmem S1x256 .f32) (h8 : a8.IsWhole) (hc : cond2_0 i) (x0 x1 : Vec F S5000x128 .f32) (x2 x3 : Vec F S128x256 .f32) (x4 : Vec F S1x256 .f32) :
    out2_A_7 c i a1 h1 a2 h2 a3 h3 a4 h4 a5 h5 a6 h6 a7 h7 a8 h8 hc x0 x1 x2 x3 x4 = k2_pay1 (k2_pay6 k2_pay3) (k2_pay7 x0 x1 x2 x3 x4) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h7.read_unread, h8.read_unread,
    View.ld_unit_zero (S := S5000x128) hz, View.ld_unit_zero (S := S128x256) hz, View.ld_unit_zero (S := S1x256) hz]

end Pieces

variable (V : (c : Dev nD) → (b : Ref sig .tc) → Buf (Elt Ideal) ((c : Thread nD τ).loc b))

/-- The layer's output H = A·Wr + bias + X·Wo of the operand arrays as the region finds them. -/
abbrev H (c : Dev nD) : Arr 50000 256 :=
  conv (V c main_v42 : Arr 50000 128) (V c main_v29 : Arr 50000 128) (V c main_v43 : Arr 128 256) (V c main_v44 : Arr 128 256) (V c main_v45 : Arr 1 256)

/-! ## The operand blocks

Point `t` reads row tile `t` of the two row-tiled operands and the whole of the two weight arrays and the bias. -/

/-- The tile a point's number names (the grid has ten points). -/
def tn (k : ℕ) : Fin 10 := ⟨k % 10, Nat.mod_lt k (by decide)⟩

theorem tn_val (t : Fin 10) : tn t.val = t := Fin.ext (Nat.mod_eq_of_lt t.isLt)

theorem lt10 (t : Fin cfg2.N) : t.val < 10 := by
  have hN : cfg2.N = 10 := N_2
  have := t.isLt
  omega

theorem blk0_eq (c : Dev nD) (t : Fin cfg2.N) :
    (iblk2 V c 0 t : Arr 5000 128) = tile (V c main_v42 : Arr 50000 128) (tn t.val) := by
  have hi := (by decide +kernel : ∀ t : Fin grid2.N, win2_0.index t (0 : Fin 2) = t.val ∧ win2_0.index t (1 : Fin 2) = 0) t
  have hlt := lt10 t
  funext j
  unfold iblk2 tile
  rw [View.read_apply]
  show V c main_v42 _ = V c main_v42 _
  congr 1
  funext a
  apply Fin.ext
  match a with
  | ⟨0, _⟩ => show win2_0.index t 0 * 5000 + 1 * (j 0).val = 5000 * (t.val % 10) + (j 0).val; rw [hi.1]; omega
  | ⟨1, _⟩ => show win2_0.index t 1 * 128 + 1 * (j 1).val = (j 1).val; rw [hi.2]; omega

theorem blk1_eq (c : Dev nD) (t : Fin cfg2.N) :
    (iblk2 V c 1 t : Arr 5000 128) = tile (V c main_v29 : Arr 50000 128) (tn t.val) := by
  have hi := (by decide +kernel : ∀ t : Fin grid2.N, win2_1.index t (0 : Fin 2) = t.val ∧ win2_1.index t (1 : Fin 2) = 0) t
  have hlt := lt10 t
  funext j
  unfold iblk2 tile
  rw [View.read_apply]
  show V c main_v29 _ = V c main_v29 _
  congr 1
  funext a
  apply Fin.ext
  match a with
  | ⟨0, _⟩ => show win2_1.index t 0 * 5000 + 1 * (j 0).val = 5000 * (t.val % 10) + (j 0).val; rw [hi.1]; omega
  | ⟨1, _⟩ => show win2_1.index t 1 * 128 + 1 * (j 1).val = (j 1).val; rw [hi.2]; omega

theorem blk2_eq (c : Dev nD) (t : Fin cfg2.N) : (iblk2 V c 2 t : Arr 128 256) = (V c main_v43 : Arr 128 256) := by
  have hi := (by decide +kernel : ∀ t : Fin grid2.N, win2_2.index t (0 : Fin 2) = 0 ∧ win2_2.index t (1 : Fin 2) = 0) t
  funext j
  unfold iblk2
  rw [View.read_apply]
  show V c main_v43 _ = V c main_v43 j
  congr 1
  funext a
  apply Fin.ext
  match a with
  | ⟨0, _⟩ => show win2_2.index t 0 * 128 + 1 * (j 0).val = (j 0).val; rw [hi.1]; omega
  | ⟨1, _⟩ => show win2_2.index t 1 * 256 + 1 * (j 1).val = (j 1).val; rw [hi.2]; omega

theorem blk3_eq (c : Dev nD) (t : Fin cfg2.N) : (iblk2 V c 3 t : Arr 128 256) = (V c main_v44 : Arr 128 256) := by
  have hi := (by decide +kernel : ∀ t : Fin grid2.N, win2_3.index t (0 : Fin 2) = 0 ∧ win2_3.index t (1 : Fin 2) = 0) t
  funext j
  unfold iblk2
  rw [View.read_apply]
  show V c main_v44 _ = V c main_v44 j
  congr 1
  funext a
  apply Fin.ext
  match a with
  | ⟨0, _⟩ => show win2_3.index t 0 * 128 + 1 * (j 0).val = (j 0).val; rw [hi.1]; omega
  | ⟨1, _⟩ => show win2_3.index t 1 * 256 + 1 * (j 1).val = (j 1).val; rw [hi.2]; omega

theorem blk4_eq (c : Dev nD) (t : Fin cfg2.N) : (iblk2 V c 4 t : Arr 1 256) = (V c main_v45 : Arr 1 256) := by
  have hi := (by decide +kernel : ∀ t : Fin grid2.N, win2_4.index t (0 : Fin 2) = 0 ∧ win2_4.index t (1 : Fin 2) = 0) t
  funext j
  unfold iblk2
  rw [View.read_apply]
  show V c main_v45 _ = V c main_v45 j
  congr 1
  funext a
  apply Fin.ext
  match a with
  | ⟨0, _⟩ => show win2_4.index t 0 * 1 + 1 * (j 0).val = (j 0).val; rw [hi.1]; omega
  | ⟨1, _⟩ => show win2_4.index t 1 * 256 + 1 * (j 1).val = (j 1).val; rw [hi.2]; omega

/-- The layer on point `t`'s blocks is tile `t` of the layer on the arrays. -/
theorem conv_blocks (c : Dev nD) (t : Fin cfg2.N) :
    (conv (iblk2 V c 0 t : Arr 5000 128) (iblk2 V c 1 t) (iblk2 V c 2 t) (iblk2 V c 3 t) (iblk2 V c 4 t) : Arr 5000 256)
      = tile (H V c) (tn t.val) := by
  rw [blk0_eq V c t, blk1_eq V c t, blk2_eq V c t, blk3_eq V c t, blk4_eq V c t]
  rfl

/-! ## What the result buffers hold after each point -/

/-- The payload of the first result on point `t`'s blocks: tile `t` of the layer. -/
theorem pay4_blocks (c : Dev nD) (t : Fin cfg2.N) :
    (k2_pay4 (F := Ideal) (iblk2 V c 0 t) (iblk2 V c 1 t) (iblk2 V c 2 t) (iblk2 V c 3 t) (iblk2 V c 4 t) : Arr 5000 256) = tile (H V c) (tn t.val) :=
  (ConvPay2.pay4_eq (iblk2 V c 0 t) (iblk2 V c 1 t) (iblk2 V c 2 t) (iblk2 V c 3 t) (iblk2 V c 4 t)).trans (conv_blocks V c t)

/-- After every point the first result buffer holds tile `t` of the layer, whichever control case the point is in. -/
theorem inv5 (c : Dev nD) (t : Fin cfg2.N) : ((outsAt2 V c t.val t.isLt).1 : Arr 5000 256) = tile (H V c) (tn t.val) := by
  by_cases h0 : t.val % 10 = 0
  · rw [outsAt2_A V c t h0]
    dsimp only
    rw [out_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)]
    exact pay4_blocks V c t
  · rw [outsAt2_B V c t h0]
    dsimp only
    rw [out_B_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2]
    exact pay4_blocks V c t

/-- The payload of the second result on point `t`'s blocks adds tile `t`'s column sums to what the buffer held. -/
theorem pay5_blocks (c : Dev nD) (t : Fin cfg2.N) (s : Arr 1 256) :
    (k2_pay5 (F := Ideal) (iblk2 V c 0 t) (iblk2 V c 1 t) (iblk2 V c 2 t) (iblk2 V c 3 t) (iblk2 V c 4 t) s : Arr 1 256) = fun i => s i + colSum (tile (H V c) (tn t.val)) i :=
  (ConvPay2.pay5_eq (iblk2 V c 0 t) (iblk2 V c 1 t) (iblk2 V c 2 t) (iblk2 V c 3 t) (iblk2 V c 4 t) s).trans (by rw [conv_blocks V c t])

/-- The payload of the third result adds tile `t`'s column sums of squares to what the buffer held. -/
theorem pay1_blocks (c : Dev nD) (t : Fin cfg2.N) (q : Arr 1 256) :
    (k2_pay1 (F := Ideal) (k2_pay6 q) (k2_pay7 (iblk2 V c 0 t) (iblk2 V c 1 t) (iblk2 V c 2 t) (iblk2 V c 3 t) (iblk2 V c 4 t)) : Arr 1 256)
      = fun i => q i + colSumSq (tile (H V c) (tn t.val)) i :=
  (ConvPay2.pay1_eq (iblk2 V c 0 t) (iblk2 V c 1 t) (iblk2 V c 2 t) (iblk2 V c 3 t) (iblk2 V c 4 t) q).trans (by rw [conv_blocks V c t])

/-- At the first point the column sums start from the reset row: zero plus tile 0's column sums. -/
theorem step6_A (c : Dev nD) (t : Fin cfg2.N) (h0 : t.val % 10 = 0) :
    ((outsAt2 V c t.val t.isLt).2.1 : Arr 1 256) = fun i => (0 : EReal) + colSum (tile (H V c) (tn t.val)) i := by
  rw [outsAt2_A V c t h0]
  dsimp only
  rw [out_A_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)]
  refine (pay5_blocks V c t (k2_pay2 (F := Ideal))).trans ?_
  rw [ConvPay2.pay2_eq]

/-- At a later point they are what the point before left plus tile `t`'s column sums. -/
theorem step6_B (c : Dev nD) (t : Fin cfg2.N) (h0 : ¬t.val % 10 = 0) :
    ((outsAt2 V c t.val t.isLt).2.1 : Arr 1 256)
      = fun i => ((outsAt2 V c (t.val - 1) (Nat.lt_of_le_of_lt (Nat.sub_le _ _) t.isLt)).2.1 : Arr 1 256) i + colSum (tile (H V c) (tn t.val)) i := by
  rw [outsAt2_B V c t h0]
  dsimp only
  rw [out_B_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2]
  exact pay5_blocks V c t (outsAt2 V c (t.val - 1) (Nat.lt_of_le_of_lt (Nat.sub_le _ _) t.isLt)).2.1

theorem step7_A (c : Dev nD) (t : Fin cfg2.N) (h0 : t.val % 10 = 0) :
    ((outsAt2 V c t.val t.isLt).2.2 : Arr 1 256) = fun i => (0 : EReal) + colSumSq (tile (H V c) (tn t.val)) i := by
  rw [outsAt2_A V c t h0]
  dsimp only
  rw [out_A_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)]
  refine (pay1_blocks V c t (k2_pay3 (F := Ideal))).trans ?_
  rw [ConvPay2.pay3_eq]

theorem step7_B (c : Dev nD) (t : Fin cfg2.N) (h0 : ¬t.val % 10 = 0) :
    ((outsAt2 V c t.val t.isLt).2.2 : Arr 1 256)
      = fun i => ((outsAt2 V c (t.val - 1) (Nat.lt_of_le_of_lt (Nat.sub_le _ _) t.isLt)).2.2 : Arr 1 256) i + colSumSq (tile (H V c) (tn t.val)) i := by
  rw [outsAt2_B V c t h0]
  dsimp only
  rw [out_B_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2]
  exact pay1_blocks V c t (outsAt2 V c (t.val - 1) (Nat.lt_of_le_of_lt (Nat.sub_le _ _) t.isLt)).2.2

/-- After point `n` the second result buffer holds the column sums of tiles 0 … n, added in point order. -/
theorem inv6 (c : Dev nD) : ∀ (n : ℕ) (h : n < cfg2.N),
    ((outsAt2 V c n h).2.1 : Arr 1 256) = fun i => ∑ k ∈ Finset.range (n + 1), colSum (tile (H V c) (tn k)) i
  | 0, h => by
    refine (step6_A V c ⟨0, h⟩ (Nat.zero_mod 10)).trans ?_
    funext i
    rw [Finset.sum_range_one, zero_add]
  | n + 1, h => by
    have hN : cfg2.N = 10 := N_2
    have hB : ¬(⟨n + 1, h⟩ : Fin cfg2.N).val % 10 = 0 := by dsimp only; omega
    refine (step6_B V c ⟨n + 1, h⟩ hB).trans ?_
    funext i
    rw [Finset.sum_range_succ]
    show ((outsAt2 V c n _).2.1 : Arr 1 256) i + _ = _
    rw [inv6 c n]

theorem inv7 (c : Dev nD) : ∀ (n : ℕ) (h : n < cfg2.N),
    ((outsAt2 V c n h).2.2 : Arr 1 256) = fun i => ∑ k ∈ Finset.range (n + 1), colSumSq (tile (H V c) (tn k)) i
  | 0, h => by
    refine (step7_A V c ⟨0, h⟩ (Nat.zero_mod 10)).trans ?_
    funext i
    rw [Finset.sum_range_one, zero_add]
  | n + 1, h => by
    have hN : cfg2.N = 10 := N_2
    have hB : ¬(⟨n + 1, h⟩ : Fin cfg2.N).val % 10 = 0 := by dsimp only; omega
    refine (step7_B V c ⟨n + 1, h⟩ hB).trans ?_
    funext i
    rw [Finset.sum_range_succ]
    show ((outsAt2 V c n _).2.2 : Arr 1 256) i + _ = _
    rw [inv7 c n]

/-- The ten tiles' sums, in point order, are the sum over the tiles. -/
theorem sum_range_tiles (f : Fin 10 → EReal) : ∑ k ∈ Finset.range 10, f (tn k) = ∑ t : Fin 10, f t := by
  rw [← Fin.sum_univ_eq_sum_range (fun k => f (tn k)) 10]
  exact Finset.sum_congr rfl fun t _ => by rw [tn_val]

/-- After the last point the second result buffer holds the column sums of the whole layer, -/
theorem last6 (c : Dev nD) (t : Fin cfg2.N) (h9 : t.val = 9) :
    ((outsAt2 V c t.val t.isLt).2.1 : Arr 1 256) = colSum (H V c) := by
  refine (inv6 V c t.val t.isLt).trans ?_
  rw [h9, colSum_tiles (H V c)]
  funext i
  exact sum_range_tiles fun t => colSum (tile (H V c) t) i

/-- and the third the column sums of its squares. -/
theorem last7 (c : Dev nD) (t : Fin cfg2.N) (h9 : t.val = 9) :
    ((outsAt2 V c t.val t.isLt).2.2 : Arr 1 256) = colSumSq (H V c) := by
  refine (inv7 V c t.val t.isLt).trans ?_
  rw [h9, colSumSq_tiles (H V c)]
  funext i
  exact sum_range_tiles fun t => colSumSq (tile (H V c) t) i

/-! ## The result arrays after the last point -/

/-- Every point writes its block of the first result array back, and the block is tile `t` of the layer. -/
theorem flushed5 (c : Dev nD) (t : Fin cfg2.N) (hf : (cfg2.win 5).flush t = true) :
    (dat2 (F := Ideal) V c).flushed 5 t = ((cfg2.win 5).blk t).view.read (Elt Ideal) (H V c) := by
  have hi := (by decide +kernel : ∀ t : Fin grid2.N, win2_5.index t (0 : Fin 2) = t.val ∧ win2_5.index t (1 : Fin 2) = 0) t
  have hlt := lt10 t
  show (cfg2.win 5).cut (grid2.coords t) ((dat2 (F := Ideal) V c).after 5 t) = _
  rw [after2_5, inv5 V c t]
  funext j
  rw [View.read_apply]
  show H V c _ = H V c _
  congr 1
  funext a
  apply Fin.ext
  match a with
  | ⟨0, _⟩ => show 5000 * (t.val % 10) + (j 0).val = win2_5.index t 0 * 5000 + 1 * (j 0).val; rw [hi.1]; omega
  | ⟨1, _⟩ => show (j 1).val = win2_5.index t 1 * 256 + 1 * (j 1).val; rw [hi.2]; omega

/-- Row tile t of the first result array is what point t stored, and the ten tiles cover it: the array ends at H. -/
theorem h_final (c : Dev nD) : (dat2 (F := Ideal) V c).arrAt 5 cfg2.N = H V c :=
  (dat2 (F := Ideal) V c).arrAt_eq_of_cover 5 (H V c) (flushed5 V c) fun i => by
    have h0 : (i 0 : Nat) < 50000 := (i 0).isLt
    have h1 : (i 1 : Nat) < 256 := (i 1).isLt
    have hN : cfg2.N = 10 := N_2
    refine ⟨⟨(i 0 : Nat) / 5000, by rw [hN]; omega⟩, flush2_5 _, ?_⟩
    generalize ht : (⟨(i 0 : Nat) / 5000, by rw [hN]; omega⟩ : Fin cfg2.N) = t
    have htv : t.val = (i 0 : Nat) / 5000 := by rw [← ht]
    have hi := (by decide +kernel : ∀ t : Fin grid2.N, (win2_5.index t (0 : Fin 2) = t.val ∧ win2_5.index t (1 : Fin 2) = 0)
      ∧ win2_5.xsize (grid2.coords t) (0 : Fin 2) = 5000 ∧ win2_5.xsize (grid2.coords t) (1 : Fin 2) = 256) t
    show i ∈ ((View.whole main_v46_0).slice (win2_5.rect t)).set
    rw [View.set_slice_whole, Rect.mem_set_unit]
    intro a
    match a with
    | ⟨0, _⟩ =>
      show win2_5.index t 0 * 5000 ≤ (i 0 : Nat) ∧ (i 0 : Nat) < win2_5.index t 0 * 5000 + win2_5.xsize (grid2.coords t) 0
      rw [hi.1.1, hi.2.1, htv]; omega
    | ⟨1, _⟩ =>
      show win2_5.index t 1 * 256 ≤ (i 1 : Nat) ∧ (i 1 : Nat) < win2_5.index t 1 * 256 + win2_5.xsize (grid2.coords t) 1
      rw [hi.1.2, hi.2.2]; omega

/-- The one write-back of result array 6, after the last point, writes the column sums of the layer: its one block is the array. -/
theorem flushed6 (c : Dev nD) (t : Fin cfg2.N) (hf : (cfg2.win 6).flush t = true) :
    (dat2 (F := Ideal) V c).flushed 6 t = ((cfg2.win 6).blk t).view.read (Elt Ideal) (colSum (H V c)) := by
  have hN : cfg2.N = 10 := N_2
  have h9 : t.val = 9 := by have := (flush2_6 t).mp hf; have := t.isLt; omega
  have hi := (by decide +kernel : ∀ t : Fin grid2.N, win2_6.index t (0 : Fin 2) = 0 ∧ win2_6.index t (1 : Fin 2) = 0) t
  show (cfg2.win 6).cut (grid2.coords t) ((dat2 (F := Ideal) V c).after 6 t) = _
  rw [after2_6, last6 V c t h9]
  have hz' : (fun a => win2_6.index t a * main_v46_1.ty.shape.size a) = fun _ => 0 :=
    funext fun a => by
      match a with
      | ⟨0, _⟩ => show win2_6.index t 0 * _ = 0; rw [hi.1, Nat.zero_mul]
      | ⟨1, _⟩ => show win2_6.index t 1 * _ = 0; rw [hi.2, Nat.zero_mul]
  exact (Memref.read_access_unit_zero (Elt Ideal) main_v46_1 hz' (fun a => by rw [congrFun hz' a]; simp) (colSum (H V c))).symm

/-- The second result array, a single block every point adds its tile's column sums into (reset at point 0, written
    back after the last point), ends at the column sums of H over all 50000 rows. -/
theorem s_final (c : Dev nD) : (dat2 (F := Ideal) V c).arrAt 6 cfg2.N = colSum (H V c) :=
  (dat2 (F := Ideal) V c).arrAt_eq_of_cover 6 (colSum (H V c)) (flushed6 V c) fun i => by
    have hN : cfg2.N = 10 := N_2
    have h0 : (i 0 : Nat) < 1 := (i 0).isLt
    have h1 : (i 1 : Nat) < 256 := (i 1).isLt
    refine ⟨⟨9, by rw [hN]; decide⟩, (flush2_6 _).mpr rfl, ?_⟩
    generalize (⟨9, by rw [hN]; decide⟩ : Fin cfg2.N) = t
    have hi := (by decide +kernel : ∀ t : Fin grid2.N, (win2_6.index t (0 : Fin 2) = 0 ∧ win2_6.index t (1 : Fin 2) = 0)
      ∧ win2_6.xsize (grid2.coords t) (0 : Fin 2) = 1 ∧ win2_6.xsize (grid2.coords t) (1 : Fin 2) = 256) t
    show i ∈ ((View.whole main_v46_1).slice (win2_6.rect t)).set
    rw [View.set_slice_whole, Rect.mem_set_unit]
    intro a
    match a with
    | ⟨0, _⟩ =>
      show win2_6.index t 0 * 1 ≤ (i 0 : Nat) ∧ (i 0 : Nat) < win2_6.index t 0 * 1 + win2_6.xsize (grid2.coords t) 0
      rw [hi.1.1, hi.2.1]; omega
    | ⟨1, _⟩ =>
      show win2_6.index t 1 * 256 ≤ (i 1 : Nat) ∧ (i 1 : Nat) < win2_6.index t 1 * 256 + win2_6.xsize (grid2.coords t) 1
      rw [hi.1.2, hi.2.2]; omega

/-- The one write-back of result array 7, after the last point, writes the column sums of the squares of the layer: its one block is the array. -/
theorem flushed7 (c : Dev nD) (t : Fin cfg2.N) (hf : (cfg2.win 7).flush t = true) :
    (dat2 (F := Ideal) V c).flushed 7 t = ((cfg2.win 7).blk t).view.read (Elt Ideal) (colSumSq (H V c)) := by
  have hN : cfg2.N = 10 := N_2
  have h9 : t.val = 9 := by have := (flush2_7 t).mp hf; have := t.isLt; omega
  have hi := (by decide +kernel : ∀ t : Fin grid2.N, win2_7.index t (0 : Fin 2) = 0 ∧ win2_7.index t (1 : Fin 2) = 0) t
  show (cfg2.win 7).cut (grid2.coords t) ((dat2 (F := Ideal) V c).after 7 t) = _
  rw [after2_7, last7 V c t h9]
  have hz' : (fun a => win2_7.index t a * main_v46_2.ty.shape.size a) = fun _ => 0 :=
    funext fun a => by
      match a with
      | ⟨0, _⟩ => show win2_7.index t 0 * _ = 0; rw [hi.1, Nat.zero_mul]
      | ⟨1, _⟩ => show win2_7.index t 1 * _ = 0; rw [hi.2, Nat.zero_mul]
  exact (Memref.read_access_unit_zero (Elt Ideal) main_v46_2 hz' (fun a => by rw [congrFun hz' a]; simp) (colSumSq (H V c))).symm

/-- The third result array likewise ends at the column sums of the squares of H. -/
theorem ss_final (c : Dev nD) : (dat2 (F := Ideal) V c).arrAt 7 cfg2.N = colSumSq (H V c) :=
  (dat2 (F := Ideal) V c).arrAt_eq_of_cover 7 (colSumSq (H V c)) (flushed7 V c) fun i => by
    have hN : cfg2.N = 10 := N_2
    have h0 : (i 0 : Nat) < 1 := (i 0).isLt
    have h1 : (i 1 : Nat) < 256 := (i 1).isLt
    refine ⟨⟨9, by rw [hN]; decide⟩, (flush2_7 _).mpr rfl, ?_⟩
    generalize (⟨9, by rw [hN]; decide⟩ : Fin cfg2.N) = t
    have hi := (by decide +kernel : ∀ t : Fin grid2.N, (win2_7.index t (0 : Fin 2) = 0 ∧ win2_7.index t (1 : Fin 2) = 0)
      ∧ win2_7.xsize (grid2.coords t) (0 : Fin 2) = 1 ∧ win2_7.xsize (grid2.coords t) (1 : Fin 2) = 256) t
    show i ∈ ((View.whole main_v46_2).slice (win2_7.rect t)).set
    rw [View.set_slice_whole, Rect.mem_set_unit]
    intro a
    match a with
    | ⟨0, _⟩ =>
      show win2_7.index t 0 * 1 ≤ (i 0 : Nat) ∧ (i 0 : Nat) < win2_7.index t 0 * 1 + win2_7.xsize (grid2.coords t) 0
      rw [hi.1.1, hi.2.1]; omega
    | ⟨1, _⟩ =>
      show win2_7.index t 1 * 256 ≤ (i 1 : Nat) ∧ (i 1 : Nat) < win2_7.index t 1 * 256 + win2_7.xsize (grid2.coords t) 1
      rw [hi.1.2, hi.2.2]; omega

end Cert.KernelIdeal.Conv2

end
-- ==== Proof.Bn3.lean ====
/-
  Region 3 of the kernel program (batch normalisation and hyperbolic tangent over 256 columns, ten row tiles of
  5000): what its result array holds after the last grid point, as a function of the five operand arrays the region
  is entered with.
-/
import proofs.«134842_j42545946034237_1_alg».proof.Proof.Gen.KernelIdeal.Frame
import proofs.«134842_j42545946034237_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Bn3

open Cert.KernelIdeal Cert.KernelIdeal.Gen Cert.GraphNet
open Idealize.ShloMosaic.ValueIdx (ix2 eq_ix2 mulf_apply addf_apply subf_apply broadcast_apply)

/-! ## The body's arithmetic at an index -/

/-- The hyperbolic tangent and the reciprocal square root of a vector, read at an index. -/
theorem tanh_apply {s : Shape} {φ : FTy} (x : FVec Ideal s φ) (i : s.Idx) :
    Idealize.ShloMosaic.tanh x i = Ideal.tanh (x i) := rfl
theorem rsqrt_apply {s : Shape} {φ : FTy} (x : FVec Ideal s φ) (i : s.Idx) :
    Idealize.ShloMosaic.rsqrt x i = Ideal.rsqrt (x i) := rfl

/-- A row vector [1,256] broadcast down 5000 rows, read at row p, column q, is the row's entry q. -/
theorem bcast_row (x : Vec Ideal S1x256 .f32) (p : Fin 5000) (q : Fin 256) :
    broadcastTo S5000x256 x broadcasts_S1x256_S5000x256 (ix2 p q) = x (ix2 0 q) := by
  refine broadcastTo_apply x _ (ix2 p q) (ix2 0 q) fun a => ?_
  match a with
  | ⟨0, _⟩ => rfl
  | ⟨1, _⟩ => rfl

/-- The body's value at row p, column q of a tile: the tile's entry less the mean's, times the reciprocal square
    root of the variance's plus epsilon, times the scale's, plus the shift's, through tanh.  (The body loads the
    variance row before the mean row.) -/
theorem pay_apply (h : Vec Ideal S5000x256 .f32) (var mu g b : Vec Ideal S1x256 .f32) (p : Fin 5000) (q : Fin 256) :
    k3_pay1 (F := Ideal) h var mu g b (ix2 p q)
      = Ideal.tanh ((((h : Arr 5000 256) (ix2 p q) - (mu : Arr 1 256) (ix2 0 q))
          * Ideal.rsqrt ((var : Arr 1 256) (ix2 0 q) + eps)) * (g : Arr 1 256) (ix2 0 q) + (b : Arr 1 256) (ix2 0 q)) := by
  unfold k3_pay1
  simp only [shapeCast_self]
  rw [tanh_apply, addf_apply, mulf_apply, mulf_apply, subf_apply, bcast_row, bcast_row, bcast_row, bcast_row,
    rsqrt_apply, addf_apply, broadcast_apply]
  rfl

/-- The same at any index j of the tile, with column j 1. -/
theorem pay_at (h : Vec Ideal S5000x256 .f32) (var mu g b : Vec Ideal S1x256 .f32) (j : S5000x256.Idx) :
    k3_pay1 (F := Ideal) h var mu g b j
      = Ideal.tanh ((((h : Arr 5000 256) j - (mu : Arr 1 256) (ix2 0 (j 1)))
          * Ideal.rsqrt ((var : Arr 1 256) (ix2 0 (j 1)) + eps)) * (g : Arr 1 256) (ix2 0 (j 1))
          + (b : Arr 1 256) (ix2 0 (j 1))) := by
  obtain ⟨p, q, rfl⟩ : ∃ (p : Fin 5000) (q : Fin 256), j = ix2 p q := ⟨j 0, j 1, eq_ix2 j⟩
  exact pay_apply h var mu g b p q

/-! ## What the body leaves in the result's buffer -/

theorem hz : (![0, 0] : Fin 2 → Nat) = fun _ => 0 := funext fun a => by fin_cases a <;> rfl

/-- The body's one store leaves its payload of the five loaded blocks (each load reads a whole buffer). -/
theorem out_eq {F : FTy → Type} [FloatOps F] (x0 : Vec F S5000x256 .f32) (x1 x2 x3 x4 : Vec F S1x256 .f32) :
    out3_5 x0 x1 x2 x3 x4 = k3_pay1 x0 x2 x1 x3 x4 := by
  unfold out3_5
  rw [View.canon_unit_zero hz]
  simp only [View.ld_unit_zero (S := S5000x256) hz, View.ld_unit_zero (S := S1x256) hz]

/-! ## From the blocks to the array -/

variable (V : (c : Dev nD) → (b : Ref sig .tc) → Buf (Elt Ideal) ((c : Thread nD τ).loc b))

/-- The printed index maps over the ten grid points: the tile windows (0 and 5) sit at block row t, column block 0;
    the four row windows at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The normalised array the region computes, of the entry contents of its five operands. -/
abbrev Y (c : Dev nD) : Arr 50000 256 :=
  normTanh (V c main_v46_0 : Arr 50000 256) (V c main_v48 : Arr 1 256) (V c main_v52 : Arr 1 256) (V c main_v53 : Arr 1 256)
    (V c main_v54 : Arr 1 256)

/-- WHAT POINT t WRITES BACK is tile t of the normalised array: the tile window reads H where the result's block
    lands, and each row window reads its whole row. -/
theorem flushed_eq (c : Dev nD) (t : Fin cfg3.N) :
    (dat3 (F := Ideal) V c).flushed 5 t = ((cfg3.win 5).blk t).view.read (Elt Ideal) (Y V c) := by
  show (cfg3.win 5).cut (grid3.coords t) ((dat3 V c).after 5 t) = _
  rw [after3_5, out_eq]
  obtain ⟨a0, a1, b0, b1, c0, c1, d0, d1, e0, e1, f0, f1⟩ := idx_facts t
  funext j
  refine (pay_at (iblk3 V c 0 t) (iblk3 V c 2 t) (iblk3 V c 1 t) (iblk3 V c 3 t) (iblk3 V c 4 t) j).trans ?_
  have h0 : iblk3 V c 0 t j = (V c main_v46_0 : Arr 50000 256) (((cfg3.win 5).blk t).view.emb j) := by
    show V c main_v46_0 (((cfg3.win 0).blk t).view.emb j) = V c main_v46_0 (((cfg3.win 5).blk t).view.emb j)
    refine congrArg _ (funext fun a => Fin.ext ?_)
    match a with
    | ⟨0, _⟩ => show win3_0.index t (0 : Fin 2) * 5000 + 1 * (j 0).val = win3_5.index t (0 : Fin 2) * 5000 + 1 * (j 0).val; rw [a0, f0]
    | ⟨1, _⟩ => show win3_0.index t (1 : Fin 2) * 256 + 1 * (j 1).val = win3_5.index t (1 : Fin 2) * 256 + 1 * (j 1).val; rw [a1, f1]
  have h1 : iblk3 V c 1 t (ix2 0 (j 1)) = (V c main_v48 : Arr 1 256) (ix2 0 ((((cfg3.win 5).blk t).view.emb j) 1)) := by
    show V c main_v48 (((cfg3.win 1).blk t).view.emb (ix2 0 (j 1))) = V c main_v48 (ix2 0 ((((cfg3.win 5).blk t).view.emb j) 1))
    refine congrArg _ (funext fun a => Fin.ext ?_)
    match a with
    | ⟨0, _⟩ => show win3_1.index t (0 : Fin 2) * 1 + 1 * 0 = 0; rw [b0]
    | ⟨1, _⟩ => show win3_1.index t (1 : Fin 2) * 256 + 1 * (j 1).val = win3_5.index t (1 : Fin 2) * 256 + 1 * (j 1).val; rw [b1, f1]
  have h2 : iblk3 V c 2 t (ix2 0 (j 1)) = (V c main_v52 : Arr 1 256) (ix2 0 ((((cfg3.win 5).blk t).view.emb j) 1)) := by
    show V c main_v52 (((cfg3.win 2).blk t).view.emb (ix2 0 (j 1))) = V c main_v52 (ix2 0 ((((cfg3.win 5).blk t).view.emb j) 1))
    refine congrArg _ (funext fun a => Fin.ext ?_)
    match a with
    | ⟨0, _⟩ => show win3_2.index t (0 : Fin 2) * 1 + 1 * 0 = 0; rw [c0]
    | ⟨1, _⟩ => show win3_2.index t (1 : Fin 2) * 256 + 1 * (j 1).val = win3_5.index t (1 : Fin 2) * 256 + 1 * (j 1).val; rw [c1, f1]
  have h3 : iblk3 V c 3 t (ix2 0 (j 1)) = (V c main_v53 : Arr 1 256) (ix2 0 ((((cfg3.win 5).blk t).view.emb j) 1)) := by
    show V c main_v53 (((cfg3.win 3).blk t).view.emb (ix2 0 (j 1))) = V c main_v53 (ix2 0 ((((cfg3.win 5).blk t).view.emb j) 1))
    refine congrArg _ (funext fun a => Fin.ext ?_)
    match a with
    | ⟨0, _⟩ => show win3_3.index t (0 : Fin 2) * 1 + 1 * 0 = 0; rw [d0]
    | ⟨1, _⟩ => show win3_3.index t (1 : Fin 2) * 256 + 1 * (j 1).val = win3_5.index t (1 : Fin 2) * 256 + 1 * (j 1).val; rw [d1, f1]
  have h4 : iblk3 V c 4 t (ix2 0 (j 1)) = (V c main_v54 : Arr 1 256) (ix2 0 ((((cfg3.win 5).blk t).view.emb j) 1)) := by
    show V c main_v54 (((cfg3.win 4).blk t).view.emb (ix2 0 (j 1))) = V c main_v54 (ix2 0 ((((cfg3.win 5).blk t).view.emb j) 1))
    refine congrArg _ (funext fun a => Fin.ext ?_)
    match a with
    | ⟨0, _⟩ => show win3_4.index t (0 : Fin 2) * 1 + 1 * 0 = 0; rw [e0]
    | ⟨1, _⟩ => show win3_4.index t (1 : Fin 2) * 256 + 1 * (j 1).val = win3_5.index t (1 : Fin 2) * 256 + 1 * (j 1).val; rw [e1, f1]
  rw [h0, h1, h2, h3, h4]
  rfl

/-- Row r of the result lies in the block of point r / 5000. -/
theorem cover (i : S50000x256.Idx) :
    ∃ t : Fin cfg3.N, (cfg3.win 5).flush t = true ∧ i ∈ ((cfg3.win 5).blk t).view.set := by
  have hi0 : (i 0).val < 50000 := (i 0).isLt
  have hi1 : (i 1).val < 256 := (i 1).isLt
  have hN : cfg3.N = 10 := N_3
  let t : Fin cfg3.N := ⟨(i 0).val / 5000, by rw [hN]; omega⟩
  have ht : t.val = (i 0).val / 5000 := rfl
  obtain ⟨-, -, -, -, -, -, -, -, -, -, f0, f1⟩ := idx_facts t
  refine ⟨t, flush3_5 t, ?_⟩
  show i ∈ ((View.whole main_v55).slice (win3_5.rect t)).set
  rw [View.set_slice_whole, Rect.mem_set_unit]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 256 ≤ (i 1).val ∧ (i 1).val < win3_5.index t (1 : Fin 2) * 256 + 256; omega

/-- Row tile t of the result array is what point t stored — the tile of H normalised by the mean and variance rows,
    scaled, shifted, through tanh — and the ten tiles cover it. -/
theorem y_final (c : Dev nD) : (dat3 (F := Ideal) V c).arrAt 5 cfg3.N
    = normTanh (V c main_v46_0 : Arr 50000 256) (V c main_v48 : Arr 1 256) (V c main_v52 : Arr 1 256) (V c main_v53 : Arr 1 256) (V c main_v54 : Arr 1 256) :=
  (dat3 (F := Ideal) V c).arrAt_eq_of_cover 5 (Y V c) (fun t _ => flushed_eq V c t) cover

end Cert.KernelIdeal.Bn3

end
-- ==== Proof.StageB.lean ====
/-
  The kernel program's buffers after its third and fourth regions, read back to the arguments: layer 2's output with its column sums and sums of squares, then layer 2 normalised through tanh.
-/
import proofs.«134842_j42545946034237_1_alg».proof.Proof.Gen.KernelIdeal.Frame
import proofs.«134842_j42545946034237_1_alg».proof.Proof.KernelChain
import proofs.«134842_j42545946034237_1_alg».proof.Proof.StageA
import proofs.«134842_j42545946034237_1_alg».proof.Proof.Conv2
import proofs.«134842_j42545946034237_1_alg».proof.Proof.Bn3
import Idealize.ShloMosaic.Lib.StableHlo.Run
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.StageB

open Cert.KernelIdeal Cert.KernelIdeal.Gen Cert.KernelIdeal.Net Cert.KernelIdeal.Chain Cert.GraphNet

variable (m : (ℓ : Loc nD τ sig) → Buf (Elt Ideal) ℓ) (ρ : Dev nD → PrngReg)

/-- A buffer that none of a host stretch's operations writes keeps its contents over the stretch. -/
macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What the first host stretch prepared, and the arguments, as region 1 leaves them -/

theorem w1_v1 (c : Dev nD) : (W1 (F := Ideal) m ρ c (Proc.devRef .tc main_v1) : IVec S800000 32) = src (m ((c : Thread nD τ).loc main_arg1)) := by
  show StableHlo.after hostOps0 (W0 m ρ c) (Proc.devRef .tc main_v1) = _
  after_results_simp
  rfl
theorem w1_v3 (c : Dev nD) : (W1 (F := Ideal) m ρ c (Proc.devRef .tc main_v3) : IVec S800000 32) = dst (m ((c : Thread nD τ).loc main_arg1)) := by
  show StableHlo.after hostOps0 (W0 m ρ c) (Proc.devRef .tc main_v3) = _
  after_results_simp
  rfl

theorem w4_v1 (c : Dev nD) : (W4 (F := Ideal) m ρ c (Proc.devRef .tc main_v1) : IVec S800000 32) = src (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := by host_keeps hostOps1
    _ = W1 m ρ c (Proc.devRef .tc main_v1) := W2_of_ne m ρ c main_v1 (by decide)
    _ = _ := w1_v1 m ρ c
theorem w4_v3 (c : Dev nD) : (W4 (F := Ideal) m ρ c (Proc.devRef .tc main_v3) : IVec S800000 32) = dst (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := by host_keeps hostOps1
    _ = W1 m ρ c (Proc.devRef .tc main_v3) := W2_of_ne m ρ c main_v3 (by decide)
    _ = _ := w1_v3 m ρ c

theorem w4_arg2 (c : Dev nD) : W4 (F := Ideal) m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by host_keeps hostOps1
    _ = W1 m ρ c (Proc.devRef .tc main_arg2) := W2_of_ne m ρ c main_arg2 (by decide)
    _ = W0 m ρ c (Proc.devRef .tc main_arg2) := by host_keeps hostOps0
    _ = m ((c : Thread nD τ).loc main_arg2) := rfl

theorem w4_arg6 (c : Dev nD) : W4 (F := Ideal) m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := by host_keeps hostOps1
    _ = W1 m ρ c (Proc.devRef .tc main_arg6) := W2_of_ne m ρ c main_arg6 (by decide)
    _ = W0 m ρ c (Proc.devRef .tc main_arg6) := by host_keeps hostOps0
    _ = m ((c : Thread nD τ).loc main_arg6) := rfl

theorem w4_arg7 (c : Dev nD) : W4 (F := Ideal) m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by host_keeps hostOps1
    _ = W1 m ρ c (Proc.devRef .tc main_arg7) := W2_of_ne m ρ c main_arg7 (by decide)
    _ = W0 m ρ c (Proc.devRef .tc main_arg7) := by host_keeps hostOps0
    _ = m ((c : Thread nD τ).loc main_arg7) := rfl

theorem w4_arg8 (c : Dev nD) : W4 (F := Ideal) m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by host_keeps hostOps1
    _ = W1 m ρ c (Proc.devRef .tc main_arg8) := W2_of_ne m ρ c main_arg8 (by decide)
    _ = W0 m ρ c (Proc.devRef .tc main_arg8) := by host_keeps hostOps0
    _ = m ((c : Thread nD τ).loc main_arg8) := rfl

theorem w4_v29 (c : Dev nD) : (W4 (F := Ideal) m ρ c (Proc.devRef .tc main_v29) : Arr 50000 128) = Y1 m c := StageA.v4_y m ρ c

/-! ## Region 2's operands, as the third host stretch leaves them -/

/-- The aggregation of layer 1's output: the stretch gathers, scales and scatter-adds exactly as `agg128` does. -/
theorem v5_v42 (c : Dev nD) : (V5 (F := Ideal) m ρ c main_v42 : Arr 50000 128) = A2 m c := by
  show StableHlo.after hostOps2 (W4 m ρ c) (Proc.devRef .tc main_v42) = _
  after_results_simp
  rw [w4_v1 m ρ c, w4_v3 m ρ c, w4_v29 m ρ c, w4_arg2 m ρ c]
  rfl
/-- Layer 1's output itself is not touched by the stretch. -/
theorem v5_v29 (c : Dev nD) : (V5 (F := Ideal) m ρ c main_v29 : Arr 50000 128) = Y1 m c :=
  calc W5 m ρ c (Proc.devRef .tc main_v29)
    _ = W4 m ρ c (Proc.devRef .tc main_v29) := by host_keeps hostOps2
    _ = _ := w4_v29 m ρ c
theorem v5_v43 (c : Dev nD) : (V5 (F := Ideal) m ρ c main_v43 : Arr 128 256) = wT2 (m ((c : Thread nD τ).loc main_arg6)) := by
  show StableHlo.after hostOps2 (W4 m ρ c) (Proc.devRef .tc main_v43) = _
  after_results_simp
  rw [w4_arg6 m ρ c]
  rfl
theorem v5_v44 (c : Dev nD) : (V5 (F := Ideal) m ρ c main_v44 : Arr 128 256) = wT2 (m ((c : Thread nD τ).loc main_arg8)) := by
  show StableHlo.after hostOps2 (W4 m ρ c) (Proc.devRef .tc main_v44) = _
  after_results_simp
  rw [w4_arg8 m ρ c]
  rfl
theorem v5_v45 (c : Dev nD) : (V5 (F := Ideal) m ρ c main_v45 : Arr 1 256) = row256 (m ((c : Thread nD τ).loc main_arg7)) := by
  show StableHlo.after hostOps2 (W4 m ρ c) (Proc.devRef .tc main_v45) = _
  after_results_simp
  rw [w4_arg7 m ρ c]
  rfl

/-! ## After region 2 -/

/-- Region 2's layer, at the operands just read, is layer 2 of the chain. -/
theorem conv2_eq (c : Dev nD) : Conv2.H (V5 (F := Ideal) m ρ) c = H2 m c := by
  show conv (V5 (F := Ideal) m ρ c main_v42 : Arr 50000 128) (V5 (F := Ideal) m ρ c main_v29 : Arr 50000 128)
    (V5 (F := Ideal) m ρ c main_v43 : Arr 128 256) (V5 (F := Ideal) m ρ c main_v44 : Arr 128 256) (V5 (F := Ideal) m ρ c main_v45 : Arr 1 256) = _
  rw [v5_v42 m ρ c, v5_v29 m ρ c, v5_v43 m ρ c, v5_v44 m ρ c, v5_v45 m ρ c]
  rfl

theorem v6_h (c : Dev nD) : (V6 (F := Ideal) m ρ c main_v46_0 : Arr 50000 256) = H2 m c :=
  (W6_arr m ρ c 5).trans ((Conv2.h_final (V5 m ρ) c).trans (conv2_eq m ρ c))
theorem v6_s (c : Dev nD) : (V6 (F := Ideal) m ρ c main_v46_1 : Arr 1 256) = colSum (H2 m c) :=
  (W6_arr m ρ c 6).trans ((Conv2.s_final (V5 m ρ) c).trans (congrArg colSum (conv2_eq m ρ c)))
theorem v6_ss (c : Dev nD) : (V6 (F := Ideal) m ρ c main_v46_2 : Arr 1 256) = colSumSq (H2 m c) :=
  (W6_arr m ρ c 7).trans ((Conv2.ss_final (V5 m ρ) c).trans (congrArg colSumSq (conv2_eq m ρ c)))

/-! ## Region 3's operands, as the fourth host stretch leaves them -/

theorem w6_arg14 (c : Dev nD) : W6 (F := Ideal) m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := by host_keeps hostOps2
    _ = W3 m ρ c (Proc.devRef .tc main_arg14) := W4_of_ne m ρ c main_arg14 (by decide)
    _ = W2 m ρ c (Proc.devRef .tc main_arg14) := by host_keeps hostOps1
    _ = W1 m ρ c (Proc.devRef .tc main_arg14) := W2_of_ne m ρ c main_arg14 (by decide)
    _ = W0 m ρ c (Proc.devRef .tc main_arg14) := by host_keeps hostOps0
    _ = m ((c : Thread nD τ).loc main_arg14) := rfl

theorem w6_arg15 (c : Dev nD) : W6 (F := Ideal) m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := by host_keeps hostOps2
    _ = W3 m ρ c (Proc.devRef .tc main_arg15) := W4_of_ne m ρ c main_arg15 (by decide)
    _ = W2 m ρ c (Proc.devRef .tc main_arg15) := by host_keeps hostOps1
    _ = W1 m ρ c (Proc.devRef .tc main_arg15) := W2_of_ne m ρ c main_arg15 (by decide)
    _ = W0 m ρ c (Proc.devRef .tc main_arg15) := by host_keeps hostOps0
    _ = m ((c : Thread nD τ).loc main_arg15) := rfl

theorem w6_h (c : Dev nD) : (W6 (F := Ideal) m ρ c (Proc.devRef .tc main_v46_0) : Arr 50000 256) = H2 m c := v6_h m ρ c
theorem w6_s (c : Dev nD) : (W6 (F := Ideal) m ρ c (Proc.devRef .tc main_v46_1) : Arr 1 256) = colSum (H2 m c) := v6_s m ρ c
theorem w6_ss (c : Dev nD) : (W6 (F := Ideal) m ρ c (Proc.devRef .tc main_v46_2) : Arr 1 256) = colSumSq (H2 m c) := v6_ss m ρ c

/-- Layer 2's linear output is not touched by the stretch. -/
theorem v7_h (c : Dev nD) : (V7 (F := Ideal) m ρ c main_v46_0 : Arr 50000 256) = H2 m c :=
  calc W7 m ρ c (Proc.devRef .tc main_v46_0)
    _ = W6 m ρ c (Proc.devRef .tc main_v46_0) := by host_keeps hostOps3
    _ = _ := w6_h m ρ c
/-- The column sums divided by the number of rows: the mean. -/
theorem v7_mean (c : Dev nD) : (V7 (F := Ideal) m ρ c main_v48 : Arr 1 256) = mean (H2 m c) := by
  show StableHlo.after hostOps3 (W6 m ρ c) (Proc.devRef .tc main_v48) = _
  after_results_simp
  rw [w6_s m ρ c]
  rfl
/-- The mean of the squares minus the squared mean: the variance from the moments. -/
theorem v7_var (c : Dev nD) : (V7 (F := Ideal) m ρ c main_v52 : Arr 1 256) = varMoments (H2 m c) := by
  show StableHlo.after hostOps3 (W6 m ρ c) (Proc.devRef .tc main_v52) = _
  after_results_simp
  rw [w6_s m ρ c, w6_ss m ρ c]
  rfl
theorem v7_gamma (c : Dev nD) : (V7 (F := Ideal) m ρ c main_v53 : Arr 1 256) = row256 (m ((c : Thread nD τ).loc main_arg14)) := by
  show StableHlo.after hostOps3 (W6 m ρ c) (Proc.devRef .tc main_v53) = _
  after_results_simp
  rw [w6_arg14 m ρ c]
  rfl
theorem v7_beta (c : Dev nD) : (V7 (F := Ideal) m ρ c main_v54 : Arr 1 256) = row256 (m ((c : Thread nD τ).loc main_arg15)) := by
  show StableHlo.after hostOps3 (W6 m ρ c) (Proc.devRef .tc main_v54) = _
  after_results_simp
  rw [w6_arg15 m ρ c]
  rfl

/-! ## After region 3 -/

theorem v8_y (c : Dev nD) : (V8 (F := Ideal) m ρ c main_v55 : Arr 50000 256) = Y2 m c :=
  (W8_arr m ρ c 5).trans ((Bn3.y_final (V7 m ρ) c).trans (by
    rw [v7_h m ρ c, v7_mean m ρ c, v7_var m ρ c, v7_gamma m ρ c, v7_beta m ρ c]
    rfl))

end Cert.KernelIdeal.StageB

end
-- ==== Proof.ConvPay4.lean ====
/-
  The arithmetic of region 4's body (one row tile of a graph-convolution layer, 256 inputs to 32 outputs) read at the
  extended reals: the tile's linear output is the layer of Spec.lean on the tile (the two matrix products are sums
  over the contracted axis — rounding the operands to bfloat16 is the identity here —, the bias row is broadcast down
  the rows), the running column sums add the tile's column sums, the running sums of squares the tile's.
-/
import proofs.«134842_j42545946034237_1_alg».proof.Proof.Gen.KernelIdeal.Skeleton
import proofs.«134842_j42545946034237_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.ConvPay4

open Cert.KernelIdeal Cert.KernelIdeal.Gen Cert.GraphNet

variable (x0 x1 : Vec Ideal S5000x256 .f32) (x2 x3 : Vec Ideal S256x32 .f32) (x4 : Vec Ideal S1x32 .f32)

/-! ## The matrix product's operand indices

The product contracts the left operand's axis 1 with the right operand's axis 0; rows come from the left operand,
columns from the right.  One fact per operand axis: which coordinate of the output index or of the contraction
index it reads. -/

/-- The left operand's row is the output's row. -/
theorem lhs_row (i : S5000x32.Idx) (q : dot_S5000x256_S256x32_S5000x32_1_0_0_1_n_n.contr.Idx) :
    (dot_S5000x256_S256x32_S5000x32_1_0_0_1_n_n.lhsIdx i q 0).val = (i 0).val := by
  unfold DotDims.lhsIdx
  rw [dif_neg (show ¬(0 : Fin S5000x256.rank) ∈ dot_S5000x256_S256x32_S5000x32_1_0_0_1_n_n.lhsBatch by decide),
    dif_pos (show (0 : Fin S5000x256.rank) ∈ dot_S5000x256_S256x32_S5000x32_1_0_0_1_n_n.lhsNonContracting by decide)]
  rfl

/-- The left operand's column is the contraction position. -/
theorem lhs_col (i : S5000x32.Idx) (q : dot_S5000x256_S256x32_S5000x32_1_0_0_1_n_n.contr.Idx) :
    (dot_S5000x256_S256x32_S5000x32_1_0_0_1_n_n.lhsIdx i q 1).val = (q ⟨0, by decide⟩).val :=
  dot_S5000x256_S256x32_S5000x32_1_0_0_1_n_n.lhsIdx_val_of_single rfl i q

/-- The right operand's row is the contraction position. -/
theorem rhs_row (i : S5000x32.Idx) (q : dot_S5000x256_S256x32_S5000x32_1_0_0_1_n_n.contr.Idx) :
    (dot_S5000x256_S256x32_S5000x32_1_0_0_1_n_n.rhsIdx i q 0).val = (q ⟨0, by decide⟩).val :=
  dot_S5000x256_S256x32_S5000x32_1_0_0_1_n_n.rhsIdx_val_of_single rfl i q

/-- The right operand's column is the output's column. -/
theorem rhs_col (i : S5000x32.Idx) (q : dot_S5000x256_S256x32_S5000x32_1_0_0_1_n_n.contr.Idx) :
    (dot_S5000x256_S256x32_S5000x32_1_0_0_1_n_n.rhsIdx i q 1).val = (i 1).val := by
  unfold DotDims.rhsIdx
  rw [dif_neg (show ¬(1 : Fin S256x32.rank) ∈ dot_S5000x256_S256x32_S5000x32_1_0_0_1_n_n.rhsBatch by decide),
    dif_pos (show (1 : Fin S256x32.rank) ∈ dot_S5000x256_S256x32_S5000x32_1_0_0_1_n_n.rhsNonContracting by decide)]
  rfl

/-- The product into the zero accumulator, at row p and column c: the sum over the 256 contracted positions. -/
theorem matmul_at {φ₁ φ₂ : FTy} (a : FVec Ideal S5000x256 φ₁) (w : FVec Ideal S256x32 φ₂) (p : Fin 5000) (c : Fin 32) :
    matmul dot_S5000x256_S256x32_S5000x32_1_0_0_1_n_n none a w (constant (F := Ideal) S5000x32 .f32 0x00000000#32) (ix2 p c)
      = ∑ k : Fin 256, a (ix2 p k) * w (ix2 k c) := by
  refine (Ideal.matmul_constant_zero_apply dot_S5000x256_S256x32_S5000x32_1_0_0_1_n_n none a w (ix2 p c)).trans ?_
  rw [← Equiv.sum_comp (contrEquiv1 dot_S5000x256_S256x32_S5000x32_1_0_0_1_n_n 256 rfl rfl).symm]
  refine Finset.sum_congr rfl fun k _ => ?_
  have hk := contrEquiv1_symm_val dot_S5000x256_S256x32_S5000x32_1_0_0_1_n_n 256 rfl rfl k
  have el : dot_S5000x256_S256x32_S5000x32_1_0_0_1_n_n.lhsIdx (ix2 p c) ((contrEquiv1 dot_S5000x256_S256x32_S5000x32_1_0_0_1_n_n 256 rfl rfl).symm k) = ix2 p k :=
    funext fun ax => Fin.ext (by
      match ax with
      | ⟨0, _⟩ => exact lhs_row _ _
      | ⟨1, _⟩ => exact (lhs_col _ _).trans hk)
  have er : dot_S5000x256_S256x32_S5000x32_1_0_0_1_n_n.rhsIdx (ix2 p c) ((contrEquiv1 dot_S5000x256_S256x32_S5000x32_1_0_0_1_n_n 256 rfl rfl).symm k) = ix2 k c :=
    funext fun ax => Fin.ext (by
      match ax with
      | ⟨0, _⟩ => exact (rhs_row _ _).trans hk
      | ⟨1, _⟩ => exact rhs_col _ _)
  rw [el, er]

/-! ## The sum down the rows -/

/-- The source index over column c with row r inserted is (r, c). -/
theorem lift_rc (c : Fin 32) (r : Fin 5000) : reduces_S5000x32_S32.lift (ix1 c) r = ix2 r c :=
  funext fun ax => Fin.ext (by
    match ax with
    | ⟨0, _⟩ => rfl
    | ⟨1, _⟩ => rfl)

/-- The reduction over axis 0 at column c: the sum of the column's 5000 entries. -/
theorem colReduce_at (v : FVec Ideal S5000x32 .f32) (c : Fin 32) :
    multiReduction (F := Ideal) .add [0] S32 v 0x00000000#32 reduces_S5000x32_S32 (.inl rfl) rfl (ix1 c)
      = ∑ r : Fin 5000, v (ix2 r c) :=
  (Ideal.multiReduction_add_single v 0x00000000#32 reduces_S5000x32_S32 (.inl rfl) rfl (ix1 c)).trans
    (Finset.sum_congr rfl fun r _ => congrArg v (lift_rc c r))

/-- The stored tile: the layer's linear part on the tile's rows. -/
theorem pay4_eq : k4_pay4 (F := Ideal) x0 x1 x2 x3 x4 = (conv (x0 : Arr 5000 256) x1 x2 x3 x4 : Arr 5000 32) := by
  funext i
  obtain ⟨p, c, rfl⟩ : ∃ (p : Fin 5000) (c : Fin 32), i = ix2 p c := ⟨i 0, i 1, eq_ix2 i⟩
  unfold k4_pay4
  rw [addf_apply, addf_apply, matmul_at, matmul_at, broadcastTo_1b_ab_apply]
  simp only [shapeCast_self, truncf_apply]
  rfl

/-- The stored column sums: what the buffer held plus the tile's column sums. -/
theorem pay5_eq (s : Vec Ideal S1x32 .f32) :
    k4_pay5 (F := Ideal) x0 x1 x2 x3 x4 s = fun i => s i + colSum (conv (x0 : Arr 5000 256) x1 x2 x3 x4 : Arr 5000 32) i := by
  funext i
  obtain ⟨u, c, rfl⟩ : ∃ (u : Fin 1) (c : Fin 32), i = ix2 u c := ⟨i 0, i 1, eq_ix2 i⟩
  unfold k4_pay5
  rw [addf_apply, shapeCast_self, shapeCast_a_1a_apply, colReduce_at, pay4_eq]
  rfl

/-- The stored sums of squares: what the buffer held plus the tile's column sums of squares. -/
theorem pay1_eq (q : Vec Ideal S1x32 .f32) :
    k4_pay1 (F := Ideal) (k4_pay6 q) (k4_pay7 x0 x1 x2 x3 x4)
      = fun i => q i + colSumSq (conv (x0 : Arr 5000 256) x1 x2 x3 x4 : Arr 5000 32) i := by
  funext i
  obtain ⟨u, c, rfl⟩ : ∃ (u : Fin 1) (c : Fin 32), i = ix2 u c := ⟨i 0, i 1, eq_ix2 i⟩
  unfold k4_pay1 k4_pay6 k4_pay7
  rw [addf_apply, shapeCast_self, shapeCast_a_1a_apply, colReduce_at, pay4_eq]
  rfl

/-- The two reset payloads are the zero row. -/
theorem pay2_eq : k4_pay2 (F := Ideal) = fun _ => (0 : EReal) := by
  funext i
  exact Ideal.ofBits_zero_f32
theorem pay3_eq : k4_pay3 (F := Ideal) = fun _ => (0 : EReal) := by
  funext i
  exact Ideal.ofBits_zero_f32

end Cert.KernelIdeal.ConvPay4

end
-- ==== Proof.Conv4.lean ====
/-
  Region 4 of the kernel program (one graph-convolution layer's linear part, 256 inputs to 32 outputs, ten row
  tiles of 5000): what its first result array (the program's result) holds after the last grid point, as functions of the five operand
  arrays the region is entered with.
-/
import proofs.«134842_j42545946034237_1_alg».proof.Proof.Gen.KernelIdeal.Frame
import proofs.«134842_j42545946034237_1_alg».proof.Proof.Spec
import proofs.«134842_j42545946034237_1_alg».proof.Proof.ConvPay4
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Conv4

open Cert.KernelIdeal Cert.KernelIdeal.Gen Cert.GraphNet

section Pieces
variable {F : FTy → Type} [FloatOps F]

theorem hz : (![0, 0] : Fin 2 → Nat) = fun _ => 0 := funext fun a => by fin_cases a <;> rfl

/-! ## What each control case leaves in the first result buffer

On whole buffers holding the operand blocks `x0 … x4`, the body's one covering store of the first result buffer is
the layer's payload on those blocks, in both control cases (the cases differ only in the two accumulators). -/

theorem out_B_5 (c : Dev nD) (i : grid4.Coords) (a1 : Memref sig .tc .vmem S5000x256 .f32) (h1 : a1.IsWhole) (a2 : Memref sig .tc .vmem S5000x256 .f32) (h2 : a2.IsWhole) (a3 : Memref sig .tc .vmem S256x32 .f32) (h3 : a3.IsWhole) (a4 : Memref sig .tc .vmem S256x32 .f32) (h4 : a4.IsWhole) (a5 : Memref sig .tc .vmem S1x32 .f32) (h5 : a5.IsWhole) (a6 : Memref sig .tc .vmem S5000x32 .f32) (h6 : a6.IsWhole) (a7 : Memref sig .tc .vmem S1x32 .f32) (h7 : a7.IsWhole) (a8 : Memref sig .tc .vmem S1x32 .f32) (h8 : a8.IsWhole) (hc : ¬cond4_0 i) (x0 x1 : Vec F S5000x256 .f32) (x2 x3 : Vec F S256x32 .f32) (x4 : Vec F S1x32 .f32) (xo6 xo7 : Vec F S1x32 .f32) :
    out4_B_5 c i a1 h1 a2 h2 a3 h3 a4 h4 a5 h5 a6 h6 a7 h7 a8 h8 hc x0 x1 x2 x3 x4 xo6 xo7 = k4_pay4 x0 x1 x2 x3 x4 := by
  unfold out4_B_5
  rw [View.read_writes_eq_canon _ _ _ (cover4_B_5 c i a1 h1 a2 h2 a3 h3 a4 h4 a5 h5 a6 h6 a7 h7 a8 h8 hc x0 x1 x2 x3 x4 xo6 xo7)]
  unfold kernelRun4_B
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S5000x256) hz, View.ld_unit_zero (S := S256x32) hz, View.ld_unit_zero (S := S1x32) hz]

theorem out_A_5 (c : Dev nD) (i : grid4.Coords) (a1 : Memref sig .tc .vmem S5000x256 .f32) (h1 : a1.IsWhole) (a2 : Memref sig .tc .vmem S5000x256 .f32) (h2 : a2.IsWhole) (a3 : Memref sig .tc .vmem S256x32 .f32) (h3 : a3.IsWhole) (a4 : Memref sig .tc .vmem S256x32 .f32) (h4 : a4.IsWhole) (a5 : Memref sig .tc .vmem S1x32 .f32) (h5 : a5.IsWhole) (a6 : Memref sig .tc .vmem S5000x32 .f32) (h6 : a6.IsWhole) (a7 : Memref sig .tc .vmem S1x32 .f32) (h7 : a7.IsWhole) (a8 : Memref sig .tc .vmem S1x32 .f32) (h8 : a8.IsWhole) (hc : cond4_0 i) (x0 x1 : Vec F S5000x256 .f32) (x2 x3 : Vec F S256x32 .f32) (x4 : Vec F S1x32 .f32) :
    out4_A_5 c i a1 h1 a2 h2 a3 h3 a4 h4 a5 h5 a6 h6 a7 h7 a8 h8 hc x0 x1 x2 x3 x4 = k4_pay4 x0 x1 x2 x3 x4 := by
  unfold out4_A_5
  rw [View.read_writes_eq_canon _ _ _ (cover4_A_5 c i a1 h1 a2 h2 a3 h3 a4 h4 a5 h5 a6 h6 a7 h7 a8 h8 hc x0 x1 x2 x3 x4)]
  unfold kernelRun4_A
  dsimp only
  sl_unfold_words
  rw [View.canon_unit_zero hz]
  simp only [View.readAt_eq_ld, h1.read_unread, h2.read_unread, h3.read_unread, h4.read_unread, h5.read_unread, h7.read_unread, h8.read_unread,
    View.ld_unit_zero (S := S5000x256) hz, View.ld_unit_zero (S := S256x32) hz, View.ld_unit_zero (S := S1x32) hz]

end Pieces

variable (V : (c : Dev nD) → (b : Ref sig .tc) → Buf (Elt Ideal) ((c : Thread nD τ).loc b))

/-- The layer's output H = A·Wr + bias + X·Wo of the operand arrays as the region finds them. -/
abbrev H (c : Dev nD) : Arr 50000 32 :=
  conv (V c main_v68 : Arr 50000 256) (V c main_v55 : Arr 50000 256) (V c main_v69 : Arr 256 32) (V c main_v70 : Arr 256 32) (V c main_v71 : Arr 1 32)

/-! ## The operand blocks

Point `t` reads row tile `t` of the two row-tiled operands and the whole of the two weight arrays and the bias. -/

/-- The tile a point's number names (the grid has ten points). -/
def tn (k : ℕ) : Fin 10 := ⟨k % 10, Nat.mod_lt k (by decide)⟩

theorem tn_val (t : Fin 10) : tn t.val = t := Fin.ext (Nat.mod_eq_of_lt t.isLt)

theorem lt10 (t : Fin cfg4.N) : t.val < 10 := by
  have hN : cfg4.N = 10 := N_4
  have := t.isLt
  omega

theorem blk0_eq (c : Dev nD) (t : Fin cfg4.N) :
    (iblk4 V c 0 t : Arr 5000 256) = tile (V c main_v68 : Arr 50000 256) (tn t.val) := by
  have hi := (by decide +kernel : ∀ t : Fin grid4.N, win4_0.index t (0 : Fin 2) = t.val ∧ win4_0.index t (1 : Fin 2) = 0) t
  have hlt := lt10 t
  funext j
  unfold iblk4 tile
  rw [View.read_apply]
  show V c main_v68 _ = V c main_v68 _
  congr 1
  funext a
  apply Fin.ext
  match a with
  | ⟨0, _⟩ => show win4_0.index t 0 * 5000 + 1 * (j 0).val = 5000 * (t.val % 10) + (j 0).val; rw [hi.1]; omega
  | ⟨1, _⟩ => show win4_0.index t 1 * 256 + 1 * (j 1).val = (j 1).val; rw [hi.2]; omega

theorem blk1_eq (c : Dev nD) (t : Fin cfg4.N) :
    (iblk4 V c 1 t : Arr 5000 256) = tile (V c main_v55 : Arr 50000 256) (tn t.val) := by
  have hi := (by decide +kernel : ∀ t : Fin grid4.N, win4_1.index t (0 : Fin 2) = t.val ∧ win4_1.index t (1 : Fin 2) = 0) t
  have hlt := lt10 t
  funext j
  unfold iblk4 tile
  rw [View.read_apply]
  show V c main_v55 _ = V c main_v55 _
  congr 1
  funext a
  apply Fin.ext
  match a with
  | ⟨0, _⟩ => show win4_1.index t 0 * 5000 + 1 * (j 0).val = 5000 * (t.val % 10) + (j 0).val; rw [hi.1]; omega
  | ⟨1, _⟩ => show win4_1.index t 1 * 256 + 1 * (j 1).val = (j 1).val; rw [hi.2]; omega

theorem blk2_eq (c : Dev nD) (t : Fin cfg4.N) : (iblk4 V c 2 t : Arr 256 32) = (V c main_v69 : Arr 256 32) := by
  have hi := (by decide +kernel : ∀ t : Fin grid4.N, win4_2.index t (0 : Fin 2) = 0 ∧ win4_2.index t (1 : Fin 2) = 0) t
  funext j
  unfold iblk4
  rw [View.read_apply]
  show V c main_v69 _ = V c main_v69 j
  congr 1
  funext a
  apply Fin.ext
  match a with
  | ⟨0, _⟩ => show win4_2.index t 0 * 256 + 1 * (j 0).val = (j 0).val; rw [hi.1]; omega
  | ⟨1, _⟩ => show win4_2.index t 1 * 32 + 1 * (j 1).val = (j 1).val; rw [hi.2]; omega

theorem blk3_eq (c : Dev nD) (t : Fin cfg4.N) : (iblk4 V c 3 t : Arr 256 32) = (V c main_v70 : Arr 256 32) := by
  have hi := (by decide +kernel : ∀ t : Fin grid4.N, win4_3.index t (0 : Fin 2) = 0 ∧ win4_3.index t (1 : Fin 2) = 0) t
  funext j
  unfold iblk4
  rw [View.read_apply]
  show V c main_v70 _ = V c main_v70 j
  congr 1
  funext a
  apply Fin.ext
  match a with
  | ⟨0, _⟩ => show win4_3.index t 0 * 256 + 1 * (j 0).val = (j 0).val; rw [hi.1]; omega
  | ⟨1, _⟩ => show win4_3.index t 1 * 32 + 1 * (j 1).val = (j 1).val; rw [hi.2]; omega

theorem blk4_eq (c : Dev nD) (t : Fin cfg4.N) : (iblk4 V c 4 t : Arr 1 32) = (V c main_v71 : Arr 1 32) := by
  have hi := (by decide +kernel : ∀ t : Fin grid4.N, win4_4.index t (0 : Fin 2) = 0 ∧ win4_4.index t (1 : Fin 2) = 0) t
  funext j
  unfold iblk4
  rw [View.read_apply]
  show V c main_v71 _ = V c main_v71 j
  congr 1
  funext a
  apply Fin.ext
  match a with
  | ⟨0, _⟩ => show win4_4.index t 0 * 1 + 1 * (j 0).val = (j 0).val; rw [hi.1]; omega
  | ⟨1, _⟩ => show win4_4.index t 1 * 32 + 1 * (j 1).val = (j 1).val; rw [hi.2]; omega

/-- The layer on point `t`'s blocks is tile `t` of the layer on the arrays. -/
theorem conv_blocks (c : Dev nD) (t : Fin cfg4.N) :
    (conv (iblk4 V c 0 t : Arr 5000 256) (iblk4 V c 1 t) (iblk4 V c 2 t) (iblk4 V c 3 t) (iblk4 V c 4 t) : Arr 5000 32)
      = tile (H V c) (tn t.val) := by
  rw [blk0_eq V c t, blk1_eq V c t, blk2_eq V c t, blk3_eq V c t, blk4_eq V c t]
  rfl

/-! ## What the result buffers hold after each point -/

/-- The payload of the first result on point `t`'s blocks: tile `t` of the layer. -/
theorem pay4_blocks (c : Dev nD) (t : Fin cfg4.N) :
    (k4_pay4 (F := Ideal) (iblk4 V c 0 t) (iblk4 V c 1 t) (iblk4 V c 2 t) (iblk4 V c 3 t) (iblk4 V c 4 t) : Arr 5000 32) = tile (H V c) (tn t.val) :=
  (ConvPay4.pay4_eq (iblk4 V c 0 t) (iblk4 V c 1 t) (iblk4 V c 2 t) (iblk4 V c 3 t) (iblk4 V c 4 t)).trans (conv_blocks V c t)

/-- After every point the first result buffer holds tile `t` of the layer, whichever control case the point is in. -/
theorem inv5 (c : Dev nD) (t : Fin cfg4.N) : ((outsAt4 V c t.val t.isLt).1 : Arr 5000 32) = tile (H V c) (tn t.val) := by
  by_cases h0 : t.val % 10 = 0
  · rw [outsAt4_A V c t h0]
    dsimp only
    rw [out_A_5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t)]
    exact pay4_blocks V c t
  · rw [outsAt4_B V c t h0]
    dsimp only
    rw [out_B_5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2]
    exact pay4_blocks V c t

/-! ## The result arrays after the last point -/

/-- Every point writes its block of the first result array back, and the block is tile `t` of the layer. -/
theorem flushed5 (c : Dev nD) (t : Fin cfg4.N) (hf : (cfg4.win 5).flush t = true) :
    (dat4 (F := Ideal) V c).flushed 5 t = ((cfg4.win 5).blk t).view.read (Elt Ideal) (H V c) := by
  have hi := (by decide +kernel : ∀ t : Fin grid4.N, win4_5.index t (0 : Fin 2) = t.val ∧ win4_5.index t (1 : Fin 2) = 0) t
  have hlt := lt10 t
  show (cfg4.win 5).cut (grid4.coords t) ((dat4 (F := Ideal) V c).after 5 t) = _
  rw [after4_5, inv5 V c t]
  funext j
  rw [View.read_apply]
  show H V c _ = H V c _
  congr 1
  funext a
  apply Fin.ext
  match a with
  | ⟨0, _⟩ => show 5000 * (t.val % 10) + (j 0).val = win4_5.index t 0 * 5000 + 1 * (j 0).val; rw [hi.1]; omega
  | ⟨1, _⟩ => show (j 1).val = win4_5.index t 1 * 32 + 1 * (j 1).val; rw [hi.2]; omega

/-- Row tile t of the first result array is what point t stored, and the ten tiles cover it: the array ends at H. -/
theorem h_final (c : Dev nD) : (dat4 (F := Ideal) V c).arrAt 5 cfg4.N = H V c :=
  (dat4 (F := Ideal) V c).arrAt_eq_of_cover 5 (H V c) (flushed5 V c) fun i => by
    have h0 : (i 0 : Nat) < 50000 := (i 0).isLt
    have h1 : (i 1 : Nat) < 32 := (i 1).isLt
    have hN : cfg4.N = 10 := N_4
    refine ⟨⟨(i 0 : Nat) / 5000, by rw [hN]; omega⟩, flush4_5 _, ?_⟩
    generalize ht : (⟨(i 0 : Nat) / 5000, by rw [hN]; omega⟩ : Fin cfg4.N) = t
    have htv : t.val = (i 0 : Nat) / 5000 := by rw [← ht]
    have hi := (by decide +kernel : ∀ t : Fin grid4.N, (win4_5.index t (0 : Fin 2) = t.val ∧ win4_5.index t (1 : Fin 2) = 0)
      ∧ win4_5.xsize (grid4.coords t) (0 : Fin 2) = 5000 ∧ win4_5.xsize (grid4.coords t) (1 : Fin 2) = 32) t
    show i ∈ ((View.whole main_v72_0).slice (win4_5.rect t)).set
    rw [View.set_slice_whole, Rect.mem_set_unit]
    intro a
    match a with
    | ⟨0, _⟩ =>
      show win4_5.index t 0 * 5000 ≤ (i 0 : Nat) ∧ (i 0 : Nat) < win4_5.index t 0 * 5000 + win4_5.xsize (grid4.coords t) 0
      rw [hi.1.1, hi.2.1, htv]; omega
    | ⟨1, _⟩ =>
      show win4_5.index t 1 * 32 ≤ (i 1 : Nat) ∧ (i 1 : Nat) < win4_5.index t 1 * 32 + win4_5.xsize (grid4.coords t) 1
      rw [hi.1.2, hi.2.2]; omega

end Cert.KernelIdeal.Conv4

end
-- ==== Proof.StageC.lean ====
/-
  The kernel program's result array after its last region, read back to the arguments: layer 3's linear output.
-/
import proofs.«134842_j42545946034237_1_alg».proof.Proof.Gen.KernelIdeal.Frame
import proofs.«134842_j42545946034237_1_alg».proof.Proof.KernelChain
import proofs.«134842_j42545946034237_1_alg».proof.Proof.StageB
import proofs.«134842_j42545946034237_1_alg».proof.Proof.Conv4
import Idealize.ShloMosaic.Lib.StableHlo.Run
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.StageC

open Cert.KernelIdeal Cert.KernelIdeal.Gen Cert.KernelIdeal.Net Cert.KernelIdeal.Chain Cert.GraphNet

variable (m : (ℓ : Loc nD τ sig) → Buf (Elt Ideal) ℓ) (ρ : Dev nD → PrngReg)

/-- A buffer that no operation of the host stretch `ops` writes holds after the stretch what it held before:
    the stretch's result buffers are listed and each is told apart from the buffer in question. -/
local macro "host_keeps" ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-! ## What region 3's exit holds of the buffers host stretch 4 reads

The edge list's two rows were cut out in host stretch 0 and nothing later writes them: no region has them among its
arrays and no later host stretch lists them as a result. -/

/-- The source row, from host stretch 0 to region 3's exit. -/
theorem w8_src (c : Dev nD) :
    (W8 (F := Ideal) m ρ c (Proc.devRef .tc main_v1) : IVec S800000 32) = src (m ((c : Thread nD τ).loc main_arg1)) :=
  calc W8 (F := Ideal) m ρ c (Proc.devRef .tc main_v1)
    _ = W7 m ρ c (Proc.devRef .tc main_v1) := W8_of_ne m ρ c main_v1 (by decide)
    _ = W6 m ρ c (Proc.devRef .tc main_v1) := by host_keeps hostOps3
    _ = W5 m ρ c (Proc.devRef .tc main_v1) := W6_of_ne m ρ c main_v1 (by decide)
    _ = W4 m ρ c (Proc.devRef .tc main_v1) := by host_keeps hostOps2
    _ = W3 m ρ c (Proc.devRef .tc main_v1) := W4_of_ne m ρ c main_v1 (by decide)
    _ = W2 m ρ c (Proc.devRef .tc main_v1) := by host_keeps hostOps1
    _ = W1 m ρ c (Proc.devRef .tc main_v1) := W2_of_ne m ρ c main_v1 (by decide)
    _ = src (m ((c : Thread nD τ).loc main_arg1)) := by
      show StableHlo.after hostOps0 (W0 m ρ c) (Proc.devRef .tc main_v1) = _
      after_results
      rfl

/-- The destination row, likewise. -/
theorem w8_dst (c : Dev nD) :
    (W8 (F := Ideal) m ρ c (Proc.devRef .tc main_v3) : IVec S800000 32) = dst (m ((c : Thread nD τ).loc main_arg1)) :=
  calc W8 (F := Ideal) m ρ c (Proc.devRef .tc main_v3)
    _ = W7 m ρ c (Proc.devRef .tc main_v3) := W8_of_ne m ρ c main_v3 (by decide)
    _ = W6 m ρ c (Proc.devRef .tc main_v3) := by host_keeps hostOps3
    _ = W5 m ρ c (Proc.devRef .tc main_v3) := W6_of_ne m ρ c main_v3 (by decide)
    _ = W4 m ρ c (Proc.devRef .tc main_v3) := by host_keeps hostOps2
    _ = W3 m ρ c (Proc.devRef .tc main_v3) := W4_of_ne m ρ c main_v3 (by decide)
    _ = W2 m ρ c (Proc.devRef .tc main_v3) := by host_keeps hostOps1
    _ = W1 m ρ c (Proc.devRef .tc main_v3) := W2_of_ne m ρ c main_v3 (by decide)
    _ = dst (m ((c : Thread nD τ).loc main_arg1)) := by
      show StableHlo.after hostOps0 (W0 m ρ c) (Proc.devRef .tc main_v3) = _
      after_results
      rfl

/-- An argument that region 4 does not have among its arrays and host stretch 4 does not write holds at region 3's
    exit what it holds at the end, and an argument ends as launched. -/
theorem w8_arg2 (c : Dev nD) : W8 (F := Ideal) m ρ c (Proc.devRef .tc main_arg2) = m ((c : Thread nD τ).loc main_arg2) :=
  calc W8 (F := Ideal) m ρ c (Proc.devRef .tc main_arg2)
    _ = W9 m ρ c (Proc.devRef .tc main_arg2) := Eq.symm (by host_keeps hostOps4)
    _ = W10 m ρ c (Proc.devRef .tc main_arg2) := (W10_of_ne m ρ c main_arg2 (by decide)).symm
    _ = m ((c : Thread nD τ).loc main_arg2) := W10_main_arg2 m ρ c
theorem w8_arg9 (c : Dev nD) : W8 (F := Ideal) m ρ c (Proc.devRef .tc main_arg9) = m ((c : Thread nD τ).loc main_arg9) :=
  calc W8 (F := Ideal) m ρ c (Proc.devRef .tc main_arg9)
    _ = W9 m ρ c (Proc.devRef .tc main_arg9) := Eq.symm (by host_keeps hostOps4)
    _ = W10 m ρ c (Proc.devRef .tc main_arg9) := (W10_of_ne m ρ c main_arg9 (by decide)).symm
    _ = m ((c : Thread nD τ).loc main_arg9) := W10_main_arg9 m ρ c
theorem w8_arg10 (c : Dev nD) : W8 (F := Ideal) m ρ c (Proc.devRef .tc main_arg10) = m ((c : Thread nD τ).loc main_arg10) :=
  calc W8 (F := Ideal) m ρ c (Proc.devRef .tc main_arg10)
    _ = W9 m ρ c (Proc.devRef .tc main_arg10) := Eq.symm (by host_keeps hostOps4)
    _ = W10 m ρ c (Proc.devRef .tc main_arg10) := (W10_of_ne m ρ c main_arg10 (by decide)).symm
    _ = m ((c : Thread nD τ).loc main_arg10) := W10_main_arg10 m ρ c
theorem w8_arg11 (c : Dev nD) : W8 (F := Ideal) m ρ c (Proc.devRef .tc main_arg11) = m ((c : Thread nD τ).loc main_arg11) :=
  calc W8 (F := Ideal) m ρ c (Proc.devRef .tc main_arg11)
    _ = W9 m ρ c (Proc.devRef .tc main_arg11) := Eq.symm (by host_keeps hostOps4)
    _ = W10 m ρ c (Proc.devRef .tc main_arg11) := (W10_of_ne m ρ c main_arg11 (by decide)).symm
    _ = m ((c : Thread nD τ).loc main_arg11) := W10_main_arg11 m ρ c

/-- Layer 2's normalised rows at region 3's exit, read at the buffer's device reference. -/
theorem w8_y (c : Dev nD) : (W8 (F := Ideal) m ρ c (Proc.devRef .tc main_v55) : Arr 50000 256) = Y2 m c :=
  StageB.v8_y m ρ c

/-! ## Region 4's five operand arrays as it is entered -/

/-- The aggregated neighbours: host stretch 4 gathers layer 2's normalised rows at the wrapped sources, scales by the
    edge weights and scatter-adds into the destination rows. -/
theorem v9_agg (c : Dev nD) : (V9 (F := Ideal) m ρ c main_v68 : Arr 50000 256) = A3 m c := by
  show StableHlo.after hostOps4 (W8 m ρ c) (Proc.devRef .tc main_v68) = _
  after_results_simp
  rw [w8_dst m ρ c, w8_src m ρ c, w8_arg2 m ρ c, w8_y m ρ c]
  rfl

/-- Layer 2's normalised rows themselves: host stretch 4 leaves them. -/
theorem v9_y (c : Dev nD) : (V9 (F := Ideal) m ρ c main_v55 : Arr 50000 256) = Y2 m c :=
  Eq.trans (by host_keeps hostOps4) (w8_y m ρ c)

/-- The two weight matrices transposed and the bias as a row. -/
theorem v9_wr (c : Dev nD) : (V9 (F := Ideal) m ρ c main_v69 : Arr 256 32) = wT3 (m ((c : Thread nD τ).loc main_arg9)) := by
  show StableHlo.after hostOps4 (W8 m ρ c) (Proc.devRef .tc main_v69) = _
  after_results
  rw [w8_arg9 m ρ c]
  rfl
theorem v9_wo (c : Dev nD) : (V9 (F := Ideal) m ρ c main_v70 : Arr 256 32) = wT3 (m ((c : Thread nD τ).loc main_arg11)) := by
  show StableHlo.after hostOps4 (W8 m ρ c) (Proc.devRef .tc main_v70) = _
  after_results
  rw [w8_arg11 m ρ c]
  rfl
theorem v9_b (c : Dev nD) : (V9 (F := Ideal) m ρ c main_v71 : Arr 1 32) = row32 (m ((c : Thread nD τ).loc main_arg10)) := by
  show StableHlo.after hostOps4 (W8 m ρ c) (Proc.devRef .tc main_v71) = _
  after_results
  rw [w8_arg10 m ρ c]
  rfl

/-! ## The result -/

/-- The program's result array is region 4's first output array; the region leaves there the layer's linear output
    of its operand arrays, and those are layer 3's. -/
theorem v10_h (c : Dev nD) : (W10 (F := Ideal) m ρ c (Proc.devRef .tc main_v72_0) : Arr 50000 32) = H3 m c := by
  refine (W10_arr (F := Ideal) m ρ c 5).trans ((Conv4.h_final (V9 m ρ) c).trans ?_)
  show conv (V9 (F := Ideal) m ρ c main_v68 : Arr 50000 256) (V9 (F := Ideal) m ρ c main_v55 : Arr 50000 256)
      (V9 (F := Ideal) m ρ c main_v69 : Arr 256 32) (V9 (F := Ideal) m ρ c main_v70 : Arr 256 32)
      (V9 (F := Ideal) m ρ c main_v71 : Arr 1 32) = _
  rw [v9_agg m ρ c, v9_y m ρ c, v9_wr m ρ c, v9_wo m ρ c, v9_b m ρ c]
  rfl

end Cert.KernelIdeal.StageC

end
-- ==== Proof.RefValue.lean ====
/-
  The reference program's run, read as the network of Spec.lean with the variances taken from the deviations: its
  matrix products read at an index are the sums over the contracted axis, its two reductions over the rows the
  column sums, its keep-dimension broadcasts the rows' entries.
-/
import proofs.«134842_j42545946034237_1_alg».proof.Proof.Gen.ReferenceIdeal.Run
import proofs.«134842_j42545946034237_1_alg».proof.Proof.Spec
import proofs.«134842_j42545946034237_1_alg».proof.Proof.RefNet
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

noncomputable section

open Idealize.ShloMosaic Idealize.ShloMosaic.TcCoe Idealize.SL.Sem

namespace Cert.ReferenceIdeal.RefValue

open Cert.ReferenceIdeal Cert.ReferenceIdeal.Gen Cert.ReferenceIdeal.Net Cert.GraphNet

section Lemmas

open Idealize.ShloMosaic.ValueIdx Idealize.ShloMosaic.StableHlo Cert.ReferenceIdeal.Value

/-! ## Layout operations read at an index -/

/-- A vector laid out as one row, read at (0, t), is the vector at t. -/
theorem bcastRow_apply {α : Type} {n : ℕ} (h : (⟨1, ![n]⟩ : Shape).BroadcastsInDim ⟨2, ![1, n]⟩ ![1])
    (v : (⟨1, ![n]⟩ : Shape).Idx → α) (i : (⟨2, ![1, n]⟩ : Shape).Idx) :
    broadcastInDim ⟨2, ![1, n]⟩ ![1] h v i = v (ix1 (i 1)) := by
  refine broadcastInDim_apply ![1] h v i (ix1 (i 1)) ?_
  intro a
  match a with
  | ⟨0, _⟩ =>
    show (i 1).val = if n = 1 then 0 else (i 1).val
    split
    · have := (i 1).isLt; have e : (i 1).val < n := this; omega
    · rfl

/-- A one-row array broadcast down the rows, read at i, is the row at (0, i 1). -/
theorem bcastRows_apply {α : Type} {m n : ℕ} (h : (⟨2, ![1, n]⟩ : Shape).BroadcastsInDim ⟨2, ![m, n]⟩ ![0, 1])
    (y : (⟨2, ![1, n]⟩ : Shape).Idx → α) (i : (⟨2, ![m, n]⟩ : Shape).Idx) :
    broadcastInDim ⟨2, ![m, n]⟩ ![0, 1] h y i = y (ix2 (0 : Fin 1) (i 1)) := by
  conv_lhs => rw [eq_ix2 i]
  exact broadcastInDim_oneRow_apply h y (i 0) (i 1)

/-! ## A matrix product read at an index

`DotDims.plain M K N` contracts the left operand's axis 1 with the right operand's axis 0; the program's three
dimension-number records are instances of it. The four operand coordinates first, then the sum over the contracted axis. -/

section Dot
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl
theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- At the ideal values the host's product at (r, j) is Σₖ l(r,k)·r(k,j). -/
theorem plain_apply (l : Arr M K) (r : Arr K N) (i : (⟨2, ![M, N]⟩ : Shape).Idx) :
    Host.dotGeneral (F := Ideal) (φ₁ := .f32) (φ₂ := .f32) (DotDims.plain M K N) none l r i
      = ∑ k : Fin K, l (ix2 (i 0) k) * r (ix2 k (i 1)) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  rw [el, er]
  rfl

end Dot

theorem dot1_eq : dot_S50000x64_S64x128_S50000x128_1_0_0_1_n_n = DotDims.plain 50000 64 128 := rfl
theorem dot2_eq : dot_S50000x128_S128x256_S50000x256_1_0_0_1_n_n = DotDims.plain 50000 128 256 := rfl
theorem dot3_eq : dot_S50000x256_S256x32_S50000x32_1_0_0_1_n_n = DotDims.plain 50000 256 32 := rfl

/-! ## One layer's linear part -/

/-- The reference's layer: (A·Wr + bias broadcast down the rows) + X·Wo, the two products given at an index. -/
theorem conv_eq {n a b : ℕ} (hB : (⟨2, ![1, b]⟩ : Shape).BroadcastsInDim ⟨2, ![n, b]⟩ ![0, 1])
    (P Q : Arr n b) (A X : Arr n a) (Wr Wo : Arr a b) (bias : Arr 1 b)
    (hP : ∀ i, P i = ∑ k : Fin a, A (ix2 (i 0) k) * Wr (ix2 k (i 1)))
    (hQ : ∀ i, Q i = ∑ k : Fin a, X (ix2 (i 0) k) * Wo (ix2 k (i 1))) :
    addf (F := Ideal) (s := ⟨2, ![n, b]⟩) (φ := .f32)
        (addf (F := Ideal) (s := ⟨2, ![n, b]⟩) (φ := .f32) P (broadcastInDim ⟨2, ![n, b]⟩ ![0, 1] hB bias)) Q
      = conv A X Wr Wo bias := by
  funext i
  rw [addf_apply, addf_apply, bcastRows_apply, hP, hQ]
  rfl

/-! ## The column statistics and the normalisation -/

theorem hostTanh_apply {s : Shape} (x : FVec Ideal s .f32) (i : s.Idx) : Host.tanh x i = Ideal.tanh (x i) := rfl
theorem hostRsqrt_apply {s : Shape} (x : FVec Ideal s .f32) (i : s.Idx) : Host.rsqrt x i = Ideal.rsqrt (x i) := rfl

/-- The host's sum over the rows, at column j: the initial value plus Σᵣ x(r, j). -/
theorem reduceRows_apply {n b : ℕ} (h' : (⟨2, ![n, b]⟩ : Shape).ReducesTo [0] ⟨1, ![b]⟩)
    (x : Arr n b) (init : S_.Idx → EReal) (hu : 0 < S_.numel)
    (j : (⟨1, ![b]⟩ : Shape).Idx) :
    Host.reduceAdd (F := Ideal) (φ := .f32) x init h' hu j
      = init (Shape.Idx.first hu) + ∑ r : Fin n, x (ix2 r (j 0)) := by
  have h : (⟨2, ![n, b]⟩ : Shape).Reduces [0] ⟨1, ![b]⟩ := by
    obtain ⟨h1, h2⟩ := h'
    exact ⟨h1, Nat.one_pos, h2⟩
  rw [hostReduceAdd_apply, Ideal.hostReduceAdd_single h' h]
  refine congrArg _ (Finset.sum_congr rfl fun r _ => congrArg x (funext fun a => Fin.ext ?_))
  match a with
  | ⟨0, _⟩ => rfl
  | ⟨1, _⟩ => rfl

section Norm
variable {b : ℕ} (hR' : (⟨2, ![50000, b]⟩ : Shape).ReducesTo [0] ⟨1, ![b]⟩)
  (hB0 : S_.BroadcastsInDim ⟨1, ![b]⟩ ![])
  (hB1 : (⟨1, ![b]⟩ : Shape).BroadcastsInDim ⟨2, ![1, b]⟩ ![1])
  (hB2 : (⟨2, ![1, b]⟩ : Shape).BroadcastsInDim ⟨2, ![50000, b]⟩ ![0, 1])

/-- The reference's column means (the rows' sum from zero, divided by the number of rows), laid out as one row. -/
theorem mean_eq (H : Arr 50000 b) :
    broadcastInDim ⟨2, ![1, b]⟩ ![1] hB1
        (Host.divf (F := Ideal) (φ := .f32)
          (Host.reduceAdd (F := Ideal) (φ := .f32) H (constant (F := Ideal) S_ .f32 0x00000000#32) hR' h_S_)
          (broadcastInDim ⟨1, ![b]⟩ ![] hB0 (constant (F := Ideal) S_ .f32 0x47435000#32)))
      = mean H := by
  funext i
  rw [bcastRow_apply, hostDivf_apply, reduceRows_apply hR', broadcastInDim_scalar_apply, constant_apply, constant_apply,
    Ideal.ofBits_zero_f32, zero_add]
  rfl

/-- The reference's normalised layer: the deviations from the mean, times the reciprocal root of (the mean of the
    squared deviations plus epsilon), scaled, shifted, through the hyperbolic tangent. -/
theorem normTanh_eq (H : Arr 50000 b) (μ : FVec Ideal ⟨1, ![b]⟩ .f32) (γ β : Arr 1 b)
    (hμ : broadcastInDim ⟨2, ![1, b]⟩ ![1] hB1 μ = mean H) :
    Host.tanh (F := Ideal) (s := ⟨2, ![50000, b]⟩) (φ := .f32)
      (addf (mulf (mulf
          (subf H (broadcastInDim ⟨2, ![50000, b]⟩ ![0, 1] hB2 (broadcastInDim ⟨2, ![1, b]⟩ ![1] hB1 μ)))
          (broadcastInDim ⟨2, ![50000, b]⟩ ![0, 1] hB2 (broadcastInDim ⟨2, ![1, b]⟩ ![1] hB1
            (Host.rsqrt (addf
              (Host.divf
                (Host.reduceAdd
                  (mulf (subf H (broadcastInDim ⟨2, ![50000, b]⟩ ![0, 1] hB2 (broadcastInDim ⟨2, ![1, b]⟩ ![1] hB1 μ)))
                    (subf H (broadcastInDim ⟨2, ![50000, b]⟩ ![0, 1] hB2 (broadcastInDim ⟨2, ![1, b]⟩ ![1] hB1 μ))))
                  (constant (F := Ideal) S_ .f32 0x00000000#32) hR' h_S_)
                (broadcastInDim ⟨1, ![b]⟩ ![] hB0 (constant (F := Ideal) S_ .f32 0x47435000#32)))
              (broadcastInDim ⟨1, ![b]⟩ ![] hB0 (constant (F := Ideal) S_ .f32 0x3727C5AC#32)))))))
          (broadcastInDim ⟨2, ![50000, b]⟩ ![0, 1] hB2 γ))
        (broadcastInDim ⟨2, ![50000, b]⟩ ![0, 1] hB2 β))
      = normTanh H (mean H) (varCentred H) γ β := by
  rw [hμ]
  funext i
  simp only [hostTanh_apply, hostRsqrt_apply, addf_apply, mulf_apply, subf_apply, bcastRows_apply hB2, bcastRow_apply hB1,
    hostDivf_apply, reduceRows_apply hR', broadcastInDim_scalar_apply hB0, constant_apply, Ideal.ofBits_zero_f32, zero_add]
  rfl

end Norm

/-! ## The reference's stages, as the network's -/

section Stages
variable (m : (ℓ : Loc nD τ sig) → Buf (Elt Ideal) ℓ) (c : Dev nD)

/-- Layer 1's linear output. -/
abbrev lin1 : Arr 50000 128 :=
  conv (agg64 (m ((c.tc : Thread nD τ).loc main_arg1)) (m ((c.tc : Thread nD τ).loc main_arg2)) (m ((c.tc : Thread nD τ).loc main_arg0))) (m ((c.tc : Thread nD τ).loc main_arg0))
    (wT1 (m ((c.tc : Thread nD τ).loc main_arg3))) (wT1 (m ((c.tc : Thread nD τ).loc main_arg5))) (brow128 (m ((c.tc : Thread nD τ).loc main_arg4)))
/-- Layer 1 normalised, through the hyperbolic tangent. -/
abbrev act1 : Arr 50000 128 :=
  normTanh (lin1 m c) (mean (lin1 m c)) (varCentred (lin1 m c)) (brow128 (m ((c.tc : Thread nD τ).loc main_arg12))) (brow128 (m ((c.tc : Thread nD τ).loc main_arg13)))
/-- Layer 2's linear output. -/
abbrev lin2 : Arr 50000 256 :=
  conv (agg128 (m ((c.tc : Thread nD τ).loc main_arg1)) (m ((c.tc : Thread nD τ).loc main_arg2)) (act1 m c)) (act1 m c)
    (wT2 (m ((c.tc : Thread nD τ).loc main_arg6))) (wT2 (m ((c.tc : Thread nD τ).loc main_arg8))) (brow256 (m ((c.tc : Thread nD τ).loc main_arg7)))
/-- Layer 2 normalised, through the hyperbolic tangent. -/
abbrev act2 : Arr 50000 256 :=
  normTanh (lin2 m c) (mean (lin2 m c)) (varCentred (lin2 m c)) (brow256 (m ((c.tc : Thread nD τ).loc main_arg14))) (brow256 (m ((c.tc : Thread nD τ).loc main_arg15)))

theorem v24_eq : res_main_v24 (F := Ideal) (launchContents m c) = lin1 m c := by
  unfold res_main_v24
  rw [dot1_eq]
  exact conv_eq bcast_S1x128_S50000x128_0_1 _ _ _ _ _ _ _ (fun i => plain_apply _ _ i) (fun i => plain_apply _ _ i)

theorem v27_eq : broadcastInDim S1x128 ![1] bcast_S128_S1x128_1 (res_main_v27 (F := Ideal) (launchContents m c))
    = mean (lin1 m c) := by
  unfold res_main_v27
  rw [v24_eq]
  exact mean_eq reducesTo_S50000x128_S128_d0 bcast_S_S128 bcast_S128_S1x128_1 (lin1 m c)

theorem v50_eq : res_main_v50 (F := Ideal) (launchContents m c) = act1 m c := by
  unfold res_main_v50 res_main_v30
  rw [v24_eq]
  exact normTanh_eq reducesTo_S50000x128_S128_d0 bcast_S_S128 bcast_S128_S1x128_1 bcast_S1x128_S50000x128_0_1
    (lin1 m c) (res_main_v27 (F := Ideal) (launchContents m c)) _ _ (v27_eq m c)

theorem v71_eq : res_main_v71 (F := Ideal) (launchContents m c) = lin2 m c := by
  unfold res_main_v71
  rw [v50_eq, dot2_eq]
  exact conv_eq bcast_S1x256_S50000x256_0_1 _ _ _ _ _ _ _ (fun i => plain_apply _ _ i) (fun i => plain_apply _ _ i)

theorem v74_eq : broadcastInDim S1x256 ![1] bcast_S256_S1x256_1 (res_main_v74 (F := Ideal) (launchContents m c))
    = mean (lin2 m c) := by
  unfold res_main_v74
  rw [v71_eq]
  exact mean_eq reducesTo_S50000x256_S256_d0 bcast_S_S256 bcast_S256_S1x256_1 (lin2 m c)

theorem v97_eq : res_main_v97 (F := Ideal) (launchContents m c) = act2 m c := by
  unfold res_main_v97 res_main_v77
  rw [v71_eq]
  exact normTanh_eq reducesTo_S50000x256_S256_d0 bcast_S_S256 bcast_S256_S1x256_1 bcast_S1x256_S50000x256_0_1
    (lin2 m c) (res_main_v74 (F := Ideal) (launchContents m c)) _ _ (v74_eq m c)

end Stages

end Lemmas

variable (m : (ℓ : Loc nD τ sig) → Buf (Elt Ideal) ℓ) (ρ : Dev nD → PrngReg)

/-- The network of the launch contents of the sixteen arguments, variances from the deviations. -/
abbrev net (c : Dev nD) : Arr 50000 32 :=
  netCentred (agg64 (m ((c.tc : Thread nD τ).loc main_arg1)) (m ((c.tc : Thread nD τ).loc main_arg2))) (agg128 (m ((c.tc : Thread nD τ).loc main_arg1)) (m ((c.tc : Thread nD τ).loc main_arg2)))
    (agg256 (m ((c.tc : Thread nD τ).loc main_arg1)) (m ((c.tc : Thread nD τ).loc main_arg2))) (m ((c.tc : Thread nD τ).loc main_arg0))
    (wT1 (m ((c.tc : Thread nD τ).loc main_arg3))) (wT1 (m ((c.tc : Thread nD τ).loc main_arg5))) (brow128 (m ((c.tc : Thread nD τ).loc main_arg4)))
    (wT2 (m ((c.tc : Thread nD τ).loc main_arg6))) (wT2 (m ((c.tc : Thread nD τ).loc main_arg8))) (brow256 (m ((c.tc : Thread nD τ).loc main_arg7)))
    (wT3 (m ((c.tc : Thread nD τ).loc main_arg9))) (wT3 (m ((c.tc : Thread nD τ).loc main_arg11))) (brow32 (m ((c.tc : Thread nD τ).loc main_arg10)))
    (brow128 (m ((c.tc : Thread nD τ).loc main_arg12))) (brow128 (m ((c.tc : Thread nD τ).loc main_arg13))) (brow256 (m ((c.tc : Thread nD τ).loc main_arg14))) (brow256 (m ((c.tc : Thread nD τ).loc main_arg15)))

/-- The generated run's result term is the network. -/
theorem run_net : θ_run defs (onTc (τ := τ) (main (F := Ideal))) ⟨m, fun _ => 0, ρ⟩ fun r => ∀ c : Dev nD,
      r.2.mem ((c.tc : Thread nD τ).loc main_v118) = net m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  refine (θ_run defs _ _).mono (fun r h c => ?_) (Cert.ReferenceIdeal.Value.run (F := Ideal) m ρ)
  obtain ⟨h1, h2⟩ := h c
  refine ⟨h1.trans ?_, h2⟩
  rw [v97_eq, dot3_eq]
  exact conv_eq bcast_S1x32_S50000x32_0_1 _ _ _ _ _ _ _ (fun i => plain_apply _ _ i) (fun i => plain_apply _ _ i)

end Cert.ReferenceIdeal.RefValue

end
-- ==== Proof.Finite.lean ====
/-
  What the precondition gives: it is the conjunction, over the fifteen float arguments, of "every entry's absolute
  value is below +∞" (the edge list, an integer array, is not constrained).  Over the extended reals an entry whose
  absolute value is below +∞ is neither +∞ nor −∞: it is a real number.  Stated here for the eight arguments whose
  realness the value proof uses (the node features, the edge weights, and the first two layers' weights and biases).
-/
import proofs.«134842_j42545946034237_1_alg».proof.Pre_finite_inputs
import proofs.«134842_j42545946034237_1_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

open Idealize.ShloMosaic

namespace Cert.Finite

open Cert.Pre_finite_inputs Cert.Pre_finite_inputs.Gen

/-- Every entry of the array is a real number. -/
def AllReal {s : Shape} (a : FVec Ideal s .f32) : Prop := ∀ i, ∃ r : ℝ, a i = (r : EReal)

/-- The f32 pattern with an all-ones exponent, zero fraction and clear sign bit denotes +∞. -/
theorem ofBits_inf : Ideal.ofBits .f32 0x7F800000#32 = ⊤ := by simp [Ideal.ofBits, Ideal.ieee]

/-- On the extended reals, `max x (-x) < ⊤` excludes both infinities (at `⊥` and at `⊤` the maximum is `⊤`), so `x` is
    the image of a real number. -/
theorem real_of_abs_lt_top (x : EReal) (h : Ideal.cmp .olt (max x (-x)) ⊤ = 1#1) : ∃ r : ℝ, x = (r : EReal) := by
  induction x using EReal.rec with
  | bot => exact absurd h (by simp [Ideal.cmp])
  | top => exact absurd h (by simp [Ideal.cmp])
  | coe r => exact ⟨r, rfl⟩

/-- One conjunct of the precondition, at any shape: if the conjunction over all indices of "`|a i| < +∞`" (a reduction by
    `and` over every axis, from 1, into the one-element shape) is 1, then every entry of `a` is real. The reduction being 1
    makes each compared element 1; the right-hand side of each comparison is the splat of the +∞ pattern, and the left-hand
    side is `max (a i) (-(a i))`. -/
theorem allReal_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
          (constantI S_ 1 1#1) hr hu ValueIdx.ix0 = 1#1) : AllReal a := by
  haveI : Subsingleton S_.Idx := ⟨fun _ _ => funext fun d => d.elim0⟩
  intro i
  have hi := Host.reduce_andi_all _ _ hr hu ValueIdx.ix0 e i
  apply real_of_abs_lt_top
  rw [← ofBits_inf]
  exact hi

/-- A one-bit `and` of two one-element arrays that is 1 has both operands 1. -/
theorem andi_split {x y : IVec S_ 1} (h : andi x y ValueIdx.ix0 = 1#1) : x ValueIdx.ix0 = 1#1 ∧ y ValueIdx.ix0 = 1#1 :=
  IntOp.andi_eq_one.1 h

/-- The precondition, all ones, makes the eight arrays the value proof needs real-valued. -/
theorem real_of_pre (a0 : FVec Ideal S50000x64 .f32) (a1 : IVec S2x800000 32) (a2 : FVec Ideal S800000 .f32)
    (a3 : FVec Ideal S128x64 .f32) (a4 : FVec Ideal S128 .f32) (a5 : FVec Ideal S128x64 .f32)
    (a6 : FVec Ideal S256x128 .f32) (a7 : FVec Ideal S256 .f32) (a8 : FVec Ideal S256x128 .f32)
    (a9 : FVec Ideal S32x256 .f32) (a10 : FVec Ideal S32 .f32) (a11 : FVec Ideal S32x256 .f32)
    (a12 : FVec Ideal S128 .f32) (a13 : FVec Ideal S128 .f32) (a14 : FVec Ideal S256 .f32) (a15 : FVec Ideal S256 .f32)
    (h : Cert.Pre_finite_inputs.fn (F := Ideal) a0 a1 a2 a3 a4 a5 a6 a7 a8 a9 a10 a11 a12 a13 a14 a15 = fun _ => 1#1) :
    AllReal a0 ∧ AllReal a2 ∧ AllReal a3 ∧ AllReal a4 ∧ AllReal a5 ∧ AllReal a6 ∧ AllReal a7 ∧ AllReal a8 := by
  -- The precondition at its one index is a left-nested chain of fifteen conjuncts, one per float argument in order
  -- (a0, a2, a3, …, a15), each the "all entries have absolute value below +∞" reduction of that argument.
  have h0 := congrFun h ValueIdx.ix0
  dsimp only [fn, fn_part1, fn_part2, fn_part3, fn_part4] at h0
  -- Peel the chain from the outside: the seven outermost conjuncts (a15 down to a9) are not needed.
  obtain ⟨h0, -⟩ := andi_split h0
  obtain ⟨h0, -⟩ := andi_split h0
  obtain ⟨h0, -⟩ := andi_split h0
  obtain ⟨h0, -⟩ := andi_split h0
  obtain ⟨h0, -⟩ := andi_split h0
  obtain ⟨h0, -⟩ := andi_split h0
  obtain ⟨h0, -⟩ := andi_split h0
  -- The remaining eight, a8 down to a3 and then the innermost pair (a0, a2), are kept.
  obtain ⟨h0, e8⟩ := andi_split h0
  obtain ⟨h0, e7⟩ := andi_split h0
  obtain ⟨h0, e6⟩ := andi_split h0
  obtain ⟨h0, e5⟩ := andi_split h0
  obtain ⟨h0, e4⟩ := andi_split h0
  obtain ⟨h0, e3⟩ := andi_split h0
  obtain ⟨e0, e2⟩ := andi_split h0
  exact ⟨allReal_of_all a0 _ _ _ e0, allReal_of_all a2 _ _ _ e2, allReal_of_all a3 _ _ _ e3, allReal_of_all a4 _ _ _ e4,
    allReal_of_all a5 _ _ _ e5, allReal_of_all a6 _ _ _ e6, allReal_of_all a7 _ _ _ e7, allReal_of_all a8 _ _ _ e8⟩

end Cert.Finite

end
-- ==== Proof.Bridge.lean ====
/-
  The two programs compute one function.  Both are the three-layer network of Spec.lean applied to the same prepared
  arguments: the aggregations are the same gather, scale and scatter-add; the transposed weights are the same
  arrays; a vector laid out as one row by a reshape (one program) or by a broadcast along a new unit axis (the
  other) has the same entries.  They differ only in how a column's variance is taken, and Spec.lean's `net_eq`
  joins the two forms when the first two layers' inputs are real — which the precondition gives for the arguments,
  a sum of products of reals keeps for the aggregation, and the hyperbolic tangent restores after each
  normalisation.
-/
import proofs.«134842_j42545946034237_1_alg».proof.Defs
import proofs.«134842_j42545946034237_1_alg».proof.Proof.Spec
import proofs.«134842_j42545946034237_1_alg».proof.Proof.KernelNet
import proofs.«134842_j42545946034237_1_alg».proof.Proof.RefNet
import proofs.«134842_j42545946034237_1_alg».proof.Proof.KernelChain
import proofs.«134842_j42545946034237_1_alg».proof.Proof.StageC
import proofs.«134842_j42545946034237_1_alg».proof.Proof.ResultRun
import proofs.«134842_j42545946034237_1_alg».proof.Proof.RefValue
import proofs.«134842_j42545946034237_1_alg».proof.Proof.Finite
import Idealize.ShloMosaic.Lib.ValueLayout
import Idealize.ShloMosaic.Lib.Pipeline.Value

noncomputable section

open Idealize.ShloMosaic Idealize.ShloMosaic.ValueIdx Idealize.ShloMosaic.TcCoe Idealize.SL.Sem

namespace Cert.Bridge

open Cert.GraphNet

/-! ## The prepared arguments agree -/

/-- A vector reshaped to one row is the vector broadcast along a new leading unit axis. -/
theorem row_bcast {a : ℕ} (ha : a ≠ 1) (v : (⟨1, ![a]⟩ : Shape).Idx → EReal) (h1 : (⟨1, ![a]⟩ : Shape).ShapeCasts ⟨2, ![1, a]⟩)
    (h2 : (⟨1, ![a]⟩ : Shape).BroadcastsInDim ⟨2, ![1, a]⟩ ![1]) :
    shapeCast ⟨2, ![1, a]⟩ v h1 = broadcastInDim ⟨2, ![1, a]⟩ ![1] h2 v := by
  funext j
  obtain ⟨u, i, rfl⟩ : ∃ (u : Fin 1) (i : Fin a), j = ix2 u i := ⟨j 0, j 1, eq_ix2 j⟩
  rw [shapeCast_a_1a_apply]
  refine (broadcastInDim_apply _ _ _ _ (ix1 i) fun c => ?_).symm
  match c with
  | ⟨0, _⟩ =>
    show i.val = if a = 1 then 0 else i.val
    rw [if_neg ha]

theorem row128_eq (v : FVec Ideal ⟨1, ![128]⟩ .f32) : Cert.KernelIdeal.Net.row128 v = Cert.ReferenceIdeal.Net.brow128 v :=
  row_bcast (by decide) v _ _
theorem row256_eq (v : FVec Ideal ⟨1, ![256]⟩ .f32) : Cert.KernelIdeal.Net.row256 v = Cert.ReferenceIdeal.Net.brow256 v :=
  row_bcast (by decide) v _ _
theorem row32_eq (v : FVec Ideal ⟨1, ![32]⟩ .f32) : Cert.KernelIdeal.Net.row32 v = Cert.ReferenceIdeal.Net.brow32 v :=
  row_bcast (by decide) v _ _

/-- The two programs' aggregations and transposed weights are the same terms. -/
theorem agg64_eq (ei : IVec ⟨2, ![2, 800000]⟩ 32) (w : FVec Ideal ⟨1, ![800000]⟩ .f32) :
    Cert.KernelIdeal.Net.agg64 ei w = Cert.ReferenceIdeal.Net.agg64 ei w := rfl
theorem agg128_eq (ei : IVec ⟨2, ![2, 800000]⟩ 32) (w : FVec Ideal ⟨1, ![800000]⟩ .f32) :
    Cert.KernelIdeal.Net.agg128 ei w = Cert.ReferenceIdeal.Net.agg128 ei w := rfl
theorem agg256_eq (ei : IVec ⟨2, ![2, 800000]⟩ 32) (w : FVec Ideal ⟨1, ![800000]⟩ .f32) :
    Cert.KernelIdeal.Net.agg256 ei w = Cert.ReferenceIdeal.Net.agg256 ei w := rfl
theorem wT1_eq (W : FVec Ideal ⟨2, ![128, 64]⟩ .f32) : Cert.KernelIdeal.Net.wT1 W = Cert.ReferenceIdeal.Net.wT1 W := rfl
theorem wT2_eq (W : FVec Ideal ⟨2, ![256, 128]⟩ .f32) : Cert.KernelIdeal.Net.wT2 W = Cert.ReferenceIdeal.Net.wT2 W := rfl
theorem wT3_eq (W : FVec Ideal ⟨2, ![32, 256]⟩ .f32) : Cert.KernelIdeal.Net.wT3 W = Cert.ReferenceIdeal.Net.wT3 W := rfl

/-! ## Realness through the preparations -/

theorem isR_bcast {s t : Shape} (dims : Fin s.rank → Fin t.rank) (h : s.BroadcastsInDim t dims) (x : s.Idx → EReal)
    (hx : ∀ k, IsR (x k)) (j : t.Idx) : IsR (broadcastInDim t dims h x j) := by
  unfold broadcastInDim; exact hx _
theorem isR_gather {s si t : Shape} {w : Nat} (d : GatherDims s si t) (x : s.Idx → EReal) (idx : IVec si w)
    (hx : ∀ k, IsR (x k)) (j : t.Idx) : IsR (Host.gather d x idx j) := by
  unfold Host.gather; exact hx _
/-- An entry of the scatter-add is the operand's entry plus a finite sum of update entries. -/
theorem isR_scatterAdd {s si su : Shape} {w : Nat} (d : ScatterDims s si su) (x : FVec Ideal s .f32) (idx : IVec si w)
    (upd : FVec Ideal su .f32) (hx : ∀ k, IsR (x k)) (hu : ∀ k, IsR (upd k)) (i : s.Idx) :
    IsR (Host.scatterAdd d x idx upd i) :=
  (hx i).add (IsR.sum _ _ fun j _ => hu j)
theorem isR_transpose {s t : Shape} (perm : List (Fin s.rank)) (x : s.Idx → EReal) (h : s.Transposes perm t)
    (hx : ∀ k, IsR (x k)) (j : t.Idx) : IsR (transpose t perm x h j) := by
  unfold transpose; exact hx _
theorem isR_shapeCast {s t : Shape} (x : s.Idx → EReal) (h : s.ShapeCasts t) (hx : ∀ k, IsR (x k)) (j : t.Idx) :
    IsR (shapeCast t x h j) := by
  unfold shapeCast; exact hx _

theorem agg64_real (ei : IVec ⟨2, ![2, 800000]⟩ 32) (w : FVec Ideal ⟨1, ![800000]⟩ .f32) (hw : ∀ k, IsR (w k))
    (X : Arr 50000 64) (hX : RealArr X) : RealArr (Cert.KernelIdeal.Net.agg64 ei w X) := by
  intro i
  unfold Cert.KernelIdeal.Net.agg64
  refine isR_scatterAdd _ _ _ _ (fun k => ?_) (fun k => ?_) i
  · exact isR_bcast _ _ _ (fun _ => ⟨0, Ideal.ofBits_zero_f32⟩) k
  · exact (isR_gather _ _ _ hX k).mul (isR_bcast _ _ _ (fun k' => isR_bcast _ _ _ hw k') k)
theorem agg128_real (ei : IVec ⟨2, ![2, 800000]⟩ 32) (w : FVec Ideal ⟨1, ![800000]⟩ .f32) (hw : ∀ k, IsR (w k))
    (X : Arr 50000 128) (hX : RealArr X) : RealArr (Cert.KernelIdeal.Net.agg128 ei w X) := by
  intro i
  unfold Cert.KernelIdeal.Net.agg128
  refine isR_scatterAdd _ _ _ _ (fun k => ?_) (fun k => ?_) i
  · exact isR_bcast _ _ _ (fun _ => ⟨0, Ideal.ofBits_zero_f32⟩) k
  · exact (isR_gather _ _ _ hX k).mul (isR_bcast _ _ _ (fun k' => isR_bcast _ _ _ hw k') k)

/-! ## The claim -/

/-- The network with centred variances over one program's preparations of real arguments is the network with the
    variances from the moments over the other's preparations of equal arguments. -/
theorem nets_agree (a0 a0' : Arr 50000 64) (a1 a1' : IVec ⟨2, ![2, 800000]⟩ 32) (a2 a2' : FVec Ideal ⟨1, ![800000]⟩ .f32)
    (a3 a3' a5 a5' : FVec Ideal ⟨2, ![128, 64]⟩ .f32) (a4 a4' : FVec Ideal ⟨1, ![128]⟩ .f32) (a6 a6' a8 a8' : FVec Ideal ⟨2, ![256, 128]⟩ .f32) (a7 a7' : FVec Ideal ⟨1, ![256]⟩ .f32)
    (a9 a9' a11 a11' : FVec Ideal ⟨2, ![32, 256]⟩ .f32) (a10 a10' : FVec Ideal ⟨1, ![32]⟩ .f32) (a12 a12' a13 a13' : FVec Ideal ⟨1, ![128]⟩ .f32) (a14 a14' a15 a15' : FVec Ideal ⟨1, ![256]⟩ .f32)
    (e0 : a0' = a0) (e1 : a1' = a1) (e2 : a2' = a2) (e3 : a3' = a3) (e4 : a4' = a4) (e5 : a5' = a5) (e6 : a6' = a6)
    (e7 : a7' = a7) (e8 : a8' = a8) (e9 : a9' = a9) (e10 : a10' = a10) (e11 : a11' = a11) (e12 : a12' = a12)
    (e13 : a13' = a13) (e14 : a14' = a14) (e15 : a15' = a15)
    (r0 : RealArr a0) (r2 : ∀ k, IsR (a2 k)) (r3 : ∀ k, IsR (a3 k)) (r4 : ∀ k, IsR (a4 k)) (r5 : ∀ k, IsR (a5 k))
    (r6 : ∀ k, IsR (a6 k)) (r7 : ∀ k, IsR (a7 k)) (r8 : ∀ k, IsR (a8 k)) :
    netCentred (Cert.ReferenceIdeal.Net.agg64 a1' a2') (Cert.ReferenceIdeal.Net.agg128 a1' a2') (Cert.ReferenceIdeal.Net.agg256 a1' a2') a0'
        (Cert.ReferenceIdeal.Net.wT1 a3') (Cert.ReferenceIdeal.Net.wT1 a5') (Cert.ReferenceIdeal.Net.brow128 a4')
        (Cert.ReferenceIdeal.Net.wT2 a6') (Cert.ReferenceIdeal.Net.wT2 a8') (Cert.ReferenceIdeal.Net.brow256 a7')
        (Cert.ReferenceIdeal.Net.wT3 a9') (Cert.ReferenceIdeal.Net.wT3 a11') (Cert.ReferenceIdeal.Net.brow32 a10')
        (Cert.ReferenceIdeal.Net.brow128 a12') (Cert.ReferenceIdeal.Net.brow128 a13') (Cert.ReferenceIdeal.Net.brow256 a14') (Cert.ReferenceIdeal.Net.brow256 a15')
      = netMoments (Cert.KernelIdeal.Net.agg64 a1 a2) (Cert.KernelIdeal.Net.agg128 a1 a2) (Cert.KernelIdeal.Net.agg256 a1 a2) a0
        (Cert.KernelIdeal.Net.wT1 a3) (Cert.KernelIdeal.Net.wT1 a5) (Cert.KernelIdeal.Net.row128 a4)
        (Cert.KernelIdeal.Net.wT2 a6) (Cert.KernelIdeal.Net.wT2 a8) (Cert.KernelIdeal.Net.row256 a7)
        (Cert.KernelIdeal.Net.wT3 a9) (Cert.KernelIdeal.Net.wT3 a11) (Cert.KernelIdeal.Net.row32 a10)
        (Cert.KernelIdeal.Net.row128 a12) (Cert.KernelIdeal.Net.row128 a13) (Cert.KernelIdeal.Net.row256 a14) (Cert.KernelIdeal.Net.row256 a15) := by
  subst e0 e1 e2 e3 e4 e5 e6 e7 e8 e9 e10 e11 e12 e13 e14 e15
  rw [← row128_eq, ← row128_eq, ← row128_eq, ← row256_eq, ← row256_eq, ← row256_eq, ← row32_eq,
    ← agg64_eq, ← agg128_eq, ← agg256_eq, ← wT1_eq, ← wT1_eq, ← wT2_eq, ← wT2_eq, ← wT3_eq, ← wT3_eq]
  exact (net_eq _ _ _ _ _ _ _ _ _ _ _ _ _ _ _ _ _
    (fun X hX => agg64_real _ _ r2 X hX) (fun X hX => agg128_real _ _ r2 X hX)
    r0 (fun j => isR_transpose _ _ _ r3 j) (fun j => isR_transpose _ _ _ r5 j) (fun j => isR_shapeCast _ _ r4 j)
    (fun j => isR_transpose _ _ _ r6 j) (fun j => isR_transpose _ _ _ r8 j) (fun j => isR_shapeCast _ _ r7 j)).symm

/-- At the extended reals the kernel program's result array ends at layer 3's linear output of its own chain, the
    reference's at the network with the centred variances, of arguments that agree: one function of real inputs. -/
theorem algebraic : Cert.algebraic_KernelIdeal_ReferenceIdeal := by
  intro m ρ m' ρ' hpre hagree
  refine ⟨fun c => Cert.KernelIdeal.Chain.H3 m c, ?_, ?_⟩
  · exact (θ_run Cert.KernelIdeal.defs _ _).mono
      (fun r h c => ⟨((h c).1).trans (Cert.KernelIdeal.StageC.v10_h m ρ c), (h c).2⟩)
      (Cert.KernelIdeal.ResultRun.run_result (F := Ideal) m ρ)
  · refine (θ_run Cert.ReferenceIdeal.defs _ _).mono (fun r h c => ⟨((h c).1).trans ?_, (h c).2⟩)
      (Cert.ReferenceIdeal.RefValue.run_net m' ρ')
    obtain ⟨e0, e1, e2, e3, e4, e5, e6, e7, e8, e9, e10, e11, e12, e13, e14, e15⟩ := hagree c
    obtain ⟨r0, r2, r3, r4, r5, r6, r7, r8⟩ := Cert.Finite.real_of_pre _ _ _ _ _ _ _ _ _ _ _ _ _ _ _ _ (hpre c)
    exact (nets_agree _ _ _ _ _ _ _ _ _ _ _ _ _ _ _ _ _ _ _ _ _ _ _ _ _ _ _ _ _ _ _ _
      e0 e1 e2 e3 e4 e5 e6 e7 e8 e9 e10 e11 e12 e13 e14 e15 r0 r2 r3 r4 r5 r6 r7 r8).trans
      (Cert.KernelIdeal.Chain.H3_eq_net m c).symm

end Cert.Bridge

end
-- ==== Proof.lean ====
/-
  A three-layer graph convolution network on 50000 nodes and 800000 weighted edges (features 64 → 128 → 256 → 32),
  with a batch normalisation over the nodes and a hyperbolic tangent after the first two layers.

  One program computes each layer's dense part (aggregated neighbours times one weight matrix, plus a bias, plus the
  nodes' own features times another) in ten row tiles of 5000, accumulating every column's sum and sum of squares
  across the tiles, takes the variance as the mean of the squares minus the squared mean, and normalises tile by
  tile; the other computes the same layer with whole matrix products and takes the variance as the mean of the
  squared deviations.  The neighbour aggregation (gather the source rows, scale by the edge weight, scatter-add
  into the destination rows) is the same operation in both.

  Read at the extended reals the matrix products are exact sums, rounding to bfloat16 is the identity, a column's sum
  over the ten tiles is its sum over all rows, and the two variances agree on columns of real numbers.  Finite
  inputs make layer 1's columns real; the hyperbolic tangent, real-valued everywhere, makes layer 2's real whatever
  the normalisation did.  So the two results are equal entry by entry.

  The frames of the two tiled programs are the generated ones; the reference's frame is its generated run with the
  result dropped; no operation was rewritten by the idealisation, so there is nothing to preserve.
-/
import proofs.«134842_j42545946034237_1_alg».proof.Defs
import proofs.«134842_j42545946034237_1_alg».proof.Proof.Gen.Kernel
import proofs.«134842_j42545946034237_1_alg».proof.Proof.Gen.Kernel.Skeleton
import proofs.«134842_j42545946034237_1_alg».proof.Proof.Gen.Kernel.Launch
import proofs.«134842_j42545946034237_1_alg».proof.Proof.Gen.Kernel.Points
import proofs.«134842_j42545946034237_1_alg».proof.Proof.Gen.Kernel.Frame
import proofs.«134842_j42545946034237_1_alg».proof.Proof.Gen.KernelIdeal
import proofs.«134842_j42545946034237_1_alg».proof.Proof.Gen.KernelIdeal.Skeleton
import proofs.«134842_j42545946034237_1_alg».proof.Proof.Gen.KernelIdeal.Launch
import proofs.«134842_j42545946034237_1_alg».proof.Proof.Gen.KernelIdeal.Points
import proofs.«134842_j42545946034237_1_alg».proof.Proof.Gen.KernelIdeal.Frame
import proofs.«134842_j42545946034237_1_alg».proof.Proof.Gen.ReferenceIdeal
import proofs.«134842_j42545946034237_1_alg».proof.Proof.Gen.ReferenceIdeal.Run
import proofs.«134842_j42545946034237_1_alg».proof.Proof.Gen.Pre_finite_inputs
import proofs.«134842_j42545946034237_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Bridge.algebraic⟩

end Cert.Proof

end
